-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x256 .f32) (main_arg5 : FVec F S256 .f32) (main_arg6 : FVec F S256x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S800000x16 .f32) (main_arg2 : FVec F S16x128 .f32) (main_arg3 : FVec F S128 .f32) (main_arg4 : FVec F S128x256 .f32) (main_arg5 : FVec F S256 .f32) (main_arg6 : FVec F S256x128 .f32) (main_arg7 : FVec F S128 .f32) (main_arg8 : FVec F S128 .f32) (main_arg9 : FVec F S128 .f32) (main_arg10 : IVec S800000 32) (main_arg11 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S10000x128 : Shape := ⟨2, ![10000, 128]⟩
abbrev S10000x16 : Shape := ⟨2, ![10000, 16]⟩
abbrev S1x128 : Shape := ⟨2, ![1, 128]⟩
abbrev S2x128 : Shape := ⟨2, ![2, 128]⟩
abbrev S5000x128 : Shape := ⟨2, ![5000, 128]⟩
abbrev S5000x256 : Shape := ⟨2, ![5000, 256]⟩
abbrev S1x256 : Shape := ⟨2, ![1, 256]⟩

abbrev nBuf : Space → Nat
  | .hbm => 48
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S16x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S50000x128, .f32⟩
  | .hbm, ⟨27, _⟩ => ⟨S2x128, .f32⟩
  | .hbm, ⟨28, _⟩ => ⟨S1x128, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S1x128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S50000x128, .f32⟩
  | .local _ .vmem, ⟨0, _⟩ => ⟨S10000x128, .f32⟩
  | .local _ .vmem, ⟨1, _⟩ => ⟨S10000x128, .f32⟩
  | .local _ .vmem, ⟨2, _⟩ => ⟨S10000x16, .f32⟩
  | .local _ .vmem, ⟨3, _⟩ => ⟨S10000x16, .f32⟩
  | .local _ .vmem, ⟨4, _⟩ => ⟨S16x128, .f32⟩
  | .local _ .vmem, ⟨5, _⟩ => ⟨S128, .f32⟩
  | .local _ .vmem, ⟨6, _⟩ => ⟨S10000x128, .f32⟩
  | .local _ .vmem, ⟨7, _⟩ => ⟨S10000x128, .f32⟩
  | .local _ .vmem, ⟨8, _⟩ => ⟨S5000x128, .f32⟩
  | .local _ .vmem, ⟨9, _⟩ => ⟨S5000x128, .f32⟩
  | .local _ .vmem, ⟨10, _⟩ => ⟨S128x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S2x128, .f32⟩
  | .local _ .vmem, ⟨17, _⟩ => ⟨S2x128, .f32⟩
  | .local _ .vmem, ⟨18, _⟩ => ⟨S5000x128, .f32⟩
  | .local _ .vmem, ⟨19, _⟩ => ⟨S5000x128, .f32⟩
  | .local _ .vmem, ⟨20, _⟩ => ⟨S128, .f32⟩
  | .local _ .vmem, ⟨21, _⟩ => ⟨S128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_21 : BitVec 32 := 0#32
  let v41 : BitVec 1 := Scalar.cmpi .ne v40 c0_i32_21
  v41

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S2x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  inb_S10000x16_S10000x16_0_0 : ∀ a, (![0, 0] : Fin 2 → Nat) a + S10000x16.size a ≤ S10000x16.size a
  h_S10000x16 : 0 < S10000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  bcast_S_S50000x128 : S_.BroadcastsInDim S50000x128 (![] : Fin 0 → Fin S50000x128.rank)
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  broadcasts_S1x128_S5000x128 : S1x128.Broadcasts S5000x128
  reduces_S5000x128_S128 : S5000x128.Reduces [0] S128
  inb_S2x128_S1x128_0_0 : ∀ a, (![0, 0] : Fin 2 → Nat) a + S1x128.size a ≤ S2x128.size a
  h_S1x128 : 0 < S1x128.numel
  shapeCasts_S1x128_S1x128 : S1x128.ShapeCasts S1x128
  inb_S2x128_S1x128_1_0 : ∀ a, (![1, 0] : Fin 2 → Nat) a + S1x128.size a ≤ S2x128.size a
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  shapeCasts_S128_S128 : S128.ShapeCasts S128
  gather_S50000x128_S800000x1_S800000x128_1_0_n_n_0_1_1128_wf : GatherDims.WF S50000x128 S800000x1 S800000x128 [1] [0] [] [0] [] 1 ![1, 128]
  dot_S10000x16_S16x128_S10000x128_1_0_0_1_n_n_wf : DotDims.WF S10000x16 S16x128 S10000x128 [1] [0] [0] [1] [] []
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S800000x128.size a
  hwx0_0 : ∀ i : grid0.Coords, EltTy.bits .f32 = 32 ∨ (Rect.block (s := S800000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S800000x16.size a
  hwx0_1 : ∀ i : grid0.Coords, EltTy.bits .f32 = 32 ∨ (Rect.block (s := S800000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S800000x128.size a
  hwx0_4 : ∀ i : grid0.Coords, EltTy.bits .f32 = 32 ∨ (Rect.block (s := S800000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x128.size a ≤ S2x128.size a
  hwx1_6 : ∀ i : grid1.Coords, EltTy.bits .f32 = 32 ∨ (Rect.block (s := S2x128) S2x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v6) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v11_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v11_1) S2x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v11_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S16x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S800000x128, .f32⟩
  | .hbm, ⟨13, _⟩ => ⟨S1x128, .f32⟩
  | .hbm, ⟨14, _⟩ => ⟨S800000x128, .f32⟩
  | .hbm, ⟨15, _⟩ => ⟨S800000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S800000x16_S16x128_S800000x128_1_0_0_1_n_n_wf : DotDims.WF S800000x16 S16x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.K.R0.lean ====
import proofs.«169544_j1039382086070_1_alg».proof.Proof.Gen.Kernel.Launch
import proofs.«169544_j1039382086070_1_alg».proof.Proof.Gen.Kernel.Skeleton
import proofs.«169544_j1039382086070_1_alg».proof.Proof.Gen.Kernel.Points
import Idealize.ShloMosaic.Lib.Pipeline.FrameBody
import Idealize.ShloMosaic.Lib.Ring
import Idealize.ShloMosaic.Lib.Tactic

/-! # The edge region: each block of messages as a function of the blocks read

At every grid point the edge kernel reads a block of gathered source features (10000×128), a block of edge
features (10000×16), the whole edge weight (16×128) and the whole edge bias (128), and stores the block of
messages `gathered + edge_feats · W_edge + b_edge` (10000×128). The weight and the bias have a constant block
index, so they are brought in at the first point only and found in place afterwards. The region keeps nothing
from point to point: its invariant is the same at every point. -/

-- the blocks have 10000 rows
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered-features window holds its block at every point: for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The edge-features window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weight window holds the whole weight at every point: brought in at the first point, and afterwards the
    block index has not moved, so the block left in place is still the point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The bias window holds the whole bias at every point, for the same reason. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_msg : Rect S10000x128 := Rect.unit (s := S10000x128) ![0, 0] S10000x128.size inb_S10000x128_S10000x128_0_0
abbrev r0_ef : Rect S10000x16 := Rect.unit (s := S10000x16) ![0, 0] S10000x16.size inb_S10000x16_S10000x16_0_0
abbrev r0_w : Rect S16x128 := Rect.unit (s := S16x128) ![0, 0] S16x128.size inb_S16x128_S16x128_0_0
abbrev r0_b : Rect S128 := Rect.unit (s := S128) ![0] S128.size inb_S128_S128_0

/-! ## What the body leaves in the message window's buffer -/

/-- The message buffer after the body, from the blocks read (edge features, weight, gathered features, bias):
    its one store, over the whole buffer. -/
def out0_4 (x1 : Vec F S10000x16 .f32) (x2 : Vec F S16x128 .f32) (x0 : Vec F S10000x128 .f32) (x3 : Vec F S128 .f32) : Vec F S10000x128 .f32 :=
  View.canon [⟨r0_msg, k0_pay1 (View.ld x1 r0_ef) (View.ld x2 r0_w) (View.ld x0 r0_msg) (View.ld x3 r0_b)⟩]

/-- The one store covers the buffer. -/
theorem cover0_4 (p0 : Vec F S10000x128 .f32) (y : S10000x128.Idx) :
    ∃ pc ∈ ([⟨r0_msg, p0⟩] : List (View.Piece (Elt F) S10000x128 .f32)), y ∈ pc.1.set :=
  View.cover_of_tiled [⟨r0_msg, p0⟩] S10000x128.size (by rfl) y

/-! ## The body's triple -/

set_option maxHeartbeats 1000000 in
/-- The edge kernel on whole staging memrefs, the four inputs' at read contents and the output's at anything, runs
    to the continuation holding the inputs' as they were and the output's at `out0_4` of the inputs'. -/
theorem sound_kernel0 (c : Dev nD) (E : Set ℕ) (i : grid0.Coords) (arg1 : Memref sig .tc .vmem S10000x128 .f32) (harg1 : arg1.IsWhole) (arg2 : Memref sig .tc .vmem S10000x16 .f32) (harg2 : arg2.IsWhole) (arg3 : Memref sig .tc .vmem S16x128 .f32) (harg3 : arg3.IsWhole) (arg4 : Memref sig .tc .vmem S128 .f32) (harg4 : arg4.IsWhole) (arg5 : Memref sig .tc .vmem S10000x128 .f32) (harg5 : arg5.IsWhole)
    (x0 : Vec F S10000x128 .f32) (x1 : Vec F S10000x16 .f32) (x2 : Vec F S16x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x1 x2 x0 x3)) -∗ K ⟨⟩))
      ⊢ wp frame (wpE (defs₀ (F := F)) Variants.none c none) E (cc0__edge_kernel i arg1 harg1 arg2 harg2 arg3 harg3 arg4 harg4 arg5 harg5) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The region's proof data -/

/-- The proof data of the edge region on core `c`: the arrays as the region finds them; after the body at point
    `t` each input's buffer at its block and the message buffer at `out0_4` of the input blocks; the invariant
    the same at every point (the rest of the scoped buffers and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 1 t) (iblk0 V c 2 t) (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 1 t) (iblk0 V c 2 t) (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- On entry the invariant is the rest of the scoped buffers and the generator register. -/
theorem Phi0_first (c : Dev nD) : (dat0 V c).Φ 0 = Pipeline.ΦA spec0 c := rfl

/-- On exit it is the same. -/
theorem Phi0_last (c : Dev nD) : (dat0 V c).Φ (Fin.last cfg0.N) ⊢ Pipeline.ΦA spec0 c := .rfl

end Cert.Kernel.Hand

end
-- ==== Proof.K.R1Runs.lean ====
import proofs.«169544_j1039382086070_1_alg».proof.Proof.Gen.Kernel.Launch
import proofs.«169544_j1039382086070_1_alg».proof.Proof.Gen.Kernel.Skeleton
import proofs.«169544_j1039382086070_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the MLP kernel with its column statistics accumulated in a scratch, at the entry contents `V`

What the three control cases of the body share: the windows' blocks, the branch conditions in closed form over the
grid of 10 points, where the statistics window is idle, the staging and scratch memrefs, and the region invariant
with the scratch taken out of the scoped rest. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' and whose body leaves the block in place: unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is the entry contents' and whose body leaves the block in place: unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is the entry contents' and whose body leaves the block in place: unfetched, the index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is the entry contents' and whose body leaves the block in place: unfetched, the index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is the entry contents' and whose body leaves the block in place: unfetched, the index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the reset branch (the grid coordinate is 0), as the body computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the copy-out branch (the grid coordinate is 9), as the body computes it. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the copy-out branch is not taken the statistics window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- Where it is taken the window is live. -/
theorem liveAt1_6 : ∀ t : Fin cfg1.N, cond1_1 (grid1.coords t) → cfg1.idle 6 (grid1.coords t) = false := by decide +kernel

/-! ## The staging and scratch memrefs -/

/-- One staging buffer of each output window, through which its contents are stated (the choice does not matter). -/
abbrev VO1_5 : View sig .tc .vmem S5000x128 .f32 := (Memref.whole cc1_stg5_0 : Memref sig .tc .vmem S5000x128 .f32).view
abbrev VO1_6 : View sig .tc .vmem S2x128 .f32 := (Memref.whole cc1_stg6_0 : Memref sig .tc .vmem S2x128 .f32).view
/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x128 .f32 := win1_6.stage (cfg1.slots t 6)
abbrev hs1_6 (t : Fin cfg1.N) : (ms1_6 t).IsWhole := hstage1_6 ((cfg1.slots t 6).cast nbuf1_6)
/-- The scratch operand: a whole scoped buffer of the kernel's own, passed beside the windows. -/
abbrev scM1_0 : Memref sig .tc .vmem S2x128 .f32 := Memref.whole cc1_scratch0
/-- The scratch as a view: what it holds is stated through it. -/
abbrev VS1_0 : View sig .tc .vmem S2x128 .f32 := scM1_0.view

/-! ## The region invariant with the scratch taken out -/

/-- The core's scoped buffers that are neither a staging buffer of this pipeline nor its scratch, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The class's invariant hands out the scratch at some contents, the other scoped buffers, and the generator register. -/
theorem PhiA1_split (c : Dev nD) :
    (Pipeline.ΦA spec1 c : sProp 𝕄) ⊢ iprop(iprop((∃ d, owns (c : Thread nD τ) scM1_0 fullShare d) ∗ others1 (F := F) c) ∗ (∃ r, prngReg c r)) := by
  unfold Pipeline.ΦA others1; rw [scopedRest1_eq]; simp only [scM1_0, owns_whole]
  iintro ⟨⟨B0, B1, B2, B3, B4, B5, B6, B7, BS, B8, B9, B10, B11, B12, B13⟩, Hg⟩
  isplitr [Hg]
  · isplitl [BS]; · iexact BS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  iexact Hg

/-- And takes them back. -/
theorem PhiA1_join (c : Dev nD) :
    iprop(iprop((∃ d, owns (c : Thread nD τ) scM1_0 fullShare d) ∗ others1 (F := F) c) ∗ (∃ r, prngReg c r)) ⊢ (Pipeline.ΦA spec1 c : sProp 𝕄) := by
  unfold Pipeline.ΦA others1; rw [scopedRest1_eq]; simp only [scM1_0, owns_whole]
  iintro ⟨⟨BS, B0, B1, B2, B3, B4, B5, B6, B7, B8, B9, B10, B11, B12, B13⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [BS]; · iexact BS
    isplitl [B8]; · iexact B8
    isplitl [B9]; · iexact B9
    isplitl [B10]; · iexact B10
    isplitl [B11]; · iexact B11
    isplitl [B12]; · iexact B12
    iexact B13
  iexact Hg

end Cert.Kernel.Hand

end
-- ==== Proof.K.R1Cases.lean ====
import proofs.«169544_j1039382086070_1_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body's triple in each of its three control cases

Each case's whole-body run: the printed body is its skeleton of loads and stores over the payloads, run symbolically;
the pieces each buffer ends with are the witness the run finds. -/

set_option maxHeartbeats 1000000 in
/-- CASE A (the first point: the reset branch taken, the copy-out branch not). What the body's stores leave, as pieces
    last first, in the block output (one store), the statistics output (nothing: the window is idle) and the scratch
    (the zero fill, then row 0, then row 1), with the body's triple: on whole memrefs, the inputs at their contents,
    the block output and the scratch at anything, the statistics output at contents handed back untouched. -/
noncomputable def kernelRun1_A (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i)
    (x0 : Vec F S5000x128 .f32) (x1 : Vec F S128x256 .f32) (x2 : Vec F S256 .f32) (x3 : Vec F S256x128 .f32) (x4 : Vec F S128 .f32) :
    Σ' (L5 : List (View.Piece (Elt F) S5000x128 .f32)) (L6 : List (View.Piece (Elt F) S2x128 .f32)), { LS0 : List (View.Piece (Elt F) S2x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp_kernel i arg1 harg1 arg2 harg2 arg3 harg3 arg4 harg4 arg5 harg5 arg6 harg6 arg7 harg7 arg8 harg8) K } := by
  refine ⟨?_, [], ?_, fun xi6 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    iexists _; iexact HS0

set_option maxHeartbeats 1000000 in
/-- CASE B (points 1 to 8: neither branch taken). As case A, but the scratch is found at the contents `xs0` the point
    before left, and only its two rows are stored. -/
noncomputable def kernelRun1_B (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i)
    (x0 : Vec F S5000x128 .f32) (x1 : Vec F S128x256 .f32) (x2 : Vec F S256 .f32) (x3 : Vec F S256x128 .f32) (x4 : Vec F S128 .f32) (xs0 : Vec F S2x128 .f32) :
    Σ' (L5 : List (View.Piece (Elt F) S5000x128 .f32)) (L6 : List (View.Piece (Elt F) S2x128 .f32)), { LS0 : List (View.Piece (Elt F) S2x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp_kernel i arg1 harg1 arg2 harg2 arg3 harg3 arg4 harg4 arg5 harg5 arg6 harg6 arg7 harg7 arg8 harg8) K } := by
  refine ⟨?_, [], ?_, fun xi6 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    iexists _; iexact HS0

set_option maxHeartbeats 1000000 in
/-- CASE C (the last point: the copy-out branch taken, the reset branch not). As case B, and the statistics output,
    found at anything, is stored whole with the scratch's final contents. -/
noncomputable def kernelRun1_C (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i)
    (x0 : Vec F S5000x128 .f32) (x1 : Vec F S128x256 .f32) (x2 : Vec F S256 .f32) (x3 : Vec F S256x128 .f32) (x4 : Vec F S128 .f32) (xs0 : Vec F S2x128 .f32) :
    Σ' (L5 : List (View.Piece (Elt F) S5000x128 .f32)) (L6 : List (View.Piece (Elt F) S2x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc1__mlp_kernel i arg1 harg1 arg2 harg2 arg3 harg3 arg4 harg4 arg5 harg5 arg6 harg6 arg7 harg7 arg8 harg8) K } := by
  refine ⟨?_, ?_, ?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact HS0

end Cert.Kernel.Hand

end
-- ==== Proof.K.R1.lean ====
import proofs.«169544_j1039382086070_1_alg».proof.Proof.K.R1Cases
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the outputs and the scratch hold point by point, the proof data, the body obligation

The block output holds the MLP's value of the point's row block. The scratch holds two rows, the column sums and the
column sums of squares of the blocks so far: the first point starts them from the zero fill, every later point from
what the point before left. The statistics output is stored once, at the last point, with the scratch's contents. -/

/-! ## The body's rectangles -/

/-- The whole row block. -/
abbrev rB1 : Rect S5000x128 := Rect.unit (s := S5000x128) ![0, 0] S5000x128.size inb_S5000x128_S5000x128_0_0
/-- The whole scratch, its row 0 (the sums) and its row 1 (the sums of squares). -/
abbrev rSW1 : Rect S2x128 := Rect.unit (s := S2x128) ![0, 0] S2x128.size inb_S2x128_S2x128_0_0
abbrev rS1_0 : Rect S2x128 := Rect.unit (s := S2x128) ![0, 0] S1x128.size inb_S2x128_S1x128_0_0
abbrev rS1_1 : Rect S2x128 := Rect.unit (s := S2x128) ![1, 0] S1x128.size inb_S2x128_S1x128_1_0

theorem hz2 : (![0, 0] : Fin 2 → ℕ) = fun _ => 0 := by funext a; fin_cases a <;> rfl
theorem hz1 : (![0] : Fin 1 → ℕ) = fun _ => 0 := by funext a; fin_cases a; rfl

/-! ## What the body leaves, in closed form -/

/-- The block output's buffer after the body, from the input windows' blocks: its one store. -/
def out1_5 (x0 : Vec F S5000x128 .f32) (x1 : Vec F S128x256 .f32) (x2 : Vec F S256 .f32) (x3 : Vec F S256x128 .f32) (x4 : Vec F S128 .f32) : Vec F S5000x128 .f32 :=
  View.canon [⟨rB1, k1_pay3 x0 x1 x2 x3 x4⟩]

/-- One point's step of the scratch from contents `xs`: row 0 gains the block's column sums, row 1 its column sums of
    squares (the two row stores, last first; each reads its own row of `xs`). -/
def step1 (x0 : Vec F S5000x128 .f32) (x1 : Vec F S128x256 .f32) (x2 : Vec F S256 .f32) (x3 : Vec F S256x128 .f32) (x4 : Vec F S128 .f32) (xs : Vec F S2x128 .f32) : Vec F S2x128 .f32 :=
  View.canon [⟨rS1_1, k1_pay1 (k1_pay4 x0 x1 x2 x3 x4) (View.ld xs rS1_1)⟩, ⟨rS1_0, k1_pay5 x0 x1 x2 x3 x4 (View.ld xs rS1_0)⟩]

/-- The two row stores tile the scratch. -/
theorem cover_rows (p1 : Vec F S1x128 .f32) (p0 : Vec F S1x128 .f32) (y : S2x128.Idx) :
    ∃ pc ∈ ([⟨rS1_1, p1⟩, ⟨rS1_0, p0⟩] : List (View.Piece (Elt F) S2x128 .f32)), y ∈ pc.1.set :=
  View.cover_of_tiledL [⟨rS1_1, p1⟩, ⟨rS1_0, p0⟩] S1x128.size (by sl_kernel_rfl) y

/-- The one whole store covers. -/
theorem cover_block (p : Vec F S5000x128 .f32) (y : S5000x128.Idx) :
    ∃ pc ∈ ([⟨rB1, p⟩] : List (View.Piece (Elt F) S5000x128 .f32)), y ∈ pc.1.set :=
  View.cover_of_tiledL [⟨rB1, p⟩] S5000x128.size (by sl_kernel_rfl) y
theorem cover_stats (p : Vec F S2x128 .f32) (y : S2x128.Idx) :
    ∃ pc ∈ ([⟨rSW1, p⟩] : List (View.Piece (Elt F) S2x128 .f32)), y ∈ pc.1.set :=
  View.cover_of_tiledL [⟨rSW1, p⟩] S2x128.size (by sl_kernel_rfl) y

/-! ## The scratch after each point -/

/-- THE ACCUMULATION. What the scratch holds after the body at position `n`: at the first point one step from the zero
    fill, at a later point one step from what the point before left. -/
def acc1 (c : Dev nD) : (n : ℕ) → n < cfg1.N → Vec F S2x128 .f32
  | 0, hn => step1 (iblk1 V c 0 ⟨0, hn⟩) (iblk1 V c 1 ⟨0, hn⟩) (iblk1 V c 2 ⟨0, hn⟩) (iblk1 V c 3 ⟨0, hn⟩) (iblk1 V c 4 ⟨0, hn⟩) (k1_pay2 (F := F))
  | n + 1, hn => step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 c n (Nat.lt_of_succ_lt hn))

theorem acc1_zero (c : Dev nD) (hn : 0 < cfg1.N) :
    acc1 V c 0 hn = step1 (iblk1 V c 0 ⟨0, hn⟩) (iblk1 V c 1 ⟨0, hn⟩) (iblk1 V c 2 ⟨0, hn⟩) (iblk1 V c 3 ⟨0, hn⟩) (iblk1 V c 4 ⟨0, hn⟩) (k1_pay2 (F := F)) := rfl

theorem acc1_succ (c : Dev nD) (n : ℕ) (hn : n + 1 < cfg1.N) :
    acc1 V c (n + 1) hn = step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 V c n (Nat.lt_of_succ_lt hn)) := rfl

/-- The same at a point of the grid: the first, -/
theorem acc1_first (c : Dev nD) (t : Fin cfg1.N) (hz : t.val = 0) :
    acc1 V c t.val t.isLt = step1 (iblk1 V c 0 t) (iblk1 V c 1 t) (iblk1 V c 2 t) (iblk1 V c 3 t) (iblk1 V c 4 t) (k1_pay2 (F := F)) := by
  obtain ⟨n, hn⟩ := t
  cases n with
  | zero => rfl
  | succ n => exact absurd hz (Nat.succ_ne_zero n)

/-- and a later one. -/
theorem acc1_later (c : Dev nD) (t : Fin cfg1.N) (hz : t.val ≠ 0) :
    acc1 V c t.val t.isLt = step1 (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact absurd rfl hz
  | succ n => rfl

/-! ## The region invariant -/

/-- The region invariant before position `n`: before the first point the class's (every scoped buffer that is no staging
    buffer at anything, the generator register at some state); afterwards the same with the scratch at what the point
    before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ others1 (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block, the block output's at the MLP's value of the blocks, the statistics output's at the
    scratch's contents then (consulted at the last point only: elsewhere the window is idle); the invariant carries
    the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = acc1 V c t.val t.isLt := by dsimp only [dat1]
/-- What the statistics window's buffer holds after the last point is the scratch then. -/
theorem after1_6_last (c : Dev nD) (h : 9 < cfg1.N) : (dat1 V c).after 6 ⟨9, h⟩ = acc1 V c 9 h := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Lists of stores read back -/

/-- Where the first stores of a list cover an index, later-listed (earlier) stores do not show there. -/
theorem canon_append_apply_of_cover {s : Shape} {e : EltTy} (L' : List (View.Piece (Elt F) s e)) :
    ∀ (L : List (View.Piece (Elt F) s e)) (y : s.Idx), (∃ p ∈ L, y ∈ p.1.set) → View.canon (L ++ L') y = View.canon L y
  | [], _, h => by obtain ⟨_, hm, _⟩ := h; exact absurd hm List.not_mem_nil
  | p :: L, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p L hy]
      exact canon_append_apply_of_cover L' L y hL

/-- The two rows of the scratch are disjoint. -/
theorem rows_disjoint : Disjoint rS1_0.set rS1_1.set :=
  Rect.unit_disjoint (0 : Fin 2) (Or.inl (by decide))

/-- A load of row 0 after the zero fill reads the fill's row 0. -/
theorem readCov_fill_row0 (v : View sig .tc .vmem S2x128 .f32) (z : Vec F S2x128 .f32) :
    v.readCov [(⟨rSW1, z⟩ : View.Piece (Elt F) S2x128 .f32)] rS1_0.toLoadRect = View.ld z rS1_0 := by
  rw [View.readCov_eq_canon', View.canon_unit_zero (S := S2x128) hz2]

/-- A load of row 1 after the zero fill and a store into row 0 reads the fill's row 1. -/
theorem readCov_fill_row1 (v : View sig .tc .vmem S2x128 .f32) (z : Vec F S2x128 .f32) (p0 : Vec F S1x128 .f32) :
    v.readCov [(⟨rS1_0, p0⟩ : View.Piece (Elt F) S2x128 .f32), ⟨rSW1, z⟩] rS1_1.toLoadRect = View.ld z rS1_1 := by
  rw [View.readCov_eq_canon']
  funext j
  have hj : rS1_1.toLoadRect.idx j ∉ rS1_0.set := fun h => Finset.disjoint_right.mp rows_disjoint (rS1_1.idx_mem j) h
  rw [View.canon_cons_of_not_mem (⟨rS1_0, p0⟩ : View.Piece (Elt F) S2x128 .f32) [⟨rSW1, z⟩] hj, View.canon_unit_zero (S := S2x128) hz2]

/-- A load of the whole scratch after its two row stores reads what they leave. -/
theorem readCov_rows (v : View sig .tc .vmem S2x128 .f32) (p1 p0 : Vec F S1x128 .f32) :
    v.readCov [(⟨rS1_1, p1⟩ : View.Piece (Elt F) S2x128 .f32), ⟨rS1_0, p0⟩] rSW1.toLoadRect = View.canon [(⟨rS1_1, p1⟩ : View.Piece (Elt F) S2x128 .f32), ⟨rS1_0, p0⟩] := by
  rw [View.readCov_eq_canon_ld _ _ _ (cover_rows p1 p0), View.ld_unit_zero (S := S2x128) hz2]

/-! ## The pieces each case's run found: their covers, and what they read back as -/

theorem cover1_A_5 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) (y : S5000x128.Idx) : ∃ pc ∈ (kernelRun1_A c i arg1 harg1 arg2 harg2 arg3 harg3 arg4 harg4 arg5 harg5 arg6 harg6 arg7 harg7 arg8 harg8 hc0 hc1 x0 x1 x2 x3 x4).1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).1 S5000x128.size (by sl_kernel_rfl) y
theorem scover1_A (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) (y : S2x128.Idx) : ∃ pc ∈ (kernelRun1_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.2.1 S1x128.size (by sl_kernel_rfl) y
theorem cover1_B_5 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) (y : S5000x128.Idx) : ∃ pc ∈ (kernelRun1_B c i arg1 harg1 arg2 harg2 arg3 harg3 arg4 harg4 arg5 harg5 arg6 harg6 arg7 harg7 arg8 harg8 hc0 hc1 x0 x1 x2 x3 x4 xs0).1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0).1 S5000x128.size (by sl_kernel_rfl) y
theorem scover1_B (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) (y : S2x128.Idx) : ∃ pc ∈ (kernelRun1_B c i arg1 harg1 arg2 harg2 arg3 harg3 arg4 harg4 arg5 harg5 arg6 harg6 arg7 harg7 arg8 harg8 hc0 hc1 x0 x1 x2 x3 x4 xs0).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0).2.2.1 S1x128.size (by sl_kernel_rfl) y
theorem cover1_C_5 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) (y : S5000x128.Idx) : ∃ pc ∈ (kernelRun1_C c i arg1 harg1 arg2 harg2 arg3 harg3 arg4 harg4 arg5 harg5 arg6 harg6 arg7 harg7 arg8 harg8 hc0 hc1 x0 x1 x2 x3 x4 xs0).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0).1 S5000x128.size (by sl_kernel_rfl) y
theorem cover1_C_6 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) (y : S2x128.Idx) : ∃ pc ∈ (kernelRun1_C c i arg1 harg1 arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0).2.1 S2x128.size (by sl_kernel_rfl) y
theorem scover1_C (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) (y : S2x128.Idx) : ∃ pc ∈ (kernelRun1_C c i arg1 harg1 arg2 harg2 arg3 harg3 arg4 harg4 arg5 harg5 arg6 harg6 arg7 harg7 arg8 harg8 hc0 hc1 x0 x1 x2 x3 x4 xs0).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0).2.2.1 S1x128.size (by sl_kernel_rfl) y

/-- In every case the block output's one store is the MLP's value of the input blocks. -/
theorem out1_A_5_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) : View.canon (kernelRun1_A c i arg1 harg1 arg2 harg2 arg3 harg3 arg4 harg4 arg5 harg5 arg6 harg6 arg7 harg7 arg8 harg8 hc0 hc1 x0 x1 x2 x3 x4).1 = out1_5 x0 x1 x2 x3 x4 := by
  unfold out1_5 kernelRun1_A; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  try rfl
theorem out1_B_5_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_B c i arg1 harg1 arg2 harg2 arg3 harg3 arg4 harg4 arg5 harg5 arg6 harg6 arg7 harg7 arg8 harg8 hc0 hc1 x0 x1 x2 x3 x4 xs0).1 = out1_5 x0 x1 x2 x3 x4 := by
  unfold out1_5 kernelRun1_B; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  try rfl
theorem out1_C_5_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_C c i arg1 harg1 arg2 harg2 arg3 harg3 arg4 harg4 arg5 harg5 arg6 harg6 arg7 harg7 arg8 harg8 hc0 hc1 x0 x1 x2 x3 x4 xs0).1 = out1_5 x0 x1 x2 x3 x4 := by
  unfold out1_5 kernelRun1_C; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  try rfl

/-- Case A leaves the scratch one step from the zero fill: the fill lies under the two row stores, whose loads read it. -/
theorem sacc1_A_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) : View.canon (kernelRun1_A c i arg1 harg1 arg2 harg2 arg3 harg3 arg4 harg4 arg5 harg5 arg6 harg6 arg7 harg7 arg8 harg8 hc0 hc1 x0 x1 x2 x3 x4).2.2.1 = step1 x0 x1 x2 x3 x4 (k1_pay2 (F := F)) := by
  unfold step1 kernelRun1_A; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  show View.canon [(⟨rS1_1, k1_pay1 (k1_pay4 x0 x1 x2 x3 x4) (arg8.view.readCov [(⟨rS1_0, k1_pay5 x0 x1 x2 x3 x4 (arg8.view.readCov [(⟨rSW1, (k1_pay2 (F := F))⟩ : View.Piece (Elt F) S2x128 .f32)] rS1_0.toLoadRect)⟩ : View.Piece (Elt F) S2x128 .f32), ⟨rSW1, (k1_pay2 (F := F))⟩] rS1_1.toLoadRect)⟩ : View.Piece (Elt F) S2x128 .f32),
      ⟨rS1_0, k1_pay5 x0 x1 x2 x3 x4 (arg8.view.readCov [(⟨rSW1, (k1_pay2 (F := F))⟩ : View.Piece (Elt F) S2x128 .f32)] rS1_0.toLoadRect)⟩, ⟨rSW1, (k1_pay2 (F := F))⟩] = _
  rw [readCov_fill_row1, readCov_fill_row0]
  funext y
  exact canon_append_apply_of_cover (F := F) [⟨rSW1, (k1_pay2 (F := F))⟩] [⟨rS1_1, k1_pay1 (k1_pay4 x0 x1 x2 x3 x4) (View.ld (k1_pay2 (F := F)) rS1_1)⟩, ⟨rS1_0, k1_pay5 x0 x1 x2 x3 x4 (View.ld (k1_pay2 (F := F)) rS1_0)⟩] y (cover_rows _ _ y)

/-- Cases B and C leave it one step from what they found. -/
theorem sacc1_B_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_B c i arg1 harg1 arg2 harg2 arg3 harg3 arg4 harg4 arg5 harg5 arg6 harg6 arg7 harg7 arg8 harg8 hc0 hc1 x0 x1 x2 x3 x4 xs0).2.2.1 = step1 x0 x1 x2 x3 x4 xs0 := by
  unfold step1 kernelRun1_B; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1, harg8.read_unread]
  try rfl
theorem sacc1_C_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_C c i arg1 harg1 arg2 harg2 arg3 harg3 arg4 harg4 arg5 harg5 arg6 harg6 arg7 harg7 arg8 harg8 hc0 hc1 x0 x1 x2 x3 x4 xs0).2.2.1 = step1 x0 x1 x2 x3 x4 xs0 := by
  unfold step1 kernelRun1_C; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1, harg8.read_unread]
  try rfl

/-- Case C stores the statistics output with the scratch's final contents. -/
theorem out1_C_6_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_C c i arg1 harg1 arg2 harg2 arg3 harg3 arg4 harg4 arg5 harg5 arg6 harg6 arg7 harg7 arg8 harg8 hc0 hc1 x0 x1 x2 x3 x4 xs0).2.1 = step1 x0 x1 x2 x3 x4 xs0 := by
  unfold step1 kernelRun1_C; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1, harg8.read_unread]
  refine (View.canon_unit_zero (S := S2x128) hz2 _ _).trans ?_
  exact readCov_rows _ _ _

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms of the conditions say which case the
    point is in, so that case's run applies; the invariant hands the body the scratch at what the point before left
    (at anything at the first point) beside the other scoped buffers and the generator register, and takes it back at
    this point's contents; the statistics window's buffer is handed back untouched where the window is idle and holds
    the scratch's contents after the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 10 = 0
  · by_cases h1 : t.val % 10 = 9
    · exfalso; omega
    · have hz : t.val = 0 := by omega
      rw [Dat.leavesExact_idle (dat1 V c) 6 t (idleAt1_6 t (fun h => h1 ((hcond1_1 t).mp h))) (noFlush1_6 t (fun h => h1 ((hcond1_1 t).mp h)))]
      rw [acc1_first V c t hz]
      rw [PhiS1_castSucc V c t, PhiS1_zero V c _ _ hz]
      refine BIBase.Entails.trans (Laws.sep_mono_left (PhiA1_split (F := F) c)) ?_
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitr [Hg]
        · isplitl [HS0]
          · unfold owns; iexists _; isplitr
            swap; · iexact HS0
            ipureintro; exact (View.read_writes_eq_canon _ _ _ (scover1_A c _ _ _ _ _ _ _ _ _ _ _ _ _ _ _ _ _ _ _ _ _ _ _ _)).trans (sacc1_A_eq c _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (cover1_A_5 c _ _ _ _ _ _ _ _ _ _ _ _ _ _ _ _ _ _ _ _ _ _ _ _)).trans (out1_A_5_eq c _ _ _ _ _ _ _ _ _ _ _ _ _ _ _ _ _ _ _ _ _ _ _ _)
      iexists _; iexact H6
  · have hz : t.val ≠ 0 := by omega
    rw [acc1_later V c t hz]
    rw [PhiS1_castSucc V c t, PhiS1_pos V c _ _ hz]
    by_cases h1 : t.val % 10 = 9
    · rw [show (dat1 V c).leavesExact 6 t = owns (c : Thread nD τ) (ms1_6 t) fullShare ((dat1 V c).after 6 t) from by
        unfold Dat.leavesExact; rw [liveAt1_6 t ((hcond1_1 t).mpr h1)], after1_6, acc1_later V c t hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hoth Hg]
      · isplitr [Hg]
        · isplitl [HS0]
          · unfold owns; iexists _; isplitr
            swap; · iexact HS0
            ipureintro; exact (View.read_writes_eq_canon _ _ _ (scover1_C c _ _ _ _ _ _ _ _ _ _ _ _ _ _ _ _ _ _ _ _ _ _ _ _ _)).trans (sacc1_C_eq c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (cover1_C_5 c _ _ _ _ _ _ _ _ _ _ _ _ _ _ _ _ _ _ _ _ _ _ _ _ _)).trans (out1_C_5_eq c _ _ _ _ _ _ _ _ _ _ _ _ _ _ _ _ _ _ _ _ _ _ _ _ _)
      unfold owns; iexists _; isplitr
      swap; · iexact H6
      ipureintro; exact (View.read_writes_eq_canon _ _ _ (cover1_C_6 c _ _ _ _ _ _ _ _ _ _ _ _ _ _ _ _ _ _ _ _ _ _ _ _ _)).trans (out1_C_6_eq c _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitr [Hg]
        · isplitl [HS0]
          · unfold owns; iexists _; isplitr
            swap; · iexact HS0
            ipureintro; exact (View.read_writes_eq_canon _ _ _ (scover1_B c _ _ _ _ _ _ _ _ _ _ _ _ _ _ _ _ _ _ _ _ _ _ _ _ _)).trans (sacc1_B_eq c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (cover1_B_5 c _ _ _ _ _ _ _ _ _ _ _ _ _ _ _ _ _ _ _ _ _ _ _ _ _)).trans (out1_B_5_eq c _ _ _ _ _ _ _ _ _ _ _ _ _ _ _ _ _ _ _ _ _ _ _ _ _)
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_first (c : Dev nD) : (dat1 V c).Φ 0 = Pipeline.ΦA spec1 c := by
  rw [show (dat1 V c).Φ 0 = PhiS1 V c 0 (Nat.zero_le _) from rfl, PhiS1_zero V c 0 _ rfl]

/-- After any point the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_join (F := F) c)
  iintro ⟨⟨HS0, Hoth⟩, Hg⟩
  isplitr [Hg]
  · isplitl [HS0]
    · iexists _; iexact HS0
    iexact Hoth
  iexact Hg

/-- The same after the last point. -/
theorem Phi1_last (c : Dev nD) : (dat1 V c).Φ (Fin.last cfg1.N) ⊢ Pipeline.ΦA spec1 c :=
  Phi1_out V c _ (by rw [Fin.val_last]; have : cfg1.N = 10 := N_1; omega)

end Cert.Kernel.Hand

end
-- ==== Proof.K.R2.lean ====
/- REGION 2 of @main: custom_call 2, the affine kernel (pipeline 2), at the entry contents V.
   The class-A half of its frame: each window's block at a point, what the body leaves in the output
   window's buffer as a closed function of the input blocks, the body's triple, the proof data, and the
   body obligation at every grid point. Stated at any float instance. -/
import proofs.«169544_j1039382086070_1_alg».proof.Proof.Gen.Kernel.Launch
import proofs.«169544_j1039382086070_1_alg».proof.Proof.Gen.Kernel.Skeleton
import proofs.«169544_j1039382086070_1_alg».proof.Proof.Gen.Kernel.Points
import Idealize.ShloMosaic.Lib.Pipeline.FrameBody
import Idealize.ShloMosaic.Lib.Ring
import Idealize.ShloMosaic.Lib.Tactic

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the rows of h, block (i,0), fetched at every point): its current staging buffer holds its
    block, for any proof data whose array is V's and whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the scale row, whole, fetched at the first point only): at a later point the block index has
    not moved, so the buffer still holds the block fetched at the first point, which is this point's. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the shift row, whole, fetched at the first point only): likewise. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000×128 buffer as a rectangle. -/
abbrev rect2_rows : Rect S5000x128 := Rect.unit (s := S5000x128) ![0, 0] S5000x128.size inb_S5000x128_S5000x128_0_0
/-- The whole 128 row as a rectangle. -/
abbrev rect2_row : Rect S128 := Rect.unit (s := S128) ![0] S128.size inb_S128_S128_0

/-! ## What the body leaves in the output window's buffer -/

/-- Window 3's staging buffer after the body, from the input windows' blocks: its one store, of the payload
    h·scale+shift over the three loads, laid over the whole buffer. -/
def out2_3 (x0 : Vec F S5000x128 .f32) (x1 x2 : Vec F S128 .f32) : Vec F S5000x128 .f32 :=
  View.canon [⟨rect2_rows, k2_pay1 (View.ld x0 rect2_rows) (View.ld x1 rect2_row) (View.ld x2 rect2_row)⟩]

/-- The one store tiles the buffer, so it covers it. -/
theorem cover2_3 (p0 : Vec F S5000x128 .f32) (y : S5000x128.Idx) :
    ∃ pc ∈ ([⟨rect2_rows, p0⟩] : List (View.Piece (Elt F) S5000x128 .f32)), y ∈ pc.1.set :=
  View.cover_of_tiled [⟨rect2_rows, p0⟩] S5000x128.size (by rfl) y

/-! ## The body's triple -/

set_option maxHeartbeats 1000000 in
/-- The kernel body on whole staging memrefs, the inputs' at read contents x0, x1, x2 and the output's at anything,
    runs to the continuation holding the inputs' as they were and the output's at out2_3 of the inputs'. The
    body loads the output buffer before it stores into it; the value loaded is not used. -/
theorem triple2 (c : Dev nD) (E : Set ℕ) (i : grid2.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S5000x128 .f32) (harg4 : arg4.IsWhole)
    (x0 : Vec F S5000x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__affine_kernel i arg1 harg1 arg2 harg2 arg3 harg3 arg4 harg4) K := by
  simp only [cc2__affine_kernel_eq_skeleton]; unfold cc2__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core c: the arrays as the region finds them; after the body at point t each
    input's buffer at its block and the output's at out2_3 of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- The invariant is the class's at both ends of the grid. -/
theorem Phi2_first (c : Dev nD) : (dat2 V c).Φ 0 = Pipeline.ΦA spec2 c := rfl
theorem Phi2_last (c : Dev nD) : (dat2 V c).Φ (Fin.last cfg2.N) ⊢ Pipeline.ΦA spec2 c := .rfl

/-- Each input's current staging buffer holds its block at every point, fetched there or not. -/
theorem held2_0 (c : Dev nD) (t : Fin cfg2.N) (d) : (dat2 V c).before 0 t d = iblk2 V c 0 t :=
  held2_0_of V (dat2 V c) (A_eq2 V c 0) (after2_0 V c) t d
theorem held2_1 (c : Dev nD) (t : Fin cfg2.N) (d) : (dat2 V c).before 1 t d = iblk2 V c 1 t :=
  held2_1_of V (dat2 V c) (A_eq2 V c 1) (after2_1 V c) t d
theorem held2_2 (c : Dev nD) (t : Fin cfg2.N) (d) : (dat2 V c).before 2 t d = iblk2 V c 2 t :=
  held2_2_of V (dat2 V c) (A_eq2 V c 2) (after2_2 V c) t d

/-! ## The body obligation, at a generic point -/

/-- What the body is called with at point t, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's owed counts pass through unread. -/
theorem triple_at2 (c : Dev nD) (t : Fin cfg2.N) :
    pre2 V c t ⊢ wp frame (wpE (defs₀ (F := F)) Variants.none c none) Set.univ (bodyAt2 t) (fun _ => post2 V c t) := by
  unfold pre2 post2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (triple2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact triple_at2 V c t

end Cert.Kernel.Hand

end
-- ==== Proof.K.Run.lean ====
/- THE RUN of @main: its six segments from the launch to the return — a stretch of host operations, the edge
   kernel's region, a stretch, the MLP kernel's region, a stretch, the affine kernel's region.
   The buffer contents at every segment boundary are a fold from the launch memory: a host stretch's contents are the
   stretch's operations applied in order; a region's are its entry contents with each window's array replaced by what
   the pipeline's write-backs leave. Each region is a segment over the thread state "every unscoped buffer at the
   boundary's contents, the generator register at some state, nothing owed". The launch over the six segments gives:
   every weakly fair execution terminates and every unscoped buffer ends at the last boundary's contents; every
   argument array, written by no stretch and by no region, ends as launched. Stated at any float instance. -/
import proofs.«169544_j1039382086070_1_alg».proof.Proof.K.R0
import proofs.«169544_j1039382086070_1_alg».proof.Proof.K.R1
import proofs.«169544_j1039382086070_1_alg».proof.Proof.K.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write, and that none allocates -/

/-- No operation of host stretch 0 allocates a buffer. -/
theorem hostOps0_fresh : (hostOps0 : List (HloOp τ sig (Elt F))).Forall fun op => op.fresh = ∅ := by
  simp only [List.Forall]; repeat' constructor
/-- The references host stretch 0's operations write: each operation's result. -/
abbrev hostOps0_W : List (Ref sig .tc) := [main_c, main_v0, main_v1, main_c_0, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The references host stretch 1's operations write: each operation's result. -/
abbrev hostOps1_W : List (Ref sig .tc) := [main_cst, main_v8, main_v9, main_v10]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The references host stretch 2's operations write: each operation's result. -/
abbrev hostOps2_W : List (Ref sig .tc) := [main_v12, main_v13, main_cst_1, main_v14, main_v15, main_v16, main_v17, main_cst_2, main_v18, main_v19, main_v20, main_v21, main_cst_3, main_v22, main_v23, main_v24, main_v25, main_v26, main_v27]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After host stretch 0 (region 0's entry): the stretch's operations applied in order to the contents before it. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference host stretch 0 does not write keeps its contents across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its windows' arrays at what the pipeline leaves (an input's as entered, an output's with the
    write-backs folded in point order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at
    entry: the two facts that put the arrays back among the unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry): the stretch's operations applied in order to the contents before it. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference host stretch 1 does not write keeps its contents across it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its windows' arrays at what the pipeline leaves (an input's as entered, an output's with the
    write-backs folded in point order), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at
    entry: the two facts that put the arrays back among the unscoped buffers. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry): the stretch's operations applied in order to the contents before it. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference host stretch 2 does not write keeps its contents across it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its windows' arrays at what the pipeline leaves (an input's as entered, an output's with the
    write-backs folded in point order), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at
    entry: the two facts that put the arrays back among the unscoped buffers. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument, and a region either bypasses it or reads it through an input window, whose
array the pipeline never writes; so the fold at an argument's buffer walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's operations applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

-- a lemma stated over the pinned configuration of pipeline `p` meets the printed configuration only when
-- unification may unfold plain definitions in a metavariable's type
set_option backward.isDefEq.respectTransparency.types false in
/-- REGION 0 over the thread state: entered from every unscoped buffer at `W1`, left at `W2`. Its arrays
    split out of the unscoped buffers and are put back at the exit contents; the generator register and the scoped
    buffers no window stages go into the pipeline's invariant at the first point (`Phi0_first`) and come back out
    of it at the last (`Phi0_last`); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_first (V1 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a lemma stated over the pinned configuration of pipeline `p` meets the printed configuration only when
-- unification may unfold plain definitions in a metavariable's type
set_option backward.isDefEq.respectTransparency.types false in
/-- REGION 1 over the thread state: entered from every unscoped buffer at `W3`, left at `W4`. Its arrays
    split out of the unscoped buffers and are put back at the exit contents; the generator register and the scoped
    buffers no window stages go into the pipeline's invariant at the first point (`Phi1_first`) and come back out
    of it at the last (`Phi1_last`); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_first (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a lemma stated over the pinned configuration of pipeline `p` meets the printed configuration only when
-- unification may unfold plain definitions in a metavariable's type
set_option backward.isDefEq.respectTransparency.types false in
/-- REGION 2 over the thread state: entered from every unscoped buffer at `W5`, left at `W6`. Its arrays
    split out of the unscoped buffers and are put back at the exit contents; the generator register and the scoped
    buffers no window stages go into the pipeline's invariant at the first point (`Phi2_first`) and come back out
    of it at the last (`Phi2_last`); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_first (V5 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi2_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: @main is the chain of its six items, and the segments' run is the chain of
    their fragments, which are those items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state every unscoped buffer holds the last
    boundary's contents `W6`: the launch over the six segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution of @main terminates, nothing faulting, and every final state has the
    twelve argument arrays as launched: each is an unscoped buffer, which ends at `W6` (`run_all`), and `W6` at an
    argument is the launch memory (`W6_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run_all m ρ)

/-- info: 'Cert.Kernel.Hand.run_all' depends on axioms: [propext, Classical.choice, Quot.sound] -/
#guard_msgs in #print axioms run_all
/-- info: 'Cert.Kernel.Hand.frame' depends on axioms: [propext, Classical.choice, Quot.sound] -/
#guard_msgs in #print axioms frame

end Cert.Kernel.Hand

end
-- ==== Proof.KI.R0.lean ====
import proofs.«169544_j1039382086070_1_alg».proof.Proof.Gen.KernelIdeal.Launch
import proofs.«169544_j1039382086070_1_alg».proof.Proof.Gen.KernelIdeal.Skeleton
import proofs.«169544_j1039382086070_1_alg».proof.Proof.Gen.KernelIdeal.Points
import Idealize.ShloMosaic.Lib.Pipeline.FrameBody
import Idealize.ShloMosaic.Lib.Ring
import Idealize.ShloMosaic.Lib.Tactic

/-! # The edge region: each block of messages as a function of the blocks read

At every grid point the edge kernel reads a block of gathered source features (10000×128), a block of edge
features (10000×16), the whole edge weight (16×128) and the whole edge bias (128), and stores the block of
messages `gathered + edge_feats · W_edge + b_edge` (10000×128). The weight and the bias have a constant block
index, so they are brought in at the first point only and found in place afterwards. The region keeps nothing
from point to point: its invariant is the same at every point. -/

-- the blocks have 10000 rows
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The gathered-features window holds its block at every point: for any proof data whose array is the entry
    contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The edge-features window holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The weight window holds the whole weight at every point: brought in at the first point, and afterwards the
    block index has not moved, so the block left in place is still the point's block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- The bias window holds the whole bias at every point, for the same reason. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_msg : Rect S10000x128 := Rect.unit (s := S10000x128) ![0, 0] S10000x128.size inb_S10000x128_S10000x128_0_0
abbrev r0_ef : Rect S10000x16 := Rect.unit (s := S10000x16) ![0, 0] S10000x16.size inb_S10000x16_S10000x16_0_0
abbrev r0_w : Rect S16x128 := Rect.unit (s := S16x128) ![0, 0] S16x128.size inb_S16x128_S16x128_0_0
abbrev r0_b : Rect S128 := Rect.unit (s := S128) ![0] S128.size inb_S128_S128_0

/-! ## What the body leaves in the message window's buffer -/

/-- The message buffer after the body, from the blocks read (edge features, weight, gathered features, bias):
    its one store, over the whole buffer. -/
def out0_4 (x1 : Vec F S10000x16 .f32) (x2 : Vec F S16x128 .f32) (x0 : Vec F S10000x128 .f32) (x3 : Vec F S128 .f32) : Vec F S10000x128 .f32 :=
  View.canon [⟨r0_msg, k0_pay1 (View.ld x1 r0_ef) (View.ld x2 r0_w) (View.ld x0 r0_msg) (View.ld x3 r0_b)⟩]

/-- The one store covers the buffer. -/
theorem cover0_4 (p0 : Vec F S10000x128 .f32) (y : S10000x128.Idx) :
    ∃ pc ∈ ([⟨r0_msg, p0⟩] : List (View.Piece (Elt F) S10000x128 .f32)), y ∈ pc.1.set :=
  View.cover_of_tiled [⟨r0_msg, p0⟩] S10000x128.size (by rfl) y

/-! ## The body's triple -/

set_option maxHeartbeats 1000000 in
/-- The edge kernel on whole staging memrefs, the four inputs' at read contents and the output's at anything, runs
    to the continuation holding the inputs' as they were and the output's at `out0_4` of the inputs'. -/
theorem sound_kernel0 (c : Dev nD) (E : Set ℕ) (i : grid0.Coords) (arg1 : Memref sig .tc .vmem S10000x128 .f32) (harg1 : arg1.IsWhole) (arg2 : Memref sig .tc .vmem S10000x16 .f32) (harg2 : arg2.IsWhole) (arg3 : Memref sig .tc .vmem S16x128 .f32) (harg3 : arg3.IsWhole) (arg4 : Memref sig .tc .vmem S128 .f32) (harg4 : arg4.IsWhole) (arg5 : Memref sig .tc .vmem S10000x128 .f32) (harg5 : arg5.IsWhole)
    (x0 : Vec F S10000x128 .f32) (x1 : Vec F S10000x16 .f32) (x2 : Vec F S16x128 .f32) (x3 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x1 x2 x0 x3)) -∗ K ⟨⟩))
      ⊢ wp frame (wpE (defs₀ (F := F)) Variants.none c none) E (cc0__edge_kernel i arg1 harg1 arg2 harg2 arg3 harg3 arg4 harg4 arg5 harg5) K := by
  simp only [cc0__edge_kernel_eq_skeleton]; unfold cc0__edge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The region's proof data -/

/-- The proof data of the edge region on core `c`: the arrays as the region finds them; after the body at point
    `t` each input's buffer at its block and the message buffer at `out0_4` of the input blocks; the invariant
    the same at every point (the rest of the scoped buffers and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 1 t) (iblk0 V c 2 t) (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 1 t) (iblk0 V c 2 t) (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- On entry the invariant is the rest of the scoped buffers and the generator register. -/
theorem Phi0_first (c : Dev nD) : (dat0 V c).Φ 0 = Pipeline.ΦA spec0 c := rfl

/-- On exit it is the same. -/
theorem Phi0_last (c : Dev nD) : (dat0 V c).Φ (Fin.last cfg0.N) ⊢ Pipeline.ΦA spec0 c := .rfl

end Cert.KernelIdeal.Hand

end
-- ==== Proof.KI.R1Runs.lean ====
import proofs.«169544_j1039382086070_1_alg».proof.Proof.Gen.KernelIdeal.Launch
import proofs.«169544_j1039382086070_1_alg».proof.Proof.Gen.KernelIdeal.Skeleton
import proofs.«169544_j1039382086070_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the MLP kernel with its column statistics accumulated in a scratch, at the entry contents `V`

What the three control cases of the body share: the windows' blocks, the branch conditions in closed form over the
grid of 10 points, where the statistics window is idle, the staging and scratch memrefs, and the region invariant
with the scratch taken out of the scoped rest. -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents' and whose body leaves the block in place: unfetched, the index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is the entry contents' and whose body leaves the block in place: unfetched, the index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is the entry contents' and whose body leaves the block in place: unfetched, the index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is the entry contents' and whose body leaves the block in place: unfetched, the index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is the entry contents' and whose body leaves the block in place: unfetched, the index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the reset branch (the grid coordinate is 0), as the body computes it. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The condition of the copy-out branch (the grid coordinate is 9), as the body computes it. -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Where the copy-out branch is not taken the statistics window is idle and not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- Where it is taken the window is live. -/
theorem liveAt1_6 : ∀ t : Fin cfg1.N, cond1_1 (grid1.coords t) → cfg1.idle 6 (grid1.coords t) = false := by decide +kernel

/-! ## The staging and scratch memrefs -/

/-- One staging buffer of each output window, through which its contents are stated (the choice does not matter). -/
abbrev VO1_5 : View sig .tc .vmem S5000x128 .f32 := (Memref.whole cc1_stg5_0 : Memref sig .tc .vmem S5000x128 .f32).view
abbrev VO1_6 : View sig .tc .vmem S2x128 .f32 := (Memref.whole cc1_stg6_0 : Memref sig .tc .vmem S2x128 .f32).view
/-- Each window's current staging memref at point `t`, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S5000x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x128 .f32 := win1_6.stage (cfg1.slots t 6)
abbrev hs1_6 (t : Fin cfg1.N) : (ms1_6 t).IsWhole := hstage1_6 ((cfg1.slots t 6).cast nbuf1_6)
/-- The scratch operand: a whole scoped buffer of the kernel's own, passed beside the windows. -/
abbrev scM1_0 : Memref sig .tc .vmem S2x128 .f32 := Memref.whole cc1_scratch0
/-- The scratch as a view: what it holds is stated through it. -/
abbrev VS1_0 : View sig .tc .vmem S2x128 .f32 := scM1_0.view

/-! ## The region invariant with the scratch taken out -/

/-- The core's scoped buffers that are neither a staging buffer of this pipeline nor its scratch, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The class's invariant hands out the scratch at some contents, the other scoped buffers, and the generator register. -/
theorem PhiA1_split (c : Dev nD) :
    (Pipeline.ΦA spec1 c : sProp 𝕄) ⊢ iprop(iprop((∃ d, owns (c : Thread nD τ) scM1_0 fullShare d) ∗ others1 (F := F) c) ∗ (∃ r, prngReg c r)) := by
  unfold Pipeline.ΦA others1; rw [scopedRest1_eq]; simp only [scM1_0, owns_whole]
  iintro ⟨⟨B0, B1, B2, B3, B4, B5, B6, B7, BS, B8, B9, B10, B11, B12, B13⟩, Hg⟩
  isplitr [Hg]
  · isplitl [BS]; · iexact BS
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact B13
  iexact Hg

/-- And takes them back. -/
theorem PhiA1_join (c : Dev nD) :
    iprop(iprop((∃ d, owns (c : Thread nD τ) scM1_0 fullShare d) ∗ others1 (F := F) c) ∗ (∃ r, prngReg c r)) ⊢ (Pipeline.ΦA spec1 c : sProp 𝕄) := by
  unfold Pipeline.ΦA others1; rw [scopedRest1_eq]; simp only [scM1_0, owns_whole]
  iintro ⟨⟨BS, B0, B1, B2, B3, B4, B5, B6, B7, B8, B9, B10, B11, B12, B13⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [BS]; · iexact BS
    isplitl [B8]; · iexact B8
    isplitl [B9]; · iexact B9
    isplitl [B10]; · iexact B10
    isplitl [B11]; · iexact B11
    isplitl [B12]; · iexact B12
    iexact B13
  iexact Hg

end Cert.KernelIdeal.Hand

end
-- ==== Proof.KI.R1Cases.lean ====
import proofs.«169544_j1039382086070_1_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: the body's triple in each of its three control cases

Each case's whole-body run: the printed body is its skeleton of loads and stores over the payloads, run symbolically;
the pieces each buffer ends with are the witness the run finds. -/

set_option maxHeartbeats 1000000 in
/-- CASE A (the first point: the reset branch taken, the copy-out branch not). What the body's stores leave, as pieces
    last first, in the block output (one store), the statistics output (nothing: the window is idle) and the scratch
    (the zero fill, then row 0, then row 1), with the body's triple: on whole memrefs, the inputs at their contents,
    the block output and the scratch at anything, the statistics output at contents handed back untouched. -/
noncomputable def kernelRun1_A (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i)
    (x0 : Vec F S5000x128 .f32) (x1 : Vec F S128x256 .f32) (x2 : Vec F S256 .f32) (x3 : Vec F S256x128 .f32) (x4 : Vec F S128 .f32) :
    Σ' (L5 : List (View.Piece (Elt F) S5000x128 .f32)) (L6 : List (View.Piece (Elt F) S2x128 .f32)), { LS0 : List (View.Piece (Elt F) S2x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp_kernel i arg1 harg1 arg2 harg2 arg3 harg3 arg4 harg4 arg5 harg5 arg6 harg6 arg7 harg7 arg8 harg8) K } := by
  refine ⟨?_, [], ?_, fun xi6 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    iexists _; iexact HS0

set_option maxHeartbeats 1000000 in
/-- CASE B (points 1 to 8: neither branch taken). As case A, but the scratch is found at the contents `xs0` the point
    before left, and only its two rows are stored. -/
noncomputable def kernelRun1_B (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i)
    (x0 : Vec F S5000x128 .f32) (x1 : Vec F S128x256 .f32) (x2 : Vec F S256 .f32) (x3 : Vec F S256x128 .f32) (x4 : Vec F S128 .f32) (xs0 : Vec F S2x128 .f32) :
    Σ' (L5 : List (View.Piece (Elt F) S5000x128 .f32)) (L6 : List (View.Piece (Elt F) S2x128 .f32)), { LS0 : List (View.Piece (Elt F) S2x128 .f32) //
      ∀ (xi6 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0)) -∗ K ⟨⟩))
          ⊢ wp frame (wpE (defs₀ (F := F)) Variants.none c none) E (cc1__mlp_kernel i arg1 harg1 arg2 harg2 arg3 harg3 arg4 harg4 arg5 harg5 arg6 harg6 arg7 harg7 arg8 harg8) K } := by
  refine ⟨?_, [], ?_, fun xi6 E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    iexists _; iexact HS0

set_option maxHeartbeats 1000000 in
/-- CASE C (the last point: the copy-out branch taken, the reset branch not). As case B, and the statistics output,
    found at anything, is stored whole with the scratch's final contents. -/
noncomputable def kernelRun1_C (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i)
    (x0 : Vec F S5000x128 .f32) (x1 : Vec F S128x256 .f32) (x2 : Vec F S256 .f32) (x3 : Vec F S256x128 .f32) (x4 : Vec F S128 .f32) (xs0 : Vec F S2x128 .f32) :
    Σ' (L5 : List (View.Piece (Elt F) S5000x128 .f32)) (L6 : List (View.Piece (Elt F) S2x128 .f32)), { LS0 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0)) -∗ K ⟨⟩))
          ⊢ wp frame (wpE (defs₀ (F := F)) Variants.none c none) E (cc1__mlp_kernel i arg1 harg1 arg2 harg2 arg3 harg3 arg4 harg4 arg5 harg5 arg6 harg6 arg7 harg7 arg8 harg8) K } := by
  refine ⟨?_, ?_, ?_, fun E K => ?run⟩
  case run =>
    simp only [cc1__mlp_kernel_eq_skeleton]; unfold cc1__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact HS0

end Cert.KernelIdeal.Hand

end
-- ==== Proof.KI.R1.lean ====
import proofs.«169544_j1039382086070_1_alg».proof.Proof.KI.R1Cases
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what the outputs and the scratch hold point by point, the proof data, the body obligation

The block output holds the MLP's value of the point's row block. The scratch holds two rows, the column sums and the
column sums of squares of the blocks so far: the first point starts them from the zero fill, every later point from
what the point before left. The statistics output is stored once, at the last point, with the scratch's contents. -/

/-! ## The body's rectangles -/

/-- The whole row block. -/
abbrev rB1 : Rect S5000x128 := Rect.unit (s := S5000x128) ![0, 0] S5000x128.size inb_S5000x128_S5000x128_0_0
/-- The whole scratch, its row 0 (the sums) and its row 1 (the sums of squares). -/
abbrev rSW1 : Rect S2x128 := Rect.unit (s := S2x128) ![0, 0] S2x128.size inb_S2x128_S2x128_0_0
abbrev rS1_0 : Rect S2x128 := Rect.unit (s := S2x128) ![0, 0] S1x128.size inb_S2x128_S1x128_0_0
abbrev rS1_1 : Rect S2x128 := Rect.unit (s := S2x128) ![1, 0] S1x128.size inb_S2x128_S1x128_1_0

theorem hz2 : (![0, 0] : Fin 2 → ℕ) = fun _ => 0 := by funext a; fin_cases a <;> rfl
theorem hz1 : (![0] : Fin 1 → ℕ) = fun _ => 0 := by funext a; fin_cases a; rfl

/-! ## What the body leaves, in closed form -/

/-- The block output's buffer after the body, from the input windows' blocks: its one store. -/
def out1_5 (x0 : Vec F S5000x128 .f32) (x1 : Vec F S128x256 .f32) (x2 : Vec F S256 .f32) (x3 : Vec F S256x128 .f32) (x4 : Vec F S128 .f32) : Vec F S5000x128 .f32 :=
  View.canon [⟨rB1, k1_pay3 x0 x1 x2 x3 x4⟩]

/-- One point's step of the scratch from contents `xs`: row 0 gains the block's column sums, row 1 its column sums of
    squares (the two row stores, last first; each reads its own row of `xs`). -/
def step1 (x0 : Vec F S5000x128 .f32) (x1 : Vec F S128x256 .f32) (x2 : Vec F S256 .f32) (x3 : Vec F S256x128 .f32) (x4 : Vec F S128 .f32) (xs : Vec F S2x128 .f32) : Vec F S2x128 .f32 :=
  View.canon [⟨rS1_1, k1_pay1 (k1_pay4 x0 x1 x2 x3 x4) (View.ld xs rS1_1)⟩, ⟨rS1_0, k1_pay5 x0 x1 x2 x3 x4 (View.ld xs rS1_0)⟩]

/-- The two row stores tile the scratch. -/
theorem cover_rows (p1 : Vec F S1x128 .f32) (p0 : Vec F S1x128 .f32) (y : S2x128.Idx) :
    ∃ pc ∈ ([⟨rS1_1, p1⟩, ⟨rS1_0, p0⟩] : List (View.Piece (Elt F) S2x128 .f32)), y ∈ pc.1.set :=
  View.cover_of_tiledL [⟨rS1_1, p1⟩, ⟨rS1_0, p0⟩] S1x128.size (by sl_kernel_rfl) y

/-- The one whole store covers. -/
theorem cover_block (p : Vec F S5000x128 .f32) (y : S5000x128.Idx) :
    ∃ pc ∈ ([⟨rB1, p⟩] : List (View.Piece (Elt F) S5000x128 .f32)), y ∈ pc.1.set :=
  View.cover_of_tiledL [⟨rB1, p⟩] S5000x128.size (by sl_kernel_rfl) y
theorem cover_stats (p : Vec F S2x128 .f32) (y : S2x128.Idx) :
    ∃ pc ∈ ([⟨rSW1, p⟩] : List (View.Piece (Elt F) S2x128 .f32)), y ∈ pc.1.set :=
  View.cover_of_tiledL [⟨rSW1, p⟩] S2x128.size (by sl_kernel_rfl) y

/-! ## The scratch after each point -/

/-- THE ACCUMULATION. What the scratch holds after the body at position `n`: at the first point one step from the zero
    fill, at a later point one step from what the point before left. -/
def acc1 (c : Dev nD) : (n : ℕ) → n < cfg1.N → Vec F S2x128 .f32
  | 0, hn => step1 (iblk1 V c 0 ⟨0, hn⟩) (iblk1 V c 1 ⟨0, hn⟩) (iblk1 V c 2 ⟨0, hn⟩) (iblk1 V c 3 ⟨0, hn⟩) (iblk1 V c 4 ⟨0, hn⟩) (k1_pay2 (F := F))
  | n + 1, hn => step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 c n (Nat.lt_of_succ_lt hn))

theorem acc1_zero (c : Dev nD) (hn : 0 < cfg1.N) :
    acc1 V c 0 hn = step1 (iblk1 V c 0 ⟨0, hn⟩) (iblk1 V c 1 ⟨0, hn⟩) (iblk1 V c 2 ⟨0, hn⟩) (iblk1 V c 3 ⟨0, hn⟩) (iblk1 V c 4 ⟨0, hn⟩) (k1_pay2 (F := F)) := rfl

theorem acc1_succ (c : Dev nD) (n : ℕ) (hn : n + 1 < cfg1.N) :
    acc1 V c (n + 1) hn = step1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (acc1 V c n (Nat.lt_of_succ_lt hn)) := rfl

/-- The same at a point of the grid: the first, -/
theorem acc1_first (c : Dev nD) (t : Fin cfg1.N) (hz : t.val = 0) :
    acc1 V c t.val t.isLt = step1 (iblk1 V c 0 t) (iblk1 V c 1 t) (iblk1 V c 2 t) (iblk1 V c 3 t) (iblk1 V c 4 t) (k1_pay2 (F := F)) := by
  obtain ⟨n, hn⟩ := t
  cases n with
  | zero => rfl
  | succ n => exact absurd hz (Nat.succ_ne_zero n)

/-- and a later one. -/
theorem acc1_later (c : Dev nD) (t : Fin cfg1.N) (hz : t.val ≠ 0) :
    acc1 V c t.val t.isLt = step1 (iblk1 V c 0 t) (iblk1 V c 1 t) (iblk1 V c 2 t) (iblk1 V c 3 t) (iblk1 V c 4 t) (acc1 V c (t.val - 1) (Nat.lt_of_le_of_lt (Nat.sub_le _ _) t.isLt)) := by
  obtain ⟨n, hn⟩ := t
  cases n with
  | zero => exact absurd rfl hz
  | succ n => rfl

/-! ## The region invariant -/

/-- The region invariant before position `n`: before the first point the class's (every scoped buffer that is no staging
    buffer at anything, the generator register at some state); afterwards the same with the scratch at what the point
    before left in it. -/
def PhiS1 (c : Dev nD) : (n : ℕ) → n ≤ cfg1.N → sProp 𝕄
  | 0, _ => Pipeline.ΦA spec1 c
  | n + 1, hn => iprop(iprop(owns (c : Thread nD τ) scM1_0 fullShare (acc1 V c n hn) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (acc1 V c n hn) ∗ others1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (acc1 V c (n - 1) (by omega)) ∗ others1 (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block, the block output's at the MLP's value of the blocks, the statistics output's at the
    scratch's contents then (consulted at the last point only: elsewhere the window is idle); the invariant carries
    the scratch; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = acc1 V c t.val t.isLt := by dsimp only [dat1]
/-- What the statistics window's buffer holds after the last point is the scratch then. -/
theorem after1_6_last (c : Dev nD) (h : 9 < cfg1.N) : (dat1 V c).after 6 ⟨9, h⟩ = acc1 V c 9 h := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## Lists of stores read back -/

/-- Where the first stores of a list cover an index, later-listed (earlier) stores do not show there. -/
theorem canon_append_apply_of_cover {s : Shape} {e : EltTy} (L' : List (View.Piece (Elt F) s e)) :
    ∀ (L : List (View.Piece (Elt F) s e)) (y : s.Idx), (∃ p ∈ L, y ∈ p.1.set) → View.canon (L ++ L') y = View.canon L y
  | [], _, h => by obtain ⟨_, hm, _⟩ := h; exact absurd hm List.not_mem_nil
  | p :: L, y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p L hy]
      exact canon_append_apply_of_cover L' L y hL

/-- The two rows of the scratch are disjoint. -/
theorem rows_disjoint : Disjoint rS1_0.set rS1_1.set :=
  Rect.unit_disjoint (0 : Fin 2) (Or.inl (by decide))

/-- A load of row 0 after the zero fill reads the fill's row 0. -/
theorem readCov_fill_row0 (v : View sig .tc .vmem S2x128 .f32) (z : Vec F S2x128 .f32) :
    v.readCov [(⟨rSW1, z⟩ : View.Piece (Elt F) S2x128 .f32)] rS1_0.toLoadRect = View.ld z rS1_0 := by
  rw [View.readCov_eq_canon', View.canon_unit_zero (S := S2x128) hz2]

/-- A load of row 1 after the zero fill and a store into row 0 reads the fill's row 1. -/
theorem readCov_fill_row1 (v : View sig .tc .vmem S2x128 .f32) (z : Vec F S2x128 .f32) (p0 : Vec F S1x128 .f32) :
    v.readCov [(⟨rS1_0, p0⟩ : View.Piece (Elt F) S2x128 .f32), ⟨rSW1, z⟩] rS1_1.toLoadRect = View.ld z rS1_1 := by
  rw [View.readCov_eq_canon']
  funext j
  have hj : rS1_1.toLoadRect.idx j ∉ rS1_0.set := fun h => Finset.disjoint_right.mp rows_disjoint (rS1_1.idx_mem j) h
  rw [View.canon_cons_of_not_mem (⟨rS1_0, p0⟩ : View.Piece (Elt F) S2x128 .f32) [⟨rSW1, z⟩] hj, View.canon_unit_zero (S := S2x128) hz2]

/-- A load of the whole scratch after its two row stores reads what they leave. -/
theorem readCov_rows (v : View sig .tc .vmem S2x128 .f32) (p1 p0 : Vec F S1x128 .f32) :
    v.readCov [(⟨rS1_1, p1⟩ : View.Piece (Elt F) S2x128 .f32), ⟨rS1_0, p0⟩] rSW1.toLoadRect = View.canon [(⟨rS1_1, p1⟩ : View.Piece (Elt F) S2x128 .f32), ⟨rS1_0, p0⟩] := by
  rw [View.readCov_eq_canon_ld _ _ _ (cover_rows p1 p0), View.ld_unit_zero (S := S2x128) hz2]

/-! ## The pieces each case's run found: their covers, and what they read back as -/

theorem cover1_A_5 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) (y : S5000x128.Idx) : ∃ pc ∈ (kernelRun1_A c i arg1 harg1 arg2 harg2 arg3 harg3 arg4 harg4 arg5 harg5 arg6 harg6 arg7 harg7 arg8 harg8 hc0 hc1 x0 x1 x2 x3 x4).1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).1 S5000x128.size (by sl_kernel_rfl) y
theorem scover1_A (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) (y : S2x128.Idx) : ∃ pc ∈ (kernelRun1_A c i arg1 harg1 arg2 harg2 arg3 harg3 arg4 harg4 arg5 harg5 arg6 harg6 arg7 harg7 arg8 harg8 hc0 hc1 x0 x1 x2 x3 x4).2.2.1, y ∈ pc.1.set :=
  View.cover_of_tiledL (kernelRun1_A c i arg1 harg1 arg2 harg2 arg3 harg3 arg4 harg4 arg5 harg5 arg6 harg6 arg7 harg7 arg8 harg8 hc0 hc1 x0 x1 x2 x3 x4).2.2.1 S1x128.size (by sl_kernel_rfl) y
theorem cover1_B_5 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) (y : S5000x128.Idx) : ∃ pc ∈ (kernelRun1_B c i arg1 harg1 arg2 harg2 arg3 harg3 arg4 harg4 arg5 harg5 arg6 harg6 arg7 harg7 arg8 harg8 hc0 hc1 x0 x1 x2 x3 x4 xs0).1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0).1 S5000x128.size (by sl_kernel_rfl) y
theorem scover1_B (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) (y : S2x128.Idx) : ∃ pc ∈ (kernelRun1_B c i arg1 harg1 arg2 harg2 arg3 harg3 arg4 harg4 arg5 harg5 arg6 harg6 arg7 harg7 arg8 harg8 hc0 hc1 x0 x1 x2 x3 x4 xs0).2.2.1, y ∈ pc.1.set :=
  View.cover_of_tiledL (kernelRun1_B c i arg1 harg1 arg2 harg2 arg3 harg3 arg4 harg4 arg5 harg5 arg6 harg6 arg7 harg7 arg8 harg8 hc0 hc1 x0 x1 x2 x3 x4 xs0).2.2.1 S1x128.size (by sl_kernel_rfl) y
theorem cover1_C_5 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) (y : S5000x128.Idx) : ∃ pc ∈ (kernelRun1_C c i arg1 harg1 arg2 harg2 arg3 harg3 arg4 harg4 arg5 harg5 arg6 harg6 arg7 harg7 arg8 harg8 hc0 hc1 x0 x1 x2 x3 x4 xs0).1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0).1 S5000x128.size (by sl_kernel_rfl) y
theorem cover1_C_6 (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) (y : S2x128.Idx) : ∃ pc ∈ (kernelRun1_C c i arg1 harg1 arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0).2.1 S2x128.size (by sl_kernel_rfl) y
theorem scover1_C (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) (y : S2x128.Idx) : ∃ pc ∈ (kernelRun1_C c i arg1 harg1 arg2 harg2 arg3 harg3 arg4 harg4 arg5 harg5 arg6 harg6 arg7 harg7 arg8 harg8 hc0 hc1 x0 x1 x2 x3 x4 xs0).2.2.1, y ∈ pc.1.set :=
  View.cover_of_tiledL (kernelRun1_C c i arg1 harg1 arg2 harg2 arg3 harg3 arg4 harg4 arg5 harg5 arg6 harg6 arg7 harg7 arg8 harg8 hc0 hc1 x0 x1 x2 x3 x4 xs0).2.2.1 S1x128.size (by sl_kernel_rfl) y

/-- In every case the block output's one store is the MLP's value of the input blocks. -/
theorem out1_A_5_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) : View.canon (kernelRun1_A c i arg1 harg1 arg2 harg2 arg3 harg3 arg4 harg4 arg5 harg5 arg6 harg6 arg7 harg7 arg8 harg8 hc0 hc1 x0 x1 x2 x3 x4).1 = out1_5 x0 x1 x2 x3 x4 := by
  unfold out1_5 kernelRun1_A; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  try rfl
theorem out1_B_5_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_B c i arg1 harg1 arg2 harg2 arg3 harg3 arg4 harg4 arg5 harg5 arg6 harg6 arg7 harg7 arg8 harg8 hc0 hc1 x0 x1 x2 x3 x4 xs0).1 = out1_5 x0 x1 x2 x3 x4 := by
  unfold out1_5 kernelRun1_B; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  try rfl
theorem out1_C_5_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_C c i arg1 harg1 arg2 harg2 arg3 harg3 arg4 harg4 arg5 harg5 arg6 harg6 arg7 harg7 arg8 harg8 hc0 hc1 x0 x1 x2 x3 x4 xs0).1 = out1_5 x0 x1 x2 x3 x4 := by
  unfold out1_5 kernelRun1_C; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  try rfl

/-- Case A leaves the scratch one step from the zero fill: the fill lies under the two row stores, whose loads read it. -/
theorem sacc1_A_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : cond1_0 i) (hc1 : ¬cond1_1 i) (x0 : Vec F S5000x128 .f32) (x1 : Vec F S128x256 .f32) (x2 : Vec F S256 .f32) (x3 : Vec F S256x128 .f32) (x4 : Vec F S128 .f32) : View.canon (kernelRun1_A c i arg1 harg1 arg2 harg2 arg3 harg3 arg4 harg4 arg5 harg5 arg6 harg6 arg7 harg7 arg8 harg8 hc0 hc1 x0 x1 x2 x3 x4).2.2.1 = step1 x0 x1 x2 x3 x4 (k1_pay2 (F := F)) := by
  unfold step1 kernelRun1_A; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1]
  show View.canon [(⟨rS1_1, k1_pay1 (k1_pay4 x0 x1 x2 x3 x4) (arg8.view.readCov [(⟨rS1_0, k1_pay5 x0 x1 x2 x3 x4 (arg8.view.readCov [(⟨rSW1, (k1_pay2 (F := F))⟩ : View.Piece (Elt F) S2x128 .f32)] rS1_0.toLoadRect)⟩ : View.Piece (Elt F) S2x128 .f32), ⟨rSW1, (k1_pay2 (F := F))⟩] rS1_1.toLoadRect)⟩ : View.Piece (Elt F) S2x128 .f32),
      ⟨rS1_0, k1_pay5 x0 x1 x2 x3 x4 (arg8.view.readCov [(⟨rSW1, (k1_pay2 (F := F))⟩ : View.Piece (Elt F) S2x128 .f32)] rS1_0.toLoadRect)⟩, ⟨rSW1, (k1_pay2 (F := F))⟩] = _
  rw [readCov_fill_row1, readCov_fill_row0]
  funext y
  exact canon_append_apply_of_cover (F := F) [⟨rSW1, (k1_pay2 (F := F))⟩] [⟨rS1_1, k1_pay1 (k1_pay4 x0 x1 x2 x3 x4) (View.ld (k1_pay2 (F := F)) rS1_1)⟩, ⟨rS1_0, k1_pay5 x0 x1 x2 x3 x4 (View.ld (k1_pay2 (F := F)) rS1_0)⟩] y (cover_rows _ _ y)

/-- Cases B and C leave it one step from what they found. -/
theorem sacc1_B_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : ¬cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_B c i arg1 harg1 arg2 harg2 arg3 harg3 arg4 harg4 arg5 harg5 arg6 harg6 arg7 harg7 arg8 harg8 hc0 hc1 x0 x1 x2 x3 x4 xs0).2.2.1 = step1 x0 x1 x2 x3 x4 xs0 := by
  unfold step1 kernelRun1_B; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1, harg8.read_unread]
  try rfl
theorem sacc1_C_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_C c i arg1 harg1 arg2 harg2 arg3 harg3 arg4 harg4 arg5 harg5 arg6 harg6 arg7 harg7 arg8 harg8 hc0 hc1 x0 x1 x2 x3 x4 xs0).2.2.1 = step1 x0 x1 x2 x3 x4 xs0 := by
  unfold step1 kernelRun1_C; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1, harg8.read_unread]
  try rfl

/-- Case C stores the statistics output with the scratch's final contents. -/
theorem out1_C_6_eq (c : Dev nD) (i : grid1.Coords) (arg1 : Memref sig .tc .vmem S5000x128 .f32) (harg1 : arg1.IsWhole) (arg2 : Memref sig .tc .vmem S128x256 .f32) (harg2 : arg2.IsWhole) (arg3 : Memref sig .tc .vmem S256 .f32) (harg3 : arg3.IsWhole) (arg4 : Memref sig .tc .vmem S256x128 .f32) (harg4 : arg4.IsWhole) (arg5 : Memref sig .tc .vmem S128 .f32) (harg5 : arg5.IsWhole) (arg6 : Memref sig .tc .vmem S5000x128 .f32) (harg6 : arg6.IsWhole) (arg7 : Memref sig .tc .vmem S2x128 .f32) (harg7 : arg7.IsWhole) (arg8 : Memref sig .tc .vmem S2x128 .f32) (harg8 : arg8.IsWhole) (hc0 : ¬cond1_0 i) (hc1 : cond1_1 i) (x0 : Vec F S5000x128 .f32) (x1 : Vec F S128x256 .f32) (x2 : Vec F S256 .f32) (x3 : Vec F S256x128 .f32) (x4 : Vec F S128 .f32) (xs0 : Vec F S2x128 .f32) : View.canon (kernelRun1_C c i arg1 harg1 arg2 harg2 arg3 harg3 arg4 harg4 arg5 harg5 arg6 harg6 arg7 harg7 arg8 harg8 hc0 hc1 x0 x1 x2 x3 x4 xs0).2.1 = step1 x0 x1 x2 x3 x4 xs0 := by
  unfold step1 kernelRun1_C; dsimp only; sl_unfold_run_names
  simp only [View.readAt_eq_ld, harg1.read_unread, harg2.read_unread, harg3.read_unread, harg4.read_unread, harg5.read_unread, View.ld_unit_zero (S := S5000x128) hz2, View.ld_unit_zero (S := S128x256) hz2, View.ld_unit_zero (S := S256) hz1, View.ld_unit_zero (S := S256x128) hz2, View.ld_unit_zero (S := S128) hz1, harg8.read_unread]
  refine (View.canon_unit_zero (S := S2x128) hz2 _ _).trans ?_
  exact readCov_rows _ _ _

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4800000 in
/-- The body at any point: the inputs' memrefs hold their blocks; the closed forms of the conditions say which case the
    point is in, so that case's run applies; the invariant hands the body the scratch at what the point before left
    (at anything at the first point) beside the other scoped buffers and the generator register, and takes it back at
    this point's contents; the statistics window's buffer is handed back untouched where the window is idle and holds
    the scratch's contents after the last point; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  by_cases h0 : t.val % 10 = 0
  · by_cases h1 : t.val % 10 = 9
    · exfalso; omega
    · have hz : t.val = 0 := by omega
      rw [Dat.leavesExact_idle (dat1 V c) 6 t (idleAt1_6 t (fun h => h1 ((hcond1_1 t).mp h))) (noFlush1_6 t (fun h => h1 ((hcond1_1 t).mp h)))]
      rw [acc1_first V c t hz]
      rw [PhiS1_castSucc V c t, PhiS1_zero V c _ _ hz]
      refine BIBase.Entails.trans (Laws.sep_mono_left (PhiA1_split (F := F) c)) ?_
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitr [Hg]
        · isplitl [HS0]
          · unfold owns; iexists _; isplitr
            swap; · iexact HS0
            ipureintro; exact (View.read_writes_eq_canon _ _ _ (scover1_A c _ _ _ _ _ _ _ _ _ _ _ _ _ _ _ _ _ _ _ _ _ _ _ _)).trans (sacc1_A_eq c _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (cover1_A_5 c _ _ _ _ _ _ _ _ _ _ _ _ _ _ _ _ _ _ _ _ _ _ _ _)).trans (out1_A_5_eq c _ _ _ _ _ _ _ _ _ _ _ _ _ _ _ _ _ _ _ _ _ _ _ _)
      iexists _; iexact H6
  · have hz : t.val ≠ 0 := by omega
    rw [acc1_later V c t hz]
    rw [PhiS1_castSucc V c t, PhiS1_pos V c _ _ hz]
    by_cases h1 : t.val % 10 = 9
    · rw [show (dat1 V c).leavesExact 6 t = owns (c : Thread nD τ) (ms1_6 t) fullShare ((dat1 V c).after 6 t) from by
        unfold Dat.leavesExact; rw [liveAt1_6 t ((hcond1_1 t).mpr h1)], after1_6, acc1_later V c t hz]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hoth Hg]
      · isplitr [Hg]
        · isplitl [HS0]
          · unfold owns; iexists _; isplitr
            swap; · iexact HS0
            ipureintro; exact (View.read_writes_eq_canon _ _ _ (scover1_C c _ _ _ _ _ _ _ _ _ _ _ _ _ _ _ _ _ _ _ _ _ _ _ _ _)).trans (sacc1_C_eq c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (cover1_C_5 c _ _ _ _ _ _ _ _ _ _ _ _ _ _ _ _ _ _ _ _ _ _ _ _ _)).trans (out1_C_5_eq c _ _ _ _ _ _ _ _ _ _ _ _ _ _ _ _ _ _ _ _ _ _ _ _ _)
      unfold owns; iexists _; isplitr
      swap; · iexact H6
      ipureintro; exact (View.read_writes_eq_canon _ _ _ (cover1_C_6 c _ _ _ _ _ _ _ _ _ _ _ _ _ _ _ _ _ _ _ _ _ _ _ _ _)).trans (out1_C_6_eq c _ _ _ _ _ _ _ _ _ _ _ _ _ _ _ _ _ _ _ _ _ _ _ _ _)
    · rw [Dat.leavesExact_idle (dat1 V c) 6 t (idleAt1_6 t (fun h => h1 ((hcond1_1 t).mp h))) (noFlush1_6 t (fun h => h1 ((hcond1_1 t).mp h)))]
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2.2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, ⟨%es0, HS0⟩⟩
      isplitl [HS0 Hoth Hg]
      · isplitr [Hg]
        · isplitl [HS0]
          · unfold owns; iexists _; isplitr
            swap; · iexact HS0
            ipureintro; exact (View.read_writes_eq_canon _ _ _ (scover1_B c _ _ _ _ _ _ _ _ _ _ _ _ _ _ _ _ _ _ _ _ _ _ _ _ _)).trans (sacc1_B_eq c _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact (View.read_writes_eq_canon _ _ _ (cover1_B_5 c _ _ _ _ _ _ _ _ _ _ _ _ _ _ _ _ _ _ _ _ _ _ _ _ _)).trans (out1_B_5_eq c _ _ _ _ _ _ _ _ _ _ _ _ _ _ _ _ _ _ _ _ _ _ _ _ _)
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_first (c : Dev nD) : (dat1 V c).Φ 0 = Pipeline.ΦA spec1 c := by
  rw [show (dat1 V c).Φ 0 = PhiS1 V c 0 (Nat.zero_le _) from rfl, PhiS1_zero V c 0 _ rfl]

/-- After any point the invariant gives the class's back: the scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_join (F := F) c)
  iintro ⟨⟨HS0, Hoth⟩, Hg⟩
  isplitr [Hg]
  · isplitl [HS0]
    · iexists _; iexact HS0
    iexact Hoth
  iexact Hg

/-- The same after the last point. -/
theorem Phi1_last (c : Dev nD) : (dat1 V c).Φ (Fin.last cfg1.N) ⊢ Pipeline.ΦA spec1 c :=
  Phi1_out V c _ (by rw [Fin.val_last]; have : cfg1.N = 10 := N_1; omega)

end Cert.KernelIdeal.Hand

end
-- ==== Proof.KI.R2.lean ====
/- REGION 2 of @main: custom_call 2, the affine kernel (pipeline 2), at the entry contents V.
   The class-A half of its frame: each window's block at a point, what the body leaves in the output
   window's buffer as a closed function of the input blocks, the body's triple, the proof data, and the
   body obligation at every grid point. Stated at any float instance. -/
import proofs.«169544_j1039382086070_1_alg».proof.Proof.Gen.KernelIdeal.Launch
import proofs.«169544_j1039382086070_1_alg».proof.Proof.Gen.KernelIdeal.Skeleton
import proofs.«169544_j1039382086070_1_alg».proof.Proof.Gen.KernelIdeal.Points
import Idealize.ShloMosaic.Lib.Pipeline.FrameBody
import Idealize.ShloMosaic.Lib.Ring
import Idealize.ShloMosaic.Lib.Tactic

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the rows of h, block (i,0), fetched at every point): its current staging buffer holds its
    block, for any proof data whose array is V's and whose body leaves the block in place. -/
theorem held2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the scale row, whole, fetched at the first point only): at a later point the block index has
    not moved, so the buffer still holds the block fetched at the first point, which is this point's. -/
theorem held2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the shift row, whole, fetched at the first point only): likewise. -/
theorem held2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole 5000×128 buffer as a rectangle. -/
abbrev rect2_rows : Rect S5000x128 := Rect.unit (s := S5000x128) ![0, 0] S5000x128.size inb_S5000x128_S5000x128_0_0
/-- The whole 128 row as a rectangle. -/
abbrev rect2_row : Rect S128 := Rect.unit (s := S128) ![0] S128.size inb_S128_S128_0

/-! ## What the body leaves in the output window's buffer -/

/-- Window 3's staging buffer after the body, from the input windows' blocks: its one store, of the payload
    h·scale+shift over the three loads, laid over the whole buffer. -/
def out2_3 (x0 : Vec F S5000x128 .f32) (x1 x2 : Vec F S128 .f32) : Vec F S5000x128 .f32 :=
  View.canon [⟨rect2_rows, k2_pay1 (View.ld x0 rect2_rows) (View.ld x1 rect2_row) (View.ld x2 rect2_row)⟩]

/-- The one store tiles the buffer, so it covers it. -/
theorem cover2_3 (p0 : Vec F S5000x128 .f32) (y : S5000x128.Idx) :
    ∃ pc ∈ ([⟨rect2_rows, p0⟩] : List (View.Piece (Elt F) S5000x128 .f32)), y ∈ pc.1.set :=
  View.cover_of_tiled [⟨rect2_rows, p0⟩] S5000x128.size (by rfl) y

/-! ## The body's triple -/

set_option maxHeartbeats 1000000 in
/-- The kernel body on whole staging memrefs, the inputs' at read contents x0, x1, x2 and the output's at anything,
    runs to the continuation holding the inputs' as they were and the output's at out2_3 of the inputs'. The
    body loads the output buffer before it stores into it; the value loaded is not used. -/
theorem triple2 (c : Dev nD) (E : Set ℕ) (i : grid2.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S5000x128 .f32) (harg4 : arg4.IsWhole)
    (x0 : Vec F S5000x128 .f32) (x1 : Vec F S128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__affine_kernel i arg1 harg1 arg2 harg2 arg3 harg3 arg4 harg4) K := by
  simp only [cc2__affine_kernel_eq_skeleton]; unfold cc2__affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core c: the arrays as the region finds them; after the body at point t each
    input's buffer at its block and the output's at out2_3 of the input blocks; the invariant the scoped rest and
    the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- The invariant is the class's at both ends of the grid. -/
theorem Phi2_first (c : Dev nD) : (dat2 V c).Φ 0 = Pipeline.ΦA spec2 c := rfl
theorem Phi2_last (c : Dev nD) : (dat2 V c).Φ (Fin.last cfg2.N) ⊢ Pipeline.ΦA spec2 c := .rfl

/-- Each input's current staging buffer holds its block at every point, fetched there or not. -/
theorem held2_0 (c : Dev nD) (t : Fin cfg2.N) (d) : (dat2 V c).before 0 t d = iblk2 V c 0 t :=
  held2_0_of V (dat2 V c) (A_eq2 V c 0) (after2_0 V c) t d
theorem held2_1 (c : Dev nD) (t : Fin cfg2.N) (d) : (dat2 V c).before 1 t d = iblk2 V c 1 t :=
  held2_1_of V (dat2 V c) (A_eq2 V c 1) (after2_1 V c) t d
theorem held2_2 (c : Dev nD) (t : Fin cfg2.N) (d) : (dat2 V c).before 2 t d = iblk2 V c 2 t :=
  held2_2_of V (dat2 V c) (A_eq2 V c 2) (after2_2 V c) t d

/-! ## The body obligation, at a generic point -/

/-- What the body is called with at point t, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's owed counts pass through unread. -/
theorem triple_at2 (c : Dev nD) (t : Fin cfg2.N) :
    pre2 V c t ⊢ wp frame (wpE (defs₀ (F := F)) Variants.none c none) Set.univ (bodyAt2 t) (fun _ => post2 V c t) := by
  unfold pre2 post2 bodyAt2
  simp only [held2_0, held2_1, held2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (triple2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact triple_at2 V c t

end Cert.KernelIdeal.Hand

end
-- ==== Proof.KI.Run.lean ====
/- THE RUN of @main: its six segments from the launch to the return — a stretch of host operations, the edge
   kernel's region, a stretch, the MLP kernel's region, a stretch, the affine kernel's region.
   The buffer contents at every segment boundary are a fold from the launch memory: a host stretch's contents are the
   stretch's operations applied in order; a region's are its entry contents with each window's array replaced by what
   the pipeline's write-backs leave. Each region is a segment over the thread state "every unscoped buffer at the
   boundary's contents, the generator register at some state, nothing owed". The launch over the six segments gives:
   every weakly fair execution terminates and every unscoped buffer ends at the last boundary's contents; every
   argument array, written by no stretch and by no region, ends as launched. Stated at any float instance. -/
import proofs.«169544_j1039382086070_1_alg».proof.Proof.KI.R0
import proofs.«169544_j1039382086070_1_alg».proof.Proof.KI.R1
import proofs.«169544_j1039382086070_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host stretches write, and that none allocates -/

/-- No operation of host stretch 0 allocates a buffer. -/
theorem hostOps0_fresh : (hostOps0 : List (HloOp τ sig (Elt F))).Forall fun op => op.fresh = ∅ := by
  simp only [List.Forall]; repeat' constructor
/-- The references host stretch 0's operations write: each operation's result. -/
abbrev hostOps0_W : List (Ref sig .tc) := [main_c, main_v0, main_v1, main_c_0, main_v2, main_v3, main_v4, main_v5, main_v6]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 1 allocates a buffer. -/
theorem hostOps1_fresh : (hostOps1 : List (HloOp τ sig (Elt F))).Forall fun op => op.fresh = ∅ := by
  simp only [List.Forall]; repeat' constructor
/-- The references host stretch 1's operations write: each operation's result. -/
abbrev hostOps1_W : List (Ref sig .tc) := [main_cst, main_v8, main_v9, main_v10]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- No operation of host stretch 2 allocates a buffer. -/
theorem hostOps2_fresh : (hostOps2 : List (HloOp τ sig (Elt F))).Forall fun op => op.fresh = ∅ := by
  simp only [List.Forall]; repeat' constructor
/-- The references host stretch 2's operations write: each operation's result. -/
abbrev hostOps2_W : List (Ref sig .tc) := [main_v12, main_v13, main_cst_1, main_v14, main_v15, main_v16, main_v17, main_cst_2, main_v18, main_v19, main_v20, main_v21, main_cst_3, main_v22, main_v23, main_v24, main_v25, main_v26, main_v27]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## The buffer contents at each segment boundary: a fold through @main -/

/-- Core `c`'s buffers at launch. -/
abbrev W0 : Dev nD → Valuation τ sig (Elt F) := fun c b => (s₀ m ρ).mem ((c : Dev nD), b)

/-- After host stretch 0 (region 0's entry): the stretch's operations applied in order to the contents before it. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- A reference host stretch 0 does not write keeps its contents across it. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- At region 0's exit: its windows' arrays at what the pipeline leaves (an input's as entered, an output's with the
    write-backs folded in point order), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves, and every other buffer what it held at
    entry: the two facts that put the arrays back among the unscoped buffers. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1 (region 1's entry): the stretch's operations applied in order to the contents before it. -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- A reference host stretch 1 does not write keeps its contents across it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- At region 1's exit: its windows' arrays at what the pipeline leaves (an input's as entered, an output's with the
    write-backs folded in point order), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves, and every other buffer what it held at
    entry: the two facts that put the arrays back among the unscoped buffers. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2 (region 2's entry): the stretch's operations applied in order to the contents before it. -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- A reference host stretch 2 does not write keeps its contents across it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- At region 2's exit: its windows' arrays at what the pipeline leaves (an input's as entered, an output's with the
    write-backs folded in point order), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves, and every other buffer what it held at
    entry: the two facts that put the arrays back among the unscoped buffers. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched

No host operation writes an argument, and a region either bypasses it or reads it through an input window, whose
array the pipeline never writes; so the fold at an argument's buffer walks back to the launch memory. -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := W1_of m ρ c main_arg1 (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := W1_of m ρ c main_arg2 (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := W1_of m ρ c main_arg3 (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := (W4_arr m ρ c 1).trans (((dat1 (V3 m ρ) c).arrAt_in 1 rfl _).trans (A_eq1 (V3 m ρ) c 1))
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := W5_of m ρ c main_arg5 (by decide)
    _ = W3 m ρ c (Proc.devRef .tc main_arg5) := (W4_arr m ρ c 2).trans (((dat1 (V3 m ρ) c).arrAt_in 2 rfl _).trans (A_eq1 (V3 m ρ) c 2))
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := (W4_arr m ρ c 3).trans (((dat1 (V3 m ρ) c).arrAt_in 3 rfl _).trans (A_eq1 (V3 m ρ) c 3))
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := W5_of m ρ c main_arg7 (by decide)
    _ = W3 m ρ c (Proc.devRef .tc main_arg7) := (W4_arr m ρ c 4).trans (((dat1 (V3 m ρ) c).arrAt_in 4 rfl _).trans (A_eq1 (V3 m ρ) c 4))
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to
    those references at the stretch's operations applied to `W c`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents `W6`, the
    generator register at some state. -/
abbrev Tₙ (c : Dev nD) : sProp 𝕄 := iprop(StableHlo.held (c : Thread nD τ) (Pipeline.ucRefs τ sig) (W6 m ρ c) ∗ ∃ r, prngReg c r)

/-! ## The regions as segments -/

-- a lemma stated over the pinned configuration of pipeline `p` meets the printed configuration only when
-- unification may unfold plain definitions in a metavariable's type
set_option backward.isDefEq.respectTransparency.types false in
/-- REGION 0 over the thread state: entered from every unscoped buffer at `W1`, left at `W2`. Its arrays
    split out of the unscoped buffers and are put back at the exit contents; the generator register and the scoped
    buffers no window stages go into the pipeline's invariant at the first point (`Phi0_first`) and come back out
    of it at the last (`Phi0_last`); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from Phi0_first (V1 m ρ) c]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Phi0_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a lemma stated over the pinned configuration of pipeline `p` meets the printed configuration only when
-- unification may unfold plain definitions in a metavariable's type
set_option backward.isDefEq.respectTransparency.types false in
/-- REGION 1 over the thread state: entered from every unscoped buffer at `W3`, left at `W4`. Its arrays
    split out of the unscoped buffers and are put back at the exit contents; the generator register and the scoped
    buffers no window stages go into the pipeline's invariant at the first point (`Phi1_first`) and come back out
    of it at the last (`Phi1_last`); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from Phi1_first (V3 m ρ) c]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Phi1_last (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a lemma stated over the pinned configuration of pipeline `p` meets the printed configuration only when
-- unification may unfold plain definitions in a metavariable's type
set_option backward.isDefEq.respectTransparency.types false in
/-- REGION 2 over the thread state: entered from every unscoped buffer at `W5`, left at `W6`. Its arrays
    split out of the unscoped buffers and are put back at the exit contents; the generator register and the scoped
    buffers no window stages go into the pipeline's invariant at the first point (`Phi2_first`) and come back out
    of it at the last (`Phi2_last`); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_first (V5 m ρ) c]; unfold Pipeline.ΦA
    iintro ⟨Hp, -, Hr⟩
    isplitl [Hr]; · iexact Hr
    iexact Hp
  hout c := by
    rw [Pipeline.ownSems0_none]
    refine (show (pdats m ρ 2 c).Φ (Fin.last _) ⊢ Pipeline.ΦA spec2 c from Phi2_last (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: @main is the chain of its six items, and the segments' run is the chain of
    their fragments, which are those items. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state every unscoped buffer holds the last
    boundary's contents `W6`: the launch over the six segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution of @main terminates, nothing faulting, and every final state has the
    twelve argument arrays as launched: each is an unscoped buffer, which ends at `W6` (`run_all`), and `W6` at an
    argument is the launch memory (`W6_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c)⟩) (run_all m ρ)

/-- info: 'Cert.KernelIdeal.Hand.run_all' depends on axioms: [propext, Classical.choice, Quot.sound] -/
#guard_msgs in #print axioms run_all
/-- info: 'Cert.KernelIdeal.Hand.frame' depends on axioms: [propext, Classical.choice, Quot.sound] -/
#guard_msgs in #print axioms frame

end Cert.KernelIdeal.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
import Idealize.ShloMosaic.PureOps.Ideal
import Idealize.ShloMosaic.Lib.ValueIdx
import proofs.«169544_j1039382086070_1_alg».proof.Proof.LibReal

/-!
  The layer as functions of whole arrays, index by index, on the extended reals.

  A graph-isomorphism layer with batch normalisation over the nodes:
  a message per edge (the source node's row plus a linear image of the edge's features plus a
  bias), the messages summed per destination node by a map `agg` that is carried abstractly here,
  a two-layer perceptron with a rectifier on every node row, and the normalisation of every column
  by its mean and (biased) variance over the nodes, followed by an affine map.

  Two spellings of the result are defined.  They differ in three places: the grouping of the
  message's three summands; the variance, once as the mean of squares less the squared mean and
  once as the mean of squared deviations; and the last step, once as `h · scale + shift` with
  the mean folded into the shift and once as `((h - mean) · r) · γ + β`.  On real entries the two
  agree (`outK_eq_outR`); on infinite entries they need not.
-/

open scoped BigOperators

noncomputable section

namespace Cert.Spec

open Idealize.ShloMosaic Idealize.ShloMosaic.ValueIdx Cert.LibReal

/-- Shapes: edges × width, edges × edge features, nodes × width, nodes × hidden, and the weights'. -/
abbrev SEd : Shape := ⟨2, ![800000, 128]⟩
abbrev SEf : Shape := ⟨2, ![800000, 16]⟩
abbrev SWe : Shape := ⟨2, ![16, 128]⟩
abbrev SNd : Shape := ⟨2, ![50000, 128]⟩
abbrev SNh : Shape := ⟨2, ![50000, 256]⟩
abbrev SW1 : Shape := ⟨2, ![128, 256]⟩
abbrev SW2 : Shape := ⟨2, ![256, 128]⟩
abbrev Sd : Shape := ⟨1, ![128]⟩
abbrev Sh : Shape := ⟨1, ![256]⟩

/-- The number of nodes and the variance's offset, as the two programs spell them. -/
def nodes : EReal := Ideal.ofBits .f32 0x47435000#32
def eps : EReal := Ideal.ofBits .f32 0x3727C5AC#32

/-- The edge's linear image: row `e` of the edge features against column `j` of the weight. -/
def edgeLin (ef : SEf.Idx → EReal) (we : SWe.Idx → EReal) : SEd.Idx → EReal :=
  fun i => ∑ k : Fin 16, ef (ix2 (i 0) k) * we (ix2 k (i 1))

/-- The message, grouped as (gathered + linear) + bias. -/
def msgK (g : SEd.Idx → EReal) (ef : SEf.Idx → EReal) (we : SWe.Idx → EReal) (be : Sd.Idx → EReal) : SEd.Idx → EReal :=
  fun i => (g i + edgeLin ef we i) + be (ix1 (i 1))

/-- The message, grouped as gathered + (linear + bias). -/
def msgR (g : SEd.Idx → EReal) (ef : SEf.Idx → EReal) (we : SWe.Idx → EReal) (be : Sd.Idx → EReal) : SEd.Idx → EReal :=
  fun i => g i + (edgeLin ef we i + be (ix1 (i 1)))

/-- The hidden layer: a row of the aggregate against the first weight, plus bias, rectified. -/
def hidden (agg : SNd.Idx → EReal) (w1 : SW1.Idx → EReal) (b1 : Sh.Idx → EReal) : SNh.Idx → EReal :=
  fun i => max ((∑ k : Fin 128, agg (ix2 (i 0) k) * w1 (ix2 k (i 1))) + b1 (ix1 (i 1))) 0

/-- The perceptron's output. -/
def mlp (agg : SNd.Idx → EReal) (w1 : SW1.Idx → EReal) (b1 : Sh.Idx → EReal) (w2 : SW2.Idx → EReal) (b2 : Sd.Idx → EReal) :
    SNd.Idx → EReal :=
  fun i => (∑ k : Fin 256, hidden agg w1 b1 (ix2 (i 0) k) * w2 (ix2 k (i 1))) + b2 (ix1 (i 1))

/-- A column's sum and sum of squares over the nodes. -/
def colSum (h : SNd.Idx → EReal) (j : Fin 128) : EReal := ∑ r : Fin 50000, h (ix2 r j)
def colSumSq (h : SNd.Idx → EReal) (j : Fin 128) : EReal := ∑ r : Fin 50000, h (ix2 r j) * h (ix2 r j)

/-- The column's mean. -/
def mean (h : SNd.Idx → EReal) (j : Fin 128) : EReal := Ideal.div (colSum h j) nodes

/-- The variance as the mean of squares less the squared mean. -/
def varK (h : SNd.Idx → EReal) (j : Fin 128) : EReal := Ideal.div (colSumSq h j) nodes - mean h j * mean h j

/-- The variance as the mean of squared deviations. -/
def varR (h : SNd.Idx → EReal) (j : Fin 128) : EReal :=
  Ideal.div (∑ r : Fin 50000, (h (ix2 r j) - mean h j) * (h (ix2 r j) - mean h j)) nodes

/-- The scale `γ · r` and the shift `β - mean · scale`, with `r` the reciprocal root of `varK + eps`. -/
def scaleK (h : SNd.Idx → EReal) (γ : Sd.Idx → EReal) (j : Fin 128) : EReal := γ (ix1 j) * Ideal.rsqrt (varK h j + eps)
def shiftK (h : SNd.Idx → EReal) (γ β : Sd.Idx → EReal) (j : Fin 128) : EReal := β (ix1 j) - mean h j * scaleK h γ j

/-- The result as `h · scale + shift`. -/
def outK (h : SNd.Idx → EReal) (γ β : Sd.Idx → EReal) : SNd.Idx → EReal :=
  fun i => h i * scaleK h γ (i 1) + shiftK h γ β (i 1)

/-- The result as `((h - mean) · r) · γ + β`, with `r` the reciprocal root of `varR + eps`. -/
def outR (h : SNd.Idx → EReal) (γ β : Sd.Idx → EReal) : SNd.Idx → EReal :=
  fun i => ((h i - mean h (i 1)) * Ideal.rsqrt (varR h (i 1) + eps)) * γ (ix1 (i 1)) + β (ix1 (i 1))

/-! ### The two constants -/

/-- The node count's pattern denotes the real `50000`. -/
theorem nodes_eq : nodes = ((50000 : ℝ) : EReal) := by
  unfold nodes
  simp [Ideal.ofBits, Ideal.ieee, -EReal.coe_mul]; norm_num

/-- The variance offset's pattern denotes a positive real. -/
theorem eps_pos : ∃ e : ℝ, 0 < e ∧ eps = (e : EReal) := by
  unfold eps
  simp [Ideal.ofBits, Ideal.ieee, -EReal.coe_mul]

/-! ### The variance's algebra, in the reals, over any finite index set -/

/-- Squared deviations from a constant `m`: `Σ (a - m)² = Σ a² - 2 m Σ a + |s| m²`. -/
theorem sum_sq_dev {ι : Type} (s : Finset ι) (a : ι → ℝ) (m : ℝ) :
    ∑ i ∈ s, (a i - m) * (a i - m)
      = (∑ i ∈ s, a i * a i) - 2 * m * (∑ i ∈ s, a i) + (s.card : ℝ) * (m * m) := by
  have hpt : ∀ i ∈ s, (a i - m) * (a i - m) = a i * a i - 2 * m * a i + m * m := fun i _ => by ring
  rw [Finset.sum_congr rfl hpt, Finset.sum_add_distrib, Finset.sum_sub_distrib, ← Finset.mul_sum,
    Finset.sum_const, nsmul_eq_mul]

/-- With `N = |s| ≠ 0` and `μ = (Σ a) / N`, the mean of squared deviations from `μ` is the mean of
    squares less `μ²`. -/
theorem var_two_ways {ι : Type} (s : Finset ι) (a : ι → ℝ) (N : ℝ) (hN : N ≠ 0) (hc : (s.card : ℝ) = N) :
    (∑ i ∈ s, (a i - (∑ i ∈ s, a i) * (1 / N)) * (a i - (∑ i ∈ s, a i) * (1 / N))) * (1 / N)
      = (∑ i ∈ s, a i * a i) * (1 / N) - ((∑ i ∈ s, a i) * (1 / N)) * ((∑ i ∈ s, a i) * (1 / N)) := by
  rw [sum_sq_dev, hc]
  field_simp
  ring

/-- A mean of squares is not negative. -/
theorem var_nonneg {ι : Type} (s : Finset ι) (a : ι → ℝ) (m N : ℝ) (hN : 0 < N) :
    0 ≤ (∑ i ∈ s, (a i - m) * (a i - m)) * (1 / N) :=
  mul_nonneg (Finset.sum_nonneg fun i _ => mul_self_nonneg _) (by positivity)

/-- The reciprocal root of a positive real is the real reciprocal root. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

/-! ### The statistics of a real array are the real statistics -/

/-- The real column mean. -/
def meanR (a : SNd.Idx → ℝ) (j : Fin 128) : ℝ := (∑ r : Fin 50000, a (ix2 r j)) * (1 / 50000)

/-- The real column variance, as the mean of squared deviations. -/
def varianceR (a : SNd.Idx → ℝ) (j : Fin 128) : ℝ :=
  (∑ r : Fin 50000, (a (ix2 r j) - meanR a j) * (a (ix2 r j) - meanR a j)) * (1 / 50000)

theorem mean_coe (a : SNd.Idx → ℝ) (j : Fin 128) :
    mean (fun i => (a i : EReal)) j = ((meanR a j : ℝ) : EReal) := by
  unfold mean colSum meanR
  rw [nodes_eq, Ideal.div_coe (by norm_num : (50000 : ℝ) ≠ 0), ← coe_sum, ← EReal.coe_mul]

theorem varR_coe (a : SNd.Idx → ℝ) (j : Fin 128) :
    varR (fun i => (a i : EReal)) j = ((varianceR a j : ℝ) : EReal) := by
  unfold varR varianceR
  rw [mean_coe, nodes_eq, Ideal.div_coe (by norm_num : (50000 : ℝ) ≠ 0)]
  simp only [← EReal.coe_sub, ← EReal.coe_mul, ← coe_sum]

theorem varK_coe (a : SNd.Idx → ℝ) (j : Fin 128) :
    varK (fun i => (a i : EReal)) j = ((varianceR a j : ℝ) : EReal) := by
  unfold varK colSumSq
  rw [mean_coe, nodes_eq, Ideal.div_coe (by norm_num : (50000 : ℝ) ≠ 0)]
  simp only [← EReal.coe_mul, ← coe_sum, ← EReal.coe_sub]
  congr 1
  unfold varianceR meanR
  refine (var_two_ways Finset.univ (fun r : Fin 50000 => a (ix2 r j)) 50000 (by norm_num) ?_).symm
  rw [Finset.card_univ, Fintype.card_fin]
  norm_num

theorem varianceR_nonneg (a : SNd.Idx → ℝ) (j : Fin 128) : 0 ≤ varianceR a j :=
  var_nonneg Finset.univ (fun r : Fin 50000 => a (ix2 r j)) (meanR a j) 50000 (by norm_num)

/-- The two groupings of the message are one function: addition of extended reals is associative. -/
theorem msgK_eq_msgR (g : SEd.Idx → EReal) (ef : SEf.Idx → EReal) (we : SWe.Idx → EReal) (be : Sd.Idx → EReal) :
    msgK g ef we be = msgR g ef we be := by
  funext i
  unfold msgK msgR
  exact add_assoc _ _ _

/-- Real entries give real messages. -/
theorem msgR_isReal (g : SEd.Idx → EReal) (ef : SEf.Idx → EReal) (we : SWe.Idx → EReal) (be : Sd.Idx → EReal)
    (hg : ∀ i, IsReal (g i)) (hef : ∀ i, IsReal (ef i)) (hwe : ∀ i, IsReal (we i)) (hbe : ∀ i, IsReal (be i)) :
    ∀ i, IsReal (msgR g ef we be i) := by
  intro i
  unfold msgR edgeLin
  exact IsReal.add (hg i)
    (IsReal.add (IsReal.sum _ _ fun k _ => IsReal.mul (hef _) (hwe _)) (hbe _))

/-- Real entries give a real hidden layer. -/
theorem hidden_isReal (agg : SNd.Idx → EReal) (w1 : SW1.Idx → EReal) (b1 : Sh.Idx → EReal)
    (hagg : ∀ i, IsReal (agg i)) (hw1 : ∀ i, IsReal (w1 i)) (hb1 : ∀ i, IsReal (b1 i)) :
    ∀ i, IsReal (hidden agg w1 b1 i) := by
  intro i
  unfold hidden
  exact IsReal.max
    (IsReal.add (IsReal.sum _ _ fun k _ => IsReal.mul (hagg _) (hw1 _)) (hb1 _)) IsReal.zero

/-- Real entries give a real perceptron output. -/
theorem mlp_isReal (agg : SNd.Idx → EReal) (w1 : SW1.Idx → EReal) (b1 : Sh.Idx → EReal) (w2 : SW2.Idx → EReal) (b2 : Sd.Idx → EReal)
    (hagg : ∀ i, IsReal (agg i)) (hw1 : ∀ i, IsReal (w1 i)) (hb1 : ∀ i, IsReal (b1 i)) (hw2 : ∀ i, IsReal (w2 i))
    (hb2 : ∀ i, IsReal (b2 i)) : ∀ i, IsReal (mlp agg w1 b1 w2 b2 i) := by
  intro i
  unfold mlp
  exact IsReal.add
    (IsReal.sum _ _ fun k _ => IsReal.mul (hidden_isReal agg w1 b1 hagg hw1 hb1 _) (hw2 _)) (hb2 _)

/-- One column, one real entry `x`: `x · scale + shift` is `((x - mean) · r) · γ + β`.  Both variances are
    the one real `v ≥ 0`, so `v + eps > 0` and `r` is a real; the rest is the ring laws of the reals. -/
theorem norm_two_ways (a : SNd.Idx → ℝ) (c b : Sd.Idx → ℝ) (j : Fin 128) (x : ℝ) :
    (x : EReal) * scaleK (fun i => (a i : EReal)) (fun i => (c i : EReal)) j
        + shiftK (fun i => (a i : EReal)) (fun i => (c i : EReal)) (fun i => (b i : EReal)) j
      = (((x : EReal) - mean (fun i => (a i : EReal)) j)
            * Ideal.rsqrt (varR (fun i => (a i : EReal)) j + eps)) * (c (ix1 j) : EReal)
          + (b (ix1 j) : EReal) := by
  obtain ⟨e, he, heps⟩ := eps_pos
  have hpos : 0 < varianceR a j + e := add_pos_of_nonneg_of_pos (varianceR_nonneg a j) he
  unfold shiftK scaleK
  rw [varK_coe, varR_coe, mean_coe, heps, ← EReal.coe_add, rsqrt_coe_pos hpos]
  simp only [← EReal.coe_mul, ← EReal.coe_sub, ← EReal.coe_add]
  congr 1
  ring

/-- On real entries the two spellings of the normalised result agree. -/
theorem outK_eq_outR (h : SNd.Idx → EReal) (γ β : Sd.Idx → EReal)
    (hh : ∀ i, IsReal (h i)) (hγ : ∀ i, IsReal (γ i)) (hβ : ∀ i, IsReal (β i)) :
    outK h γ β = outR h γ β := by
  choose a ha using hh
  choose c hc using hγ
  choose b hb using hβ
  obtain rfl : h = fun i => (a i : EReal) := funext ha
  obtain rfl : γ = fun i => (c i : EReal) := funext hc
  obtain rfl : β = fun i => (b i : EReal) := funext hb
  funext i
  exact norm_two_ways a c b (i 1) (a i)

end Cert.Spec

end
-- ==== Proof.KHost.lean ====
/- The host operations between the three kernel regions, read as functions of the buffers they start from.
   Before the first region: the source rows gathered (the indices normalised: a negative index counts from the
   end). Between the first and the second: the messages summed per destination node. Between the second and
   the third: from the two rows of column statistics, the mean, the variance as the mean of squares less the
   squared mean, and the scale and shift rows of the normalisation. -/
import proofs.«169544_j1039382086070_1_alg».proof.Proof.Gen.KernelIdeal.Launch
import proofs.«169544_j1039382086070_1_alg».proof.Proof.Gen.KernelIdeal.Regions
import proofs.«169544_j1039382086070_1_alg».proof.Proof.Spec
import Idealize.ShloMosaic.Lib.StableHlo.Run
import Idealize.ShloMosaic.Lib.Pipeline.Value
import Idealize.ShloMosaic.Lib.ValueIdx

noncomputable section

namespace Cert.KernelIdeal.HandValue

open Idealize.ShloMosaic Idealize.ShloMosaic.TcCoe Idealize.SL.Sem
open Cert.KernelIdeal Cert.KernelIdeal.Gen

variable {F : FTy → Type} [FloatOps F]

/-! ## The three stretches' results, by name -/

/-- The rows of the node table the edges' source indices name (an index below zero read from the table's end). -/
def gathered (nf : (⟨S50000x128, .f32⟩ : BufTy).Contents (Elt F)) (src : (⟨S800000, .i32⟩ : BufTy).Contents (Elt F)) :
    (⟨S800000x128, .f32⟩ : BufTy).Contents (Elt F) :=
  Host.gather gather_S50000x128_S800000x1_S800000x128_1_0_n_n_0_1_1128 nf
    (broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 50000#32))) src))

/-- The edge rows summed into the rows their destination indices name, from zero. -/
def aggregated (dst : (⟨S800000, .i32⟩ : BufTy).Contents (Elt F)) (u : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) u

/-- Row `k` of the two rows of statistics, as a vector of the columns. -/
def statRow0 (st : (⟨S2x128, .f32⟩ : BufTy).Contents (Elt F)) : (⟨S128, .f32⟩ : BufTy).Contents (Elt F) :=
  shapeCast S128 (extractStridedSlice S1x128 ![0, 0] st slices_S2x128_S1x128_0_0) shapeCasts_S1x128_S128
def statRow1 (st : (⟨S2x128, .f32⟩ : BufTy).Contents (Elt F)) : (⟨S128, .f32⟩ : BufTy).Contents (Elt F) :=
  shapeCast S128 (extractStridedSlice S1x128 ![1, 0] st slices_S2x128_S1x128_1_0) shapeCasts_S1x128_S128

/-- The column means: the sums' row over the number of nodes. -/
def meanRow (st : (⟨S2x128, .f32⟩ : BufTy).Contents (Elt F)) : (⟨S128, .f32⟩ : BufTy).Contents (Elt F) :=
  Host.divf (statRow0 st) (broadcastInDim S128 ![] bcast_S_S128 (constant S_ .f32 0x47435000#32))

/-- The scale row: the weight times the reciprocal root of (mean of squares − squared mean + offset). -/
def scaleRow (st : (⟨S2x128, .f32⟩ : BufTy).Contents (Elt F)) (γ : (⟨S128, .f32⟩ : BufTy).Contents (Elt F)) :
    (⟨S128, .f32⟩ : BufTy).Contents (Elt F) :=
  mulf γ (Host.rsqrt (addf (subf (Host.divf (statRow1 st) (broadcastInDim S128 ![] bcast_S_S128 (constant S_ .f32 0x47435000#32)))
    (mulf (meanRow st) (meanRow st))) (broadcastInDim S128 ![] bcast_S_S128 (constant S_ .f32 0x3727C5AC#32))))

/-- The shift row: the bias less the mean times the scale. -/
def shiftRow (st : (⟨S2x128, .f32⟩ : BufTy).Contents (Elt F)) (γ β : (⟨S128, .f32⟩ : BufTy).Contents (Elt F)) :
    (⟨S128, .f32⟩ : BufTy).Contents (Elt F) :=
  subf β (mulf (meanRow st) (scaleRow st γ))

theorem stretch0_gathered (W : Valuation τ sig (Elt F)) :
    StableHlo.after (hostOps0 (F := F)) W (Proc.devRef .tc main_v6)
      = gathered (W (Proc.devRef .tc main_arg0)) (W (Proc.devRef .tc main_arg10)) := by
  after_results; rfl

theorem stretch1_aggregated (W : Valuation τ sig (Elt F)) :
    StableHlo.after (hostOps1 (F := F)) W (Proc.devRef .tc main_v10)
      = aggregated (W (Proc.devRef .tc main_arg11)) (W (Proc.devRef .tc main_v7)) := by
  after_results; rfl

set_option maxHeartbeats 2000000 in
theorem stretch2_scale (W : Valuation τ sig (Elt F)) :
    StableHlo.after (hostOps2 (F := F)) W (Proc.devRef .tc main_v25)
      = scaleRow (W (Proc.devRef .tc main_v11_1)) (W (Proc.devRef .tc main_arg8)) := by
  after_results; rfl

set_option maxHeartbeats 4000000 in
theorem stretch2_shift (W : Valuation τ sig (Elt F)) :
    StableHlo.after (hostOps2 (F := F)) W (Proc.devRef .tc main_v27)
      = shiftRow (W (Proc.devRef .tc main_v11_1)) (W (Proc.devRef .tc main_arg8)) (W (Proc.devRef .tc main_arg9)) := by
  after_results; rfl

/-! ## What a stretch does not write it leaves as it found it -/

theorem stretch0_keeps (W : Valuation τ sig (Elt F)) (r : Ref sig .tc) (h : r ∉ hostOps0_W) :
    StableHlo.after (hostOps0 (F := F)) W (Proc.devRef .tc r) = W (Proc.devRef .tc r) :=
  StableHlo.after_of_writes_sub hostOps0 _ hostOps0_writes h
theorem stretch1_keeps (W : Valuation τ sig (Elt F)) (r : Ref sig .tc) (h : r ∉ hostOps1_W) :
    StableHlo.after (hostOps1 (F := F)) W (Proc.devRef .tc r) = W (Proc.devRef .tc r) :=
  StableHlo.after_of_writes_sub hostOps1 _ hostOps1_writes h
theorem stretch2_keeps (W : Valuation τ sig (Elt F)) (r : Ref sig .tc) (h : r ∉ hostOps2_W) :
    StableHlo.after (hostOps2 (F := F)) W (Proc.devRef .tc r) = W (Proc.devRef .tc r) :=
  StableHlo.after_of_writes_sub hostOps2 _ hostOps2_writes h

end Cert.KernelIdeal.HandValue

end
-- ==== Proof.KHostVal.lean ====
/- The host stretches at the ideal instance, index by index: the scale and shift rows computed from the two
   rows of column statistics are the specification's, and real entries stay real through the gather and
   through the summation per destination. -/
import proofs.«169544_j1039382086070_1_alg».proof.Proof.KHost
import Idealize.ShloMosaic.Lib.IdealHost

open scoped BigOperators

noncomputable section

namespace Cert.KernelIdeal.HandValue

open Idealize.ShloMosaic Idealize.ShloMosaic.TcCoe Idealize.ShloMosaic.ValueIdx Idealize.SL.Sem
open Cert.KernelIdeal Cert.KernelIdeal.Gen Cert.LibReal

/-- The two rows of column statistics of an array `h`: row 0 the column sums, row 1 the sums of squares. -/
def statsOf (h : Cert.Spec.SNd.Idx → EReal) : S2x128.Idx → EReal :=
  fun i => if (i 0).val = 0 then Cert.Spec.colSum h (i 1) else Cert.Spec.colSumSq h (i 1)

/-- Row 0 of the statistics at column q is the column's sum: the row's coordinate is zero. -/
theorem statsOf_row0 (h : Cert.Spec.SNd.Idx → EReal) (q : Fin 128) :
    statsOf h (ix2 (0 : Fin 2) q) = Cert.Spec.colSum h q := by
  unfold statsOf
  exact (if_pos rfl).trans (congrArg (Cert.Spec.colSum h) rfl)

/-- Row 1 of the statistics at column q is the column's sum of squares: the row's coordinate is not zero. -/
theorem statsOf_row1 (h : Cert.Spec.SNd.Idx → EReal) (q : Fin 128) :
    statsOf h (ix2 (1 : Fin 2) q) = Cert.Spec.colSumSq h q := by
  unfold statsOf
  exact (if_neg (show ¬ (((1 : Fin 2) : ℕ) = 0) by decide)).trans (congrArg (Cert.Spec.colSumSq h) rfl)

theorem statRow0_apply (st : S2x128.Idx → EReal) (j : S128.Idx) :
    statRow0 (F := Ideal) st j = st (ix2 (0 : Fin 2) (j 0)) := by
  unfold statRow0
  refine (shapeCast_apply (s := S1x128) (t := S128) _ shapeCasts_S1x128_S128 j (ix2 (0 : Fin 1) (j 0)) ?_).trans ?_
  · rw [Shape.rowMajor_val_two, Shape.rowMajor_val_one]
    show (0 : ℕ) * 128 + (j 0).val = (j 0).val
    omega
  · refine extractStridedSlice_apply _ _ _ _ _ fun a => ?_
    match a with
    | ⟨0, _⟩ => rfl
    | ⟨1, _⟩ => show (j 0).val = 0 + (j 0).val; omega

theorem statRow1_apply (st : S2x128.Idx → EReal) (j : S128.Idx) :
    statRow1 (F := Ideal) st j = st (ix2 (1 : Fin 2) (j 0)) := by
  unfold statRow1
  refine (shapeCast_apply (s := S1x128) (t := S128) _ shapeCasts_S1x128_S128 j (ix2 (0 : Fin 1) (j 0)) ?_).trans ?_
  · rw [Shape.rowMajor_val_two, Shape.rowMajor_val_one]
    show (0 : ℕ) * 128 + (j 0).val = (j 0).val
    omega
  · refine extractStridedSlice_apply _ _ _ _ _ fun a => ?_
    match a with
    | ⟨0, _⟩ => rfl
    | ⟨1, _⟩ => show (j 0).val = 0 + (j 0).val; omega

/-- A scalar constant broadcast over the columns reads, at every column, the constant's pattern as an extended real. -/
theorem constRow_apply (w : BitVec 32) (j : S128.Idx) :
    broadcastInDim S128 ![] bcast_S_S128 (constant (F := Ideal) S_ .f32 w) j = Ideal.ofBits .f32 w := by
  rw [broadcastInDim_scalar_apply, constant_apply]

/-- The host's reciprocal root at an index is the reciprocal root of the element. -/
theorem hostRsqrt_apply {s : Shape} {φ : FTy} (a : FVec Ideal s φ) (i : s.Idx) :
    Host.rsqrt a i = Ideal.rsqrt (a i) := rfl

theorem meanRow_apply (h : Cert.Spec.SNd.Idx → EReal) (j : S128.Idx) :
    meanRow (F := Ideal) (statsOf h) j = Cert.Spec.mean h (j 0) := by
  unfold meanRow
  rw [hostDivf_apply, statRow0_apply, statsOf_row0 h (j 0), constRow_apply]
  unfold Cert.Spec.mean Cert.Spec.nodes
  with_reducible rfl

theorem scaleRow_apply (h : Cert.Spec.SNd.Idx → EReal) (γ : S128.Idx → EReal) (j : S128.Idx) :
    scaleRow (F := Ideal) (statsOf h) γ j = Cert.Spec.scaleK h γ (j 0) := by
  unfold scaleRow
  rw [mulf_apply, hostRsqrt_apply, addf_apply, subf_apply, hostDivf_apply, mulf_apply, statRow1_apply,
    statsOf_row1 h (j 0), meanRow_apply, constRow_apply, constRow_apply]
  unfold Cert.Spec.scaleK Cert.Spec.varK Cert.Spec.nodes Cert.Spec.eps
  exact congrArg₂ (· * ·) (congrArg γ (eq_ix1 j)) rfl

theorem shiftRow_apply (h : Cert.Spec.SNd.Idx → EReal) (γ β : S128.Idx → EReal) (j : S128.Idx) :
    shiftRow (F := Ideal) (statsOf h) γ β j = Cert.Spec.shiftK h γ β (j 0) := by
  unfold shiftRow
  rw [subf_apply, mulf_apply, meanRow_apply, scaleRow_apply]
  unfold Cert.Spec.shiftK
  exact congrArg₂ (· - ·) (congrArg β (eq_ix1 j)) rfl

/-- A gathered entry is an entry of the table. -/
theorem gathered_isReal (nf : S50000x128.Idx → EReal) (src : (⟨S800000, .i32⟩ : BufTy).Contents (Elt Ideal))
    (hnf : ∀ i, IsReal (nf i)) : ∀ i, IsReal (gathered (F := Ideal) nf src i) := fun i => hnf _

/-- A sum into destinations of real updates onto a real array is real, at any shapes: each entry is the entry
    plus a finite sum of updates. -/
theorem scatterAdd_isReal {s si su : Shape} {w : Nat} (d : ScatterDims s si su) (x : s.Idx → EReal) (idx : IVec si w)
    (upd : su.Idx → EReal) (hx : ∀ i, IsReal (x i)) (hu : ∀ j, IsReal (upd j)) (i : s.Idx) :
    IsReal (Host.scatterAdd (F := Ideal) (φ := .f32) d x idx upd i) := by
  unfold Host.scatterAdd
  rw [Ideal.hostScatterAdd_def]
  unfold Ideal.hostScatterAdd
  exact IsReal.add (hx i) (IsReal.sum _ _ fun j _ => hu j)

/-- An aggregated entry is zero plus a finite sum of edge entries. -/
theorem aggregated_isReal (dst : (⟨S800000, .i32⟩ : BufTy).Contents (Elt Ideal)) (u : S800000x128.Idx → EReal)
    (hu : ∀ i, IsReal (u i)) : ∀ i, IsReal (aggregated (F := Ideal) dst u i) := fun i => by
  unfold aggregated
  refine scatterAdd_isReal _ _ _ _ (fun k => ?_) hu i
  rw [broadcastInDim_scalar_apply, constant_apply, Ideal.ofBits_zero_f32]
  exact IsReal.zero

end Cert.KernelIdeal.HandValue

end
-- ==== Proof.KV0.lean ====
import proofs.«169544_j1039382086070_1_alg».proof.Proof.KI.R0
import proofs.«169544_j1039382086070_1_alg».proof.Proof.Spec
import Idealize.ShloMosaic.Lib.Pipeline.Value
import Idealize.ShloMosaic.Lib.ValueIdx
import Idealize.ShloMosaic.PureOps.Ideal.Laws

/-! # The messages at the extended reals

At the extended reals the conversions to the short format are the identity and the block product into a zero
accumulator is the sum over the 16 edge features, so the block of messages a grid point stores is, entry by
entry, `(gathered + Σₖ edge_feats · W_edge) + b_edge` of the blocks read. The blocks read are the arrays read at
the point's rows (the weight and the bias whole), the 80 blocks stored tile the 800000 rows, and so the array
of messages after the region is the message of the whole arrays. -/

set_option maxRecDepth 16384

open scoped BigOperators

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The block product at an index -/

theorem lhs_edge_0 (i : S10000x128.Idx) (q : dot_S10000x16_S16x128_S10000x128_1_0_0_1_n_n.contr.Idx) :
    (dot_S10000x16_S16x128_S10000x128_1_0_0_1_n_n.lhsIdx i q 0).val = (i 0).val := by
  unfold DotDims.lhsIdx
  rw [dif_neg (show ¬(0 : Fin S10000x16.rank) ∈ dot_S10000x16_S16x128_S10000x128_1_0_0_1_n_n.lhsBatch by decide), dif_pos (show (0 : Fin S10000x16.rank) ∈ dot_S10000x16_S16x128_S10000x128_1_0_0_1_n_n.lhsNonContracting by decide)]
  rfl
theorem lhs_edge_1 (i : S10000x128.Idx) (q : dot_S10000x16_S16x128_S10000x128_1_0_0_1_n_n.contr.Idx) :
    (dot_S10000x16_S16x128_S10000x128_1_0_0_1_n_n.lhsIdx i q 1).val = (q ⟨0, by decide⟩).val :=
  dot_S10000x16_S16x128_S10000x128_1_0_0_1_n_n.lhsIdx_val_of_single rfl i q
theorem rhs_edge_0 (i : S10000x128.Idx) (q : dot_S10000x16_S16x128_S10000x128_1_0_0_1_n_n.contr.Idx) :
    (dot_S10000x16_S16x128_S10000x128_1_0_0_1_n_n.rhsIdx i q 0).val = (q ⟨0, by decide⟩).val :=
  dot_S10000x16_S16x128_S10000x128_1_0_0_1_n_n.rhsIdx_val_of_single rfl i q
theorem rhs_edge_1 (i : S10000x128.Idx) (q : dot_S10000x16_S16x128_S10000x128_1_0_0_1_n_n.contr.Idx) :
    (dot_S10000x16_S16x128_S10000x128_1_0_0_1_n_n.rhsIdx i q 1).val = (i 1).val := by
  unfold DotDims.rhsIdx
  rw [dif_neg (show ¬(1 : Fin S16x128.rank) ∈ dot_S10000x16_S16x128_S10000x128_1_0_0_1_n_n.rhsBatch by decide), dif_pos (show (1 : Fin S16x128.rank) ∈ dot_S10000x16_S16x128_S10000x128_1_0_0_1_n_n.rhsNonContracting by decide)]
  rfl

/-- The block product into the zero accumulator, at row `p` and column `q`: the sum over the 16 edge features. -/
theorem edge_matmul_apply (l : FVec Ideal S10000x16 .bf16) (r : FVec Ideal S16x128 .bf16) (p : Fin 10000) (q : Fin 128) :
    matmul dot_S10000x16_S16x128_S10000x128_1_0_0_1_n_n none l r (constant S10000x128 .f32 0x00000000#32) (ix2 p q)
      = ∑ k : Fin 16, l (ix2 p k) * r (ix2 k q) := by
  simp only [matmul]
  rw [Ideal.matmul_constant_zero_apply, ← Equiv.sum_comp (ValueIdx.contrEquiv1 dot_S10000x16_S16x128_S10000x128_1_0_0_1_n_n 16 rfl rfl).symm]
  refine Finset.sum_congr rfl fun k _ => ?_
  have hk := ValueIdx.contrEquiv1_symm_val dot_S10000x16_S16x128_S10000x128_1_0_0_1_n_n 16 rfl rfl k
  have el : dot_S10000x16_S16x128_S10000x128_1_0_0_1_n_n.lhsIdx (ix2 p q) ((ValueIdx.contrEquiv1 dot_S10000x16_S16x128_S10000x128_1_0_0_1_n_n 16 rfl rfl).symm k) = ix2 p k := funext fun a => Fin.ext (by
    match a with
    | ⟨0, _⟩ => exact lhs_edge_0 _ _
    | ⟨1, _⟩ => exact (lhs_edge_1 _ _).trans hk)
  have er : dot_S10000x16_S16x128_S10000x128_1_0_0_1_n_n.rhsIdx (ix2 p q) ((ValueIdx.contrEquiv1 dot_S10000x16_S16x128_S10000x128_1_0_0_1_n_n 16 rfl rfl).symm k) = ix2 k q := funext fun a => Fin.ext (by
    match a with
    | ⟨0, _⟩ => exact (rhs_edge_0 _ _).trans hk
    | ⟨1, _⟩ => exact rhs_edge_1 _ _)
  rw [el, er]

/-! ## The body's payload at an index -/

/-- The bias row laid along every row of the block, at row `p` and column `q`, is the bias at `q`. -/
theorem bias_rows_apply (b : Vec Ideal S128 .f32) (p : Fin 10000) (q : Fin 128) :
    broadcastTo S10000x128 (shapeCast S1x128 b shapeCasts_S128_S1x128) broadcasts_S1x128_S10000x128 (ix2 p q) = b (ix1 q) := by
  rw [broadcastTo_apply _ _ _ (ix2 (0 : Fin 1) q) (fun a => by
    match a with
    | ⟨0, _⟩ => rfl
    | ⟨1, _⟩ => rfl)]
  exact shapeCast_apply _ _ _ (ix1 q) (by simp [Shape.rowMajor_val_one, Shape.rowMajor_val_two])

/-- The message block at row `p` and column `q`: (gathered + the edge's linear image) + bias. -/
theorem pay_apply (x1 : Vec Ideal S10000x16 .f32) (x2 : Vec Ideal S16x128 .f32) (x0 : Vec Ideal S10000x128 .f32) (x3 : Vec Ideal S128 .f32)
    (p : Fin 10000) (q : Fin 128) :
    k0_pay1 x1 x2 x0 x3 (ix2 p q) = (x0 (ix2 p q) + ∑ k : Fin 16, x1 (ix2 p k) * x2 (ix2 k q)) + x3 (ix1 q) := by
  unfold k0_pay1
  rw [addf_apply, addf_apply, bias_rows_apply, edge_matmul_apply, shapeCast_self]
  rfl

/-- The message block at an index is the message of the whole arrays at the array index the block's entry
    comes from, when each block read is its array read at the matching place. -/
theorem pay_eq_msg (x1 : Vec Ideal S10000x16 .f32) (x2 : Vec Ideal S16x128 .f32) (x0 : Vec Ideal S10000x128 .f32) (x3 : Vec Ideal S128 .f32)
    (g : Cert.Spec.SEd.Idx → EReal) (ef : Cert.Spec.SEf.Idx → EReal) (we : Cert.Spec.SWe.Idx → EReal) (be : Cert.Spec.Sd.Idx → EReal)
    (j : S10000x128.Idx) (i : S800000x128.Idx)
    (h0 : x0 j = g i)
    (h1 : ∀ k : Fin 16, x1 (ix2 (j 0) k) = ef (ix2 (i 0) k))
    (h2 : ∀ k : Fin 16, x2 (ix2 k (j 1)) = we (ix2 k (i 1)))
    (h3 : x3 (ix1 (j 1)) = be (ix1 (i 1))) :
    k0_pay1 x1 x2 x0 x3 j = Cert.Spec.msgK g ef we be i := by
  obtain ⟨p, q, rfl⟩ : ∃ (p : Fin 10000) (q : Fin 128), j = ix2 p q := ⟨j 0, j 1, eq_ix2 j⟩
  rw [pay_apply, h0]
  unfold Cert.Spec.msgK Cert.Spec.edgeLin
  rw [Finset.sum_congr rfl fun k _ => by rw [h1 k, h2 k]]
  rw [h3]

/-! ## From the blocks to the array -/

theorem hz2 : (![0, 0] : Fin 2 → Nat) = fun _ => 0 := funext fun a => by fin_cases a <;> rfl
theorem hz1 : (![0] : Fin 1 → Nat) = fun _ => 0 := funext fun a => by fin_cases a; rfl

/-- The block index maps over the grid: the gathered features, the edge features and the messages move with
    the point along the rows; the weight and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What point `t` writes back is block `t` of the message of the whole arrays. -/
theorem flushed_msg (c : Dev nD) (t : Fin cfg0.N) :
    (dat0 (F := Ideal) V c).flushed 4 t = ((cfg0.win 4).blk t).view.read (Elt Ideal) (Cert.Spec.msgK (V c main_v6) (V c main_arg1) (V c main_arg2) (V c main_arg3)) := by
  show (cfg0.win 4).cut (grid0.coords t) ((dat0 V c).after 4 t) = _
  rw [after0_4]
  unfold out0_4
  rw [View.canon_unit_zero hz2]
  simp only [View.ld_unit_zero (S := S10000x128) hz2, View.ld_unit_zero (S := S10000x16) hz2, View.ld_unit_zero (S := S16x128) hz2, View.ld_unit_zero (S := S128) hz1]
  obtain ⟨e00, e01, e10, e11, e20, e21, e30, e40, e41⟩ := idx_facts t
  funext j
  show k0_pay1 (iblk0 V c 1 t) (iblk0 V c 2 t) (iblk0 V c 0 t) (iblk0 V c 3 t) j = Cert.Spec.msgK (V c main_v6) (V c main_arg1) (V c main_arg2) (V c main_arg3) (((cfg0.win 4).blk t).view.emb j)
  refine pay_eq_msg _ _ _ _ _ _ _ _ j _ ?_ ?_ ?_ ?_
  · show V c main_v6 (((cfg0.win 0).blk t).view.emb j) = V c main_v6 (((cfg0.win 4).blk t).view.emb j)
    refine congrArg _ (funext fun a => Fin.ext ?_)
    match a with
    | ⟨0, _⟩ => show win0_0.index t (0 : Fin 2) * 10000 + 1 * (j 0).val = win0_4.index t (0 : Fin 2) * 10000 + 1 * (j 0).val; omega
    | ⟨1, _⟩ => show win0_0.index t (1 : Fin 2) * 128 + 1 * (j 1).val = win0_4.index t (1 : Fin 2) * 128 + 1 * (j 1).val; omega
  · intro k
    show V c main_arg1 (((cfg0.win 1).blk t).view.emb (ix2 (j 0) k)) = V c main_arg1 (ix2 ((((cfg0.win 4).blk t).view.emb j) 0) k)
    refine congrArg _ (funext fun a => Fin.ext ?_)
    match a with
    | ⟨0, _⟩ => show win0_1.index t (0 : Fin 2) * 10000 + 1 * (j 0).val = win0_4.index t (0 : Fin 2) * 10000 + 1 * (j 0).val; omega
    | ⟨1, _⟩ => show win0_1.index t (1 : Fin 2) * 16 + 1 * k.val = k.val; omega
  · intro k
    show V c main_arg2 (((cfg0.win 2).blk t).view.emb (ix2 k (j 1))) = V c main_arg2 (ix2 k ((((cfg0.win 4).blk t).view.emb j) 1))
    refine congrArg _ (funext fun a => Fin.ext ?_)
    match a with
    | ⟨0, _⟩ => show win0_2.index t (0 : Fin 2) * 16 + 1 * k.val = k.val; omega
    | ⟨1, _⟩ => show win0_2.index t (1 : Fin 2) * 128 + 1 * (j 1).val = win0_4.index t (1 : Fin 2) * 128 + 1 * (j 1).val; omega
  · show V c main_arg3 (((cfg0.win 3).blk t).view.emb (ix1 (j 1))) = V c main_arg3 (ix1 ((((cfg0.win 4).blk t).view.emb j) 1))
    refine congrArg _ (funext fun a => Fin.ext ?_)
    match a with
    | ⟨0, _⟩ => show win0_3.index t (0 : Fin 1) * 128 + 1 * (j 1).val = win0_4.index t (1 : Fin 2) * 128 + 1 * (j 1).val; omega

/-- An index of the message array is in point `t`'s block iff each coordinate is in the block's range. -/
theorem mem_blk_msg (t : Fin cfg0.N) (i : S800000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v7).slice (win0_4.rect t)).set ↔ _
  rw [View.set_slice_whole, Rect.mem_set_unit]
  exact Iff.rfl

/-- Every index of the message array is in some point's block: row `r` is in the block of point `r / 10000`. -/
theorem cover_msg (i : S800000x128.Idx) : ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 80 := N_0
  refine ⟨⟨(i 0).val / 10000, by rw [hN]; omega⟩, flush0_4 _, ?_⟩
  rw [mem_blk_msg]
  obtain ⟨-, -, -, -, -, -, -, e40, e41⟩ := idx_facts ⟨(i 0).val / 10000, by rw [hN]; omega⟩
  intro a
  match a with
  | ⟨0, _⟩ => show win0_4.index _ (0 : Fin 2) * 10000 ≤ (i 0).val ∧ (i 0).val < win0_4.index _ (0 : Fin 2) * 10000 + 10000; rw [e40]; show (i 0).val / 10000 * 10000 ≤ (i 0).val ∧ (i 0).val < (i 0).val / 10000 * 10000 + 10000; omega
  | ⟨1, _⟩ => show win0_4.index _ (1 : Fin 2) * 128 ≤ (i 1).val ∧ (i 1).val < win0_4.index _ (1 : Fin 2) * 128 + 128; rw [e41]; omega

/-- THE MESSAGE ARRAY after the region: the message of the whole arrays as the region finds them. -/
theorem msg_final (c : Dev nD) :
    (dat0 (F := Ideal) V c).arrAt 4 cfg0.N = Cert.Spec.msgK (V c main_v6) (V c main_arg1) (V c main_arg2) (V c main_arg3) :=
  (dat0 V c).arrAt_eq_of_cover 4 (Cert.Spec.msgK (V c main_v6) (V c main_arg1) (V c main_arg2) (V c main_arg3)) (fun t _ => flushed_msg V c t) cover_msg

end Cert.KernelIdeal.HandValue

end
-- ==== Proof.KV2.lean ====
/- The VALUE of region 2 at the ideal floats: after its ten write-backs the output array is, index by index,
   h·scale + shift of the whole arrays the region finds — the row of scale and of shift broadcast over the rows of h. -/
import proofs.«169544_j1039382086070_1_alg».proof.Proof.KI.R2
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The payload at an index -/

theorem origin2 : (![0, 0] : Fin 2 → Nat) = fun _ => 0 := funext fun a => by fin_cases a <;> rfl
theorem origin1 : (![0] : Fin 1 → Nat) = fun _ => 0 := funext fun a => by fin_cases a; rfl

/-- The body's payload at row p, column q: the block of h there, times the scale row at q, plus the shift row at q.
    The casts of a shape to itself are the identity; a [128] row cast to [1,128] and broadcast over 5000 rows reads,
    at (p, q), the row at q. -/
theorem affine_at (x0 : Vec Ideal S5000x128 .f32) (x1 x2 : Vec Ideal S128 .f32) (p : Fin 5000) (q : Fin 128) :
    k2_pay1 x0 x1 x2 (ix2 p q) = x0 (ix2 p q) * x1 (ix1 q) + x2 (ix1 q) := by
  unfold k2_pay1
  simp only [addf_apply, mulf_apply, shapeCast_self]
  rw [broadcastTo_1b_ab_apply, broadcastTo_1b_ab_apply, shapeCast_a_1a_apply, shapeCast_a_1a_apply]

/-! ## From blocks to the array -/

/-- The whole-array function: h·scale + shift, the rows of scale and shift broadcast over the rows of h. -/
abbrev affine (h : S50000x128.Idx → EReal) (scale shift : S128.Idx → EReal) : S50000x128.Idx → EReal :=
  fun i => h i * scale (ix1 (i 1)) + shift (ix1 (i 1))

/-- The printed index maps over the ten grid points: the output and h move together down the rows, point t at row
    block t and column block 0; the scale and shift rows stay at block 0. -/
theorem block_indices : ∀ t : Fin cfg2.N, win2_3.index t (0 : Fin 2) = t.val ∧ win2_3.index t (1 : Fin 2) = 0
    ∧ win2_0.index t (0 : Fin 2) = t.val ∧ win2_0.index t (1 : Fin 2) = 0
    ∧ win2_1.index t (0 : Fin 1) = 0 ∧ win2_2.index t (0 : Fin 1) = 0 :=
  (by decide +kernel : ∀ t : Fin grid2.N, _)

/-- What point t writes back is block t of the whole-array function h·scale + shift. -/
theorem flushed_eq (c : Dev nD) (t : Fin cfg2.N) :
    (dat2 (F := Ideal) V c).flushed 3 t = ((cfg2.win 3).blk t).view.read (Elt Ideal)
      (affine (V c main_v11_0) (V c main_v25) (V c main_v27)) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S128) origin1]
  obtain ⟨e30, e31, e00, e01, e1, e2⟩ := block_indices t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = affine (V c main_v11_0) (V c main_v25) (V c main_v27) (((cfg2.win 3).blk t).view.emb (ix2 p q))
  rw [affine_at]
  -- the block of h at point t sits in the array where the output's block does
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  -- the scale and shift rows are whole: column q of the block is column q of the array, the output's column
  have h1 : ((cfg2.win 1).blk t).view.emb (ix1 q) = ix1 ((((cfg2.win 3).blk t).view.emb (ix2 p q)) 1) := by
    funext a; apply Fin.ext
    match a with
    | ⟨0, _⟩ => show win2_1.index t (0 : Fin 1) * 128 + 1 * q.val = win2_3.index t (1 : Fin 2) * 128 + 1 * q.val; omega
  have h2 : ((cfg2.win 2).blk t).view.emb (ix1 q) = ix1 ((((cfg2.win 3).blk t).view.emb (ix2 p q)) 1) := by
    funext a; apply Fin.ext
    match a with
    | ⟨0, _⟩ => show win2_2.index t (0 : Fin 1) * 128 + 1 * q.val = win2_3.index t (1 : Fin 2) * 128 + 1 * q.val; omega
  have a0 : iblk2 V c 0 t (ix2 p q) = (V c main_v11_0 : S50000x128.Idx → EReal) (((cfg2.win 3).blk t).view.emb (ix2 p q)) := by
    show V c main_v11_0 (((cfg2.win 0).blk t).view.emb (ix2 p q)) = _
    exact congrArg (V c main_v11_0) h0
  have a1 : iblk2 V c 1 t (ix1 q) = (V c main_v25 : S128.Idx → EReal) (ix1 ((((cfg2.win 3).blk t).view.emb (ix2 p q)) 1)) := by
    show V c main_v25 (((cfg2.win 1).blk t).view.emb (ix1 q)) = _
    exact congrArg (V c main_v25) h1
  have a2 : iblk2 V c 2 t (ix1 q) = (V c main_v27 : S128.Idx → EReal) (ix1 ((((cfg2.win 3).blk t).view.emb (ix2 p q)) 1)) := by
    show V c main_v27 (((cfg2.win 2).blk t).view.emb (ix1 q)) = _
    exact congrArg (V c main_v27) h2
  rw [a0, a1, a2]

/-- An index of the array is in point t's block iff each coordinate is in the block's range on its axis. -/
theorem mem_block (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v28).slice (win2_3.rect t)).set ↔ _
  rw [View.set_slice_whole, Rect.mem_set_unit]
  exact Iff.rfl

/-- Row r of the array is in the block of point r / 5000: the ten blocks of 5000 rows tile the 50000 rows. -/
theorem covered (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  obtain ⟨e30, e31, -⟩ := block_indices t
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- THE ARRAY after the region's ten write-backs: h·scale + shift of the arrays the region finds, index by index. -/
theorem out_final (c : Dev nD) :
    (dat2 (F := Ideal) V c).arrAt 3 cfg2.N = affine (V c main_v11_0) (V c main_v25) (V c main_v27) :=
  (dat2 V c).arrAt_eq_of_cover 3 (affine (V c main_v11_0) (V c main_v25) (V c main_v27)) (fun t _ => flushed_eq V c t) covered

end Cert.KernelIdeal.HandValue

end
-- ==== Proof.KVal.lean ====
/- The kernel program's value at the ideal instance, composed along the boundaries of its run.
   The contents of the result buffer at the last boundary are read back boundary by boundary to the launch memory:
   the affine region's output from the perceptron's output and the scale and shift rows; those rows from the two
   rows of column statistics and the weight and bias arguments; the perceptron's output and its statistics from
   the aggregate; the aggregate from the messages; the messages from the gathered rows; the gathered rows from the
   node table and the source indices at launch. Every argument read at a later boundary holds its launch contents
   there, since no stretch and no region before that boundary writes it. The perceptron region's two values are
   hypotheses here. -/
import proofs.«169544_j1039382086070_1_alg».proof.Proof.KI.Run
import proofs.«169544_j1039382086070_1_alg».proof.Proof.KHostVal
import proofs.«169544_j1039382086070_1_alg».proof.Proof.KV0
import proofs.«169544_j1039382086070_1_alg».proof.Proof.KV2

noncomputable section

namespace Cert.KernelIdeal.HandValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-- The TensorCores' buffer contents at a region's entry. -/
abbrev Vals : Type := (c : Dev nD) → (b : Ref sig .tc) → Buf (Elt Ideal) ((c : Thread nD τ).loc b)

/-! ## The perceptron region's values, as hypotheses -/

/-- Region 1 leaves in its first output array the specification's perceptron of its five input arrays, -/
abbrev MlpValue : Prop := ∀ (V : Vals) (c : Dev nD),
  (dat1 (F := Ideal) V c).arrAt 5 cfg1.N = Cert.Spec.mlp (V c main_v10) (V c main_arg4) (V c main_arg5) (V c main_arg6) (V c main_arg7)
/-- and in its second the two rows of column statistics of that. -/
abbrev StatsValue : Prop := ∀ (V : Vals) (c : Dev nD),
  (dat1 (F := Ideal) V c).arrAt 6 cfg1.N = statsOf (Cert.Spec.mlp (V c main_v10) (V c main_arg4) (V c main_arg5) (V c main_arg6) (V c main_arg7))

variable (m : (ℓ : Loc nD τ sig) → Buf (Elt Ideal) ℓ) (ρ : Dev nD → PrngReg) (c : Dev nD)

/-! ## A buffer nothing has written yet holds its launch contents -/

/-- After stretch 0: a reference the stretch does not write. -/
theorem W1_keep (r : Ref sig .tc) (h0 : r ∉ Hand.hostOps0_W) :
    W1 m ρ c (Proc.devRef .tc r) = m ((c : Thread nD τ).loc r) :=
  (W1_of m ρ c r h0).trans rfl
/-- After region 0: one that, besides, is none of region 0's arrays. -/
theorem W2_keep (r : Ref sig .tc) (h0 : r ∉ Hand.hostOps0_W) (hn0 : ∀ w, Pipeline.arrRef spec0 w ≠ r) :
    W2 m ρ c (Proc.devRef .tc r) = m ((c : Thread nD τ).loc r) :=
  (W2_of_ne m ρ c r hn0).trans (W1_keep m ρ c r h0)
/-- After stretch 1: one that stretch 1 does not write either. -/
theorem W3_keep (r : Ref sig .tc) (h0 : r ∉ Hand.hostOps0_W) (hn0 : ∀ w, Pipeline.arrRef spec0 w ≠ r) (h1 : r ∉ Hand.hostOps1_W) :
    W3 m ρ c (Proc.devRef .tc r) = m ((c : Thread nD τ).loc r) :=
  (W3_of m ρ c r h1).trans (W2_keep m ρ c r h0 hn0)
/-- After region 1: one that is none of region 1's arrays either. -/
theorem W4_keep (r : Ref sig .tc) (h0 : r ∉ Hand.hostOps0_W) (hn0 : ∀ w, Pipeline.arrRef spec0 w ≠ r) (h1 : r ∉ Hand.hostOps1_W)
    (hn1 : ∀ w, Pipeline.arrRef spec1 w ≠ r) :
    W4 m ρ c (Proc.devRef .tc r) = m ((c : Thread nD τ).loc r) :=
  (W4_of_ne m ρ c r hn1).trans (W3_keep m ρ c r h0 hn0 h1)

/-! ## The boundaries, one by one -/

/-- Region 0's entry: the gathered rows, of the node table and the source indices at launch. -/
theorem W1_gathered : W1 m ρ c (Proc.devRef .tc main_v6) = (gathered (F := Ideal) (m ((c : Thread nD τ).loc main_arg0)) (m ((c : Thread nD τ).loc main_arg10))) :=
  stretch0_gathered (F := Ideal) (W0 m ρ c)

/-- Region 0's exit: the messages, of the gathered rows and the three edge arguments at launch. -/
theorem W2_msg : W2 m ρ c (Proc.devRef .tc main_v7) = (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3))) := by
  have e := msg_final (Hand.V1 m ρ) c
  have hg : Hand.V1 m ρ c main_v6 = (gathered (F := Ideal) (m ((c : Thread nD τ).loc main_arg0)) (m ((c : Thread nD τ).loc main_arg10))) := W1_gathered m ρ c
  have h1 : Hand.V1 m ρ c main_arg1 = (m ((c : Thread nD τ).loc main_arg1)) := W1_keep m ρ c main_arg1 (by decide)
  have h2 : Hand.V1 m ρ c main_arg2 = (m ((c : Thread nD τ).loc main_arg2)) := W1_keep m ρ c main_arg2 (by decide)
  have h3 : Hand.V1 m ρ c main_arg3 = (m ((c : Thread nD τ).loc main_arg3)) := W1_keep m ρ c main_arg3 (by decide)
  rw [hg, h1, h2, h3] at e
  exact (W2_arr m ρ c 4).trans e

/-- Region 1's entry: the messages summed per destination, the destination indices at launch. -/
theorem W3_agg : W3 m ρ c (Proc.devRef .tc main_v10) = (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) := by
  have e := stretch1_aggregated (F := Ideal) (W2 m ρ c)
  rw [W2_msg m ρ c, W2_keep m ρ c main_arg11 (by decide) (by decide)] at e
  exact e

/-- Region 1's exit, first output: the perceptron of the aggregate and the four weight arguments at launch. -/
theorem W4_h (hh : MlpValue) : W4 m ρ c (Proc.devRef .tc main_v11_0) = (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) := by
  have e := hh (Hand.V3 m ρ) c
  have ha : Hand.V3 m ρ c main_v10 = (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) := W3_agg m ρ c
  have h4 : Hand.V3 m ρ c main_arg4 = (m ((c : Thread nD τ).loc main_arg4)) := W3_keep m ρ c main_arg4 (by decide) (by decide) (by decide)
  have h5 : Hand.V3 m ρ c main_arg5 = (m ((c : Thread nD τ).loc main_arg5)) := W3_keep m ρ c main_arg5 (by decide) (by decide) (by decide)
  have h6 : Hand.V3 m ρ c main_arg6 = (m ((c : Thread nD τ).loc main_arg6)) := W3_keep m ρ c main_arg6 (by decide) (by decide) (by decide)
  have h7 : Hand.V3 m ρ c main_arg7 = (m ((c : Thread nD τ).loc main_arg7)) := W3_keep m ρ c main_arg7 (by decide) (by decide) (by decide)
  rw [ha, h4, h5, h6, h7] at e
  exact (W4_arr m ρ c 5).trans e

/-- Region 1's exit, second output: the column statistics of that perceptron output. -/
theorem W4_stats (hstats : StatsValue) : W4 m ρ c (Proc.devRef .tc main_v11_1) = statsOf (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) := by
  have e := hstats (Hand.V3 m ρ) c
  have ha : Hand.V3 m ρ c main_v10 = (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) := W3_agg m ρ c
  have h4 : Hand.V3 m ρ c main_arg4 = (m ((c : Thread nD τ).loc main_arg4)) := W3_keep m ρ c main_arg4 (by decide) (by decide) (by decide)
  have h5 : Hand.V3 m ρ c main_arg5 = (m ((c : Thread nD τ).loc main_arg5)) := W3_keep m ρ c main_arg5 (by decide) (by decide) (by decide)
  have h6 : Hand.V3 m ρ c main_arg6 = (m ((c : Thread nD τ).loc main_arg6)) := W3_keep m ρ c main_arg6 (by decide) (by decide) (by decide)
  have h7 : Hand.V3 m ρ c main_arg7 = (m ((c : Thread nD τ).loc main_arg7)) := W3_keep m ρ c main_arg7 (by decide) (by decide) (by decide)
  rw [ha, h4, h5, h6, h7] at e
  exact (W4_arr m ρ c 6).trans e

/-- Region 2's entry: the scale row, of those statistics and the weight argument at launch; -/
theorem W5_scale (hstats : StatsValue) :
    W5 m ρ c (Proc.devRef .tc main_v25) = scaleRow (F := Ideal) (statsOf (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7)))) (m ((c : Thread nD τ).loc main_arg8)) := by
  have e := stretch2_scale (F := Ideal) (W4 m ρ c)
  rw [W4_stats m ρ c hstats, W4_keep m ρ c main_arg8 (by decide) (by decide) (by decide) (by decide)] at e
  exact e

/-- the shift row, of those, and the bias argument at launch; -/
theorem W5_shift (hstats : StatsValue) :
    W5 m ρ c (Proc.devRef .tc main_v27) = shiftRow (F := Ideal) (statsOf (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7)))) (m ((c : Thread nD τ).loc main_arg8)) (m ((c : Thread nD τ).loc main_arg9)) := by
  have e := stretch2_shift (F := Ideal) (W4 m ρ c)
  rw [W4_stats m ρ c hstats, W4_keep m ρ c main_arg8 (by decide) (by decide) (by decide) (by decide),
    W4_keep m ρ c main_arg9 (by decide) (by decide) (by decide) (by decide)] at e
  exact e

/-- and the perceptron's output, which stretch 2 does not write. -/
theorem W5_h (hh : MlpValue) : W5 m ρ c (Proc.devRef .tc main_v11_0) = (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) :=
  (W5_of m ρ c main_v11_0 (by decide)).trans (W4_h m ρ c hh)

/-! ## The result -/

/-- The result buffer at the last boundary is the specification's normalised output of the perceptron's output, the
    weight and the bias: region 2 leaves `h · scale + shift` there, and the scale and shift rows computed from the
    column statistics are the specification's, column by column. -/
theorem result_value (hh : MlpValue) (hstats : StatsValue) :
    W6 (F := Ideal) m ρ c (Proc.devRef .tc main_v28) = Cert.Spec.outK (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) := by
  have e := out_final (Hand.V5 m ρ) c
  have h0 : Hand.V5 m ρ c main_v11_0 = (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) := W5_h m ρ c hh
  have h25 : Hand.V5 m ρ c main_v25 = scaleRow (F := Ideal) (statsOf (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7)))) (m ((c : Thread nD τ).loc main_arg8)) := W5_scale m ρ c hstats
  have h27 : Hand.V5 m ρ c main_v27 = shiftRow (F := Ideal) (statsOf (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7)))) (m ((c : Thread nD τ).loc main_arg8)) (m ((c : Thread nD τ).loc main_arg9)) := W5_shift m ρ c hstats
  rw [h0, h25, h27] at e
  refine (W6_arr m ρ c 3).trans (e.trans ?_)
  funext i
  exact congrArg₂ (fun a b : EReal => (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) i * a + b)
    (scaleRow_apply (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) (m ((c : Thread nD τ).loc main_arg8)) (ix1 (i 1))) (shiftRow_apply (Cert.Spec.mlp (aggregated (F := Ideal) (m ((c : Thread nD τ).loc main_arg11)) (Cert.Spec.msgK (gathered (F := Ideal) (m ((c : Thread nD τ).loc main_arg0)) (m ((c : Thread nD τ).loc main_arg10))) (m ((c : Thread nD τ).loc main_arg1)) (m ((c : Thread nD τ).loc main_arg2)) (m ((c : Thread nD τ).loc main_arg3)))) (m ((c : Thread nD τ).loc main_arg4)) (m ((c : Thread nD τ).loc main_arg5)) (m ((c : Thread nD τ).loc main_arg6)) (m ((c : Thread nD τ).loc main_arg7))) (m ((c : Thread nD τ).loc main_arg8)) (m ((c : Thread nD τ).loc main_arg9)) (ix1 (i 1)))

end Cert.KernelIdeal.HandValue

end
-- ==== Proof.KV1Pay.lean ====
import proofs.«169544_j1039382086070_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
  The perceptron kernel's payloads read at an index, on the extended reals.

  The stored block at row p, column q is the two-layer perceptron of row p of the input block:
  the row against the first weight plus the first bias, rectified, against the second weight,
  plus the second bias.  The first row of the accumulator gains the block's column sums of that
  value, the second row the block's column sums of its squares, and the reset value is the zero
  array.
-/

open scoped BigOperators

noncomputable section

namespace Cert.KernelIdeal.HandValue

open Cert.KernelIdeal Cert.KernelIdeal.Gen Idealize.ShloMosaic Idealize.ShloMosaic.ValueIdx Idealize.SL.Sem

/-! ## The first product: rows of the block against the first weight -/

theorem lhs_dotA_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_dotA_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_dotA_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_dotA_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The first product into a zero accumulator, at row p and hidden column k: the sum over the
    width of the row's entries times the weight's column. -/
theorem matmul_dotA_apply (a : FVec Ideal S5000x128 .bf16) (b : FVec Ideal S128x256 .bf16) (p : Fin 5000) (k : Fin 256) :
    matmul dot_S5000x128_S128x256_S5000x256_1_0_0_1_n_n none a b (constant (F := Ideal) S5000x256 .f32 0x00000000#32) (ix2 p k)
      = ∑ l : Fin 128, a (ix2 p l) * b (ix2 l k) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun l _ => ?_
  have hk := ValueIdx.contrEquiv1_symm_val dot_S5000x128_S128x256_S5000x256_1_0_0_1_n_n 128 rfl rfl l
  have el : dot_S5000x128_S128x256_S5000x256_1_0_0_1_n_n.lhsIdx (ix2 p k) ((ValueIdx.contrEquiv1 dot_S5000x128_S128x256_S5000x256_1_0_0_1_n_n 128 rfl rfl).symm l) = ix2 p l := funext fun a => Fin.ext (by
    match a with
    | ⟨0, _⟩ => exact lhs_dotA_0 _ _
    | ⟨1, _⟩ => exact (lhs_dotA_1 _ _).trans hk)
  have er : dot_S5000x128_S128x256_S5000x256_1_0_0_1_n_n.rhsIdx (ix2 p k) ((ValueIdx.contrEquiv1 dot_S5000x128_S128x256_S5000x256_1_0_0_1_n_n 128 rfl rfl).symm l) = ix2 l k := funext fun a => Fin.ext (by
    match a with
    | ⟨0, _⟩ => exact (rhs_dotA_0 _ _).trans hk
    | ⟨1, _⟩ => exact rhs_dotA_1 _ _)
  rw [el, er]

/-! ## The second product: hidden rows against the second weight -/

theorem lhs_dotB_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_dotB_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_dotB_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_dotB_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The second product into a zero accumulator, at row p and column q: the sum over the hidden
    width of the hidden row's entries times the weight's column. -/
theorem matmul_dotB_apply (a : FVec Ideal S5000x256 .bf16) (b : FVec Ideal S256x128 .bf16) (p : Fin 5000) (q : Fin 128) :
    matmul dot_S5000x256_S256x128_S5000x128_1_0_0_1_n_n none a b (constant (F := Ideal) S5000x128 .f32 0x00000000#32) (ix2 p q)
      = ∑ l : Fin 256, a (ix2 p l) * b (ix2 l q) := by
  simp only [matmul]
  rw [Ideal.matmul_constant_zero_apply, ← Equiv.sum_comp (ValueIdx.contrEquiv1 dot_S5000x256_S256x128_S5000x128_1_0_0_1_n_n 256 rfl rfl).symm]
  refine Finset.sum_congr rfl fun l _ => ?_
  have hk := ValueIdx.contrEquiv1_symm_val dot_S5000x256_S256x128_S5000x128_1_0_0_1_n_n 256 rfl rfl l
  have el : dot_S5000x256_S256x128_S5000x128_1_0_0_1_n_n.lhsIdx (ix2 p q) ((ValueIdx.contrEquiv1 dot_S5000x256_S256x128_S5000x128_1_0_0_1_n_n 256 rfl rfl).symm l) = ix2 p l := funext fun a => Fin.ext (by
    match a with
    | ⟨0, _⟩ => exact lhs_dotB_0 _ _
    | ⟨1, _⟩ => exact (lhs_dotB_1 _ _).trans hk)
  have er : dot_S5000x256_S256x128_S5000x128_1_0_0_1_n_n.rhsIdx (ix2 p q) ((ValueIdx.contrEquiv1 dot_S5000x256_S256x128_S5000x128_1_0_0_1_n_n 256 rfl rfl).symm l) = ix2 l q := funext fun a => Fin.ext (by
    match a with
    | ⟨0, _⟩ => exact (rhs_dotB_0 _ _).trans hk
    | ⟨1, _⟩ => exact rhs_dotB_1 _ _)
  rw [el, er]

/-! ## The stored block -/

/-- The zero word of the rectifier and of the accumulators is the extended real zero. -/
theorem scalar_zero_f32 : (Scalar.ofBits .f32 0x00000000#32 : Ideal .f32) = 0 := Ideal.ofBits_zero_f32

/-- The stored block at row p and column q: the perceptron of row p of the input block. -/
theorem k1_pay3_apply (x0 : Vec Ideal S5000x128 .f32) (x1 : Vec Ideal S128x256 .f32) (x2 : Vec Ideal S256 .f32)
    (x3 : Vec Ideal S256x128 .f32) (x4 : Vec Ideal S128 .f32) (p : Fin 5000) (q : Fin 128) :
    k1_pay3 (F := Ideal) x0 x1 x2 x3 x4 (ix2 p q)
      = (∑ k : Fin 256, max ((∑ l : Fin 128, x0 (ix2 p l) * x1 (ix2 l k)) + x2 (ix1 k)) 0 * x3 (ix2 k q)) + x4 (ix1 q) := by
  unfold k1_pay3
  rw [addf_apply, matmul_dotB_apply, broadcastTo_1b_ab_apply, shapeCast_a_1a_apply]
  congr 1
  refine Finset.sum_congr rfl fun k _ => ?_
  rw [truncf_apply, truncf_apply, maximumf_apply, addf_apply, matmul_dotA_apply, broadcastTo_1b_ab_apply,
    shapeCast_a_1a_apply, broadcast_apply, scalar_zero_f32]
  congr 2
  refine congrArg (· + _) (Finset.sum_congr rfl fun l _ => ?_)
  rw [truncf_apply, truncf_apply, shapeCast_self]

/-! ## The accumulator's rows -/

/-- A lane sum over the block's rows: at column q, the sum over the rows of the entries of that column. -/
theorem colreduce_apply (src : FVec Ideal S5000x128 .f32) (q : Fin 128) :
    multiReduction (F := Ideal) .add [0] S128 src 0x00000000#32 reduces_S5000x128_S128 (.inl rfl) rfl (ix1 q)
      = ∑ p : Fin 5000, src (ix2 p q) := by
  refine (Ideal.multiReduction_add_single src 0x00000000#32 reduces_S5000x128_S128 (.inl rfl) rfl (ix1 q)).trans ?_
  refine Finset.sum_congr rfl fun p _ => congrArg src ?_
  funext a
  match a with
  | ⟨0, _⟩ => rfl
  | ⟨1, _⟩ => rfl

/-- The row of column sums of squares of the stored block. -/
theorem k1_pay4_apply (x0 : Vec Ideal S5000x128 .f32) (x1 : Vec Ideal S128x256 .f32) (x2 : Vec Ideal S256 .f32)
    (x3 : Vec Ideal S256x128 .f32) (x4 : Vec Ideal S128 .f32) (u : Fin 1) (q : Fin 128) :
    k1_pay4 (F := Ideal) x0 x1 x2 x3 x4 (ix2 u q)
      = ∑ p : Fin 5000, k1_pay3 (F := Ideal) x0 x1 x2 x3 x4 (ix2 p q) * k1_pay3 (F := Ideal) x0 x1 x2 x3 x4 (ix2 p q) := by
  unfold k1_pay4
  rw [shapeCast_a_1a_apply, colreduce_apply]
  exact Finset.sum_congr rfl fun p _ => mulf_apply _ _ _

/-- The first row's new value: the old row plus the block's column sums. -/
theorem k1_pay5_apply (x0 : Vec Ideal S5000x128 .f32) (x1 : Vec Ideal S128x256 .f32) (x2 : Vec Ideal S256 .f32)
    (x3 : Vec Ideal S256x128 .f32) (x4 : Vec Ideal S128 .f32) (y : Vec Ideal S1x128 .f32) (u : Fin 1) (q : Fin 128) :
    k1_pay5 (F := Ideal) x0 x1 x2 x3 x4 y (ix2 u q)
      = y (ix2 u q) + ∑ p : Fin 5000, k1_pay3 (F := Ideal) x0 x1 x2 x3 x4 (ix2 p q) := by
  unfold k1_pay5
  rw [shapeCast_self, addf_apply, shapeCast_a_1a_apply, colreduce_apply]

/-- The second row's new value: the old row plus the row it is given. -/
theorem k1_pay1_apply (v : FVec Ideal S1x128 .f32) (y : Vec Ideal S1x128 .f32) (i : S1x128.Idx) :
    k1_pay1 (F := Ideal) v y i = y i + v i := by
  unfold k1_pay1
  rw [shapeCast_self, addf_apply]

/-- So the second row's new value is the old row plus the block's column sums of squares. -/
theorem k1_pay1_pay4_apply (x0 : Vec Ideal S5000x128 .f32) (x1 : Vec Ideal S128x256 .f32) (x2 : Vec Ideal S256 .f32)
    (x3 : Vec Ideal S256x128 .f32) (x4 : Vec Ideal S128 .f32) (y : Vec Ideal S1x128 .f32) (u : Fin 1) (q : Fin 128) :
    k1_pay1 (F := Ideal) (k1_pay4 (F := Ideal) x0 x1 x2 x3 x4) y (ix2 u q)
      = y (ix2 u q) + ∑ p : Fin 5000, k1_pay3 (F := Ideal) x0 x1 x2 x3 x4 (ix2 p q) * k1_pay3 (F := Ideal) x0 x1 x2 x3 x4 (ix2 p q) := by
  rw [k1_pay1_apply, k1_pay4_apply]

/-- The reset value is the zero array. -/
theorem k1_pay2_apply (i : S2x128.Idx) : (k1_pay2 (F := Ideal)) i = 0 := by
  unfold k1_pay2
  rw [shapeCast_self, broadcast_apply]
  exact Ideal.ofBits_zero_f32

end Cert.KernelIdeal.HandValue

end
-- ==== Proof.KV1Blk.lean ====
import proofs.«169544_j1039382086070_1_alg».proof.Proof.KI.R1Runs
import Idealize.ShloMosaic.Lib.Pipeline.Value
import Idealize.ShloMosaic.Lib.ValueIdx

/-!
  The perceptron region's blocks, read off the arrays.

  Point t of the ten reads rows 5000·t … 5000·t + 4999 of the aggregate and writes the same rows of
  the perceptron's output; the four weights are read whole at every point; the statistics window is
  the whole two-row array.  Every row of the output lies in the block of the point row / 5000, and
  the last point's statistics block is the whole array.
-/

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_off2 : (![0, 0] : Fin 2 → Nat) = fun _ => 0 := funext fun a => by fin_cases a <;> rfl
theorem zero_off1 : (![0] : Fin 1 → Nat) = fun _ => 0 := funext fun a => by fin_cases a <;> rfl

/-- The block indices over the ten points: the aggregate's and the output's row block is the point,
    every other index is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = 0 ∧ win1_6.index t (1 : Fin 2) = 0 :=
  (by decide +kernel : ∀ t : Fin grid1.N, _)

/-- Row 5000·t + p of the 50000, for a point t of the ten and a place p in its block. -/
abbrev rowOf (t : Fin cfg1.N) (p : Fin 5000) : Fin 50000 :=
  ⟨5000 * t.val + p.val, by have h : t.val < 10 := N_1 ▸ t.isLt; have := p.isLt; omega⟩

/-! ## The input blocks -/

/-- Row p of the aggregate's block at point t is row 5000·t + p of the aggregate. -/
theorem iblk1_0_apply (c : Dev nD) (t : Fin cfg1.N) (p : Fin 5000) (l : Fin 128) :
    (iblk1 V c 0 t : Vec Ideal S5000x128 .f32) (ix2 p l) = (V c main_v10 : Vec Ideal S50000x128 .f32) (ix2 (rowOf t p) l) := by
  obtain ⟨e0, e1, -⟩ := index_facts t
  unfold iblk1
  show V c main_v10 (((cfg1.win 0).blk t).view.emb (ix2 p l)) = _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * l.val = l.val; rw [e1]; omega

/-- The first weight's block is the first weight. -/
theorem iblk1_1_eq (c : Dev nD) (t : Fin cfg1.N) :
    (iblk1 V c 1 t : Vec Ideal S128x256 .f32) = V c main_arg4 := by
  obtain ⟨-, -, e0, e1, -⟩ := index_facts t
  unfold iblk1
  funext j
  show V c main_arg4 (((cfg1.win 1).blk t).view.emb j) = V c main_arg4 j
  congr 1
  funext a
  apply Fin.ext
  match a with
  | ⟨0, _⟩ => show win1_1.index t (0 : Fin 2) * 128 + 1 * (j 0).val = (j 0).val; rw [e0]; omega
  | ⟨1, _⟩ => show win1_1.index t (1 : Fin 2) * 256 + 1 * (j 1).val = (j 1).val; rw [e1]; omega

/-- The first bias's block is the first bias. -/
theorem iblk1_2_eq (c : Dev nD) (t : Fin cfg1.N) :
    (iblk1 V c 2 t : Vec Ideal S256 .f32) = V c main_arg5 := by
  obtain ⟨-, -, -, -, e0, -⟩ := index_facts t
  unfold iblk1
  funext j
  show V c main_arg5 (((cfg1.win 2).blk t).view.emb j) = V c main_arg5 j
  congr 1
  funext a
  apply Fin.ext
  match a with
  | ⟨0, _⟩ => show win1_2.index t (0 : Fin 1) * 256 + 1 * (j 0).val = (j 0).val; rw [e0]; omega

/-- The second weight's block is the second weight. -/
theorem iblk1_3_eq (c : Dev nD) (t : Fin cfg1.N) :
    (iblk1 V c 3 t : Vec Ideal S256x128 .f32) = V c main_arg6 := by
  obtain ⟨-, -, -, -, -, e0, e1, -⟩ := index_facts t
  unfold iblk1
  funext j
  show V c main_arg6 (((cfg1.win 3).blk t).view.emb j) = V c main_arg6 j
  congr 1
  funext a
  apply Fin.ext
  match a with
  | ⟨0, _⟩ => show win1_3.index t (0 : Fin 2) * 256 + 1 * (j 0).val = (j 0).val; rw [e0]; omega
  | ⟨1, _⟩ => show win1_3.index t (1 : Fin 2) * 128 + 1 * (j 1).val = (j 1).val; rw [e1]; omega

/-- The second bias's block is the second bias. -/
theorem iblk1_4_eq (c : Dev nD) (t : Fin cfg1.N) :
    (iblk1 V c 4 t : Vec Ideal S128 .f32) = V c main_arg7 := by
  obtain ⟨-, -, -, -, -, -, -, e0, -⟩ := index_facts t
  unfold iblk1
  funext j
  show V c main_arg7 (((cfg1.win 4).blk t).view.emb j) = V c main_arg7 j
  congr 1
  funext a
  apply Fin.ext
  match a with
  | ⟨0, _⟩ => show win1_4.index t (0 : Fin 1) * 128 + 1 * (j 0).val = (j 0).val; rw [e0]; omega

/-! ## The output blocks -/

/-- Place (p, q) of the output's block at point t is entry (5000·t + p, q) of the array. -/
theorem read_blk1_5 (G : Vec Ideal S50000x128 .f32) (t : Fin cfg1.N) (p : Fin 5000) (q : Fin 128) :
    (((cfg1.win 5).blk t).view.read (Elt Ideal) G : Vec Ideal S5000x128 .f32) (ix2 p q) = G (ix2 (rowOf t p) q) := by
  obtain ⟨-, -, -, -, -, -, -, -, e0, e1, -⟩ := index_facts t
  show G (((cfg1.win 5).blk t).view.emb (ix2 p q)) = _
  congr 1
  funext a
  apply Fin.ext
  match a with
  | ⟨0, _⟩ => show win1_5.index t (0 : Fin 2) * 5000 + 1 * p.val = 5000 * t.val + p.val; rw [e0]; omega
  | ⟨1, _⟩ => show win1_5.index t (1 : Fin 2) * 128 + 1 * q.val = q.val; rw [e1]; omega

/-- The statistics block is the whole statistics array. -/
theorem read_blk1_6 (G : Vec Ideal S2x128 .f32) (t : Fin cfg1.N) :
    (((cfg1.win 6).blk t).view.read (Elt Ideal) G : Vec Ideal S2x128 .f32) = G := by
  obtain ⟨-, -, -, -, -, -, -, -, -, -, e0, e1⟩ := index_facts t
  funext j
  show G (((cfg1.win 6).blk t).view.emb j) = G j
  congr 1
  funext a
  apply Fin.ext
  match a with
  | ⟨0, _⟩ => show win1_6.index t (0 : Fin 2) * 2 + 1 * (j 0).val = (j 0).val; rw [e0]; omega
  | ⟨1, _⟩ => show win1_6.index t (1 : Fin 2) * 128 + 1 * (j 1).val = (j 1).val; rw [e1]; omega

/-- An entry of the output array is in point t's block iff each coordinate is in the block's range. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v11_0).slice (win1_5.rect t)).set ↔ _
  rw [View.set_slice_whole, Rect.mem_set_unit]
  exact Iff.rfl

/-- Row r of the output is written back by the point r / 5000. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : grid1.N = 10 := N_1
  have ht : (i 0).val / 5000 < cfg1.N := by show _ < grid1.N; omega
  obtain ⟨-, -, -, -, -, -, -, -, e0, e1, -⟩ := index_facts ⟨(i 0).val / 5000, ht⟩
  refine ⟨⟨(i 0).val / 5000, ht⟩, flush1_5 _, ?_⟩
  rw [mem_blk1_5]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]
    omega

/-- An entry of the statistics array is in point t's block iff each coordinate is in the block's range. -/
theorem mem_blk1_6 (t : Fin cfg1.N) (i : S2x128.Idx) :
    i ∈ ((cfg1.win 6).blk t).view.set ↔ ∀ a : Fin 2, win1_6.index t a * S2x128.size a ≤ (i a).val ∧ (i a).val < win1_6.index t a * S2x128.size a + S2x128.size a := by
  show i ∈ ((View.whole main_v11_1).slice (win1_6.rect t)).set ↔ _
  rw [View.set_slice_whole, Rect.mem_set_unit]
  exact Iff.rfl

/-- The last of the ten points. -/
abbrev lastPt : Fin cfg1.N := ⟨9, by show 9 < grid1.N; rw [N_1]; decide⟩

/-- Every entry of the statistics array is written back by the last point. -/
theorem cover1_6 (i : S2x128.Idx) :
    ∃ t : Fin cfg1.N, (cfg1.win 6).flush t = true ∧ i ∈ ((cfg1.win 6).blk t).view.set := by
  have hi0 : (i 0).val < 2 := (i 0).isLt
  have hi1 : (i 1).val < 128 := (i 1).isLt
  obtain ⟨-, -, -, -, -, -, -, -, -, -, e0, e1⟩ := index_facts lastPt
  refine ⟨lastPt, (flush1_6 lastPt).mpr rfl, ?_⟩
  rw [mem_blk1_6]
  intro a
  match a with
  | ⟨0, _⟩ =>
    show win1_6.index lastPt (0 : Fin 2) * 2 ≤ (i 0).val ∧ (i 0).val < win1_6.index lastPt (0 : Fin 2) * 2 + 2
    rw [e0]
    omega
  | ⟨1, _⟩ =>
    show win1_6.index lastPt (1 : Fin 2) * 128 ≤ (i 1).val ∧ (i 1).val < win1_6.index lastPt (1 : Fin 2) * 128 + 128
    rw [e1]
    omega

/-- The only point that writes the statistics back is the last. -/
theorem eq_lastPt_of_flush (t : Fin cfg1.N) (hf : (cfg1.win 6).flush t = true) : t = lastPt := by
  have h9 := (flush1_6 t).mp hf
  have hN : grid1.N = 10 := N_1
  have hlt : t.val < grid1.N := t.isLt
  exact Fin.ext (by show t.val = 9; omega)

end Cert.KernelIdeal.HandValue

end
-- ==== Proof.KV1H.lean ====
import proofs.«169544_j1039382086070_1_alg».proof.Proof.KV1Pay
import proofs.«169544_j1039382086070_1_alg».proof.Proof.KV1Blk
import proofs.«169544_j1039382086070_1_alg».proof.Proof.Spec

/-!
  The perceptron region's stored block, read against the whole arrays.

  With h the two-layer perceptron of the whole aggregate (every row against the first weight plus
  the first bias, rectified, against the second weight, plus the second bias), the block the body
  stores at point t is rows 5000·t … 5000·t + 4999 of h: the input block's row p is the
  aggregate's row 5000·t + p and the weights' blocks are the weights.
-/

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## The stored block is the perceptron of the aggregate's rows -/

/-- The perceptron of the whole aggregate, as the region finds the arrays. -/
def hOf (c : Dev nD) : Vec Ideal S50000x128 .f32 :=
  Cert.Spec.mlp (V c main_v10) (V c main_arg4) (V c main_arg5) (V c main_arg6) (V c main_arg7)

/-- The stored block's entry (p, q) at point t is the perceptron's entry (5000·t + p, q). -/
theorem pay3_blocks_apply (c : Dev nD) (t : Fin cfg1.N) (p : Fin 5000) (q : Fin 128) :
    k1_pay3 (F := Ideal) (iblk1 V c 0 t) (iblk1 V c 1 t) (iblk1 V c 2 t) (iblk1 V c 3 t) (iblk1 V c 4 t) (ix2 p q)
      = hOf V c (ix2 (rowOf t p) q) := by
  rw [k1_pay3_apply, iblk1_1_eq, iblk1_2_eq, iblk1_3_eq, iblk1_4_eq]
  simp only [iblk1_0_apply V c t]
  rfl

/-! ## Column sums over a block of rows -/

/-- A sum over the places of a block of rows, with each row's bound carried. -/
theorem blockSum_eq (f : Fin 50000 → EReal) (t : Fin cfg1.N) :
    ∑ p : Fin 5000, f (rowOf t p)
      = ∑ p : Fin 5000, if h : 5000 * t.val + p.val < 50000 then f ⟨5000 * t.val + p.val, h⟩ else 0 :=
  Finset.sum_congr rfl fun p _ => by
    rw [dif_pos (show 5000 * t.val + p.val < 50000 from (rowOf t p).isLt)]

/-- Column q's sum of the perceptron over block t of the rows, and of its squares. -/
abbrev sums (c : Dev nD) (q : Fin 128) : ℕ → EReal := fun t =>
  ∑ p : Fin 5000, if h : 5000 * t + p.val < 50000 then hOf V c (ix2 (⟨5000 * t + p.val, h⟩ : Fin 50000) q) else 0
abbrev sumSqs (c : Dev nD) (q : Fin 128) : ℕ → EReal := fun t =>
  ∑ p : Fin 5000, if h : 5000 * t + p.val < 50000 then
    hOf V c (ix2 (⟨5000 * t + p.val, h⟩ : Fin 50000) q) * hOf V c (ix2 (⟨5000 * t + p.val, h⟩ : Fin 50000) q) else 0

end Cert.KernelIdeal.HandValue

end
-- ==== Proof.SumBlocks.lean ====
import Mathlib.Data.EReal.Basic
import Mathlib.Data.EReal.Operations
import Mathlib.Data.Fintype.BigOperators
import Mathlib.Logic.Equiv.Fin.Basic
import Mathlib.Algebra.BigOperators.Group.Finset.Basic

/-!
  A sum over 50000 rows as ten blocks of 5000, and a running total as a finite sum.

  Addition of extended reals is commutative and associative with neutral element `0`, so finite
  sums may be regrouped and reindexed freely; nothing here asks the summands to be finite.
-/

open scoped BigOperators

namespace Cert.SumBlocks

/-- The rows `0 … 49999` are the pairs (block `t < 10`, place `p < 5000`) through `r = 5000 t + p`; a sum over the
    rows is the sum over the blocks of the sums over the places. -/
theorem sum_rows_blocks (f : Fin 50000 → EReal) :
    ∑ r : Fin 50000, f r = ∑ t : Fin 10, ∑ p : Fin 5000, f ⟨5000 * t.val + p.val, by omega⟩ := by
  rw [← Fintype.sum_prod_type' (fun (t : Fin 10) (p : Fin 5000) => f ⟨5000 * t.val + p.val, by omega⟩)]
  symm
  refine Fintype.sum_equiv (finProdFinEquiv.trans (finCongr (by norm_num : 10 * 5000 = 50000))) _ _
    fun x => congrArg f (Fin.ext ?_)
  simp [finProdFinEquiv]
  omega

/-- A running total: it starts from zero, takes `s 0` at step `0` and `s (n+1)` at step `n+1`. -/
noncomputable def accum (s : ℕ → EReal) : ℕ → EReal
  | 0 => 0 + s 0
  | (n+1) => accum s n + s (n+1)

/-- After step `n` the running total is the sum of `s 0, …, s n`. -/
theorem accum_eq_sum (s : ℕ → EReal) (n : ℕ) : accum s n = ∑ t ∈ Finset.range (n+1), s t := by
  induction n with
  | zero => rw [accum, Finset.sum_range_one, zero_add]
  | succ n ih => rw [accum, ih, Finset.sum_range_succ s (n+1)]

/-- After step `9`: the sum of the ten terms. -/
theorem accum_nine (s : ℕ → EReal) : accum s 9 = ∑ t : Fin 10, s t.val := by
  rw [accum_eq_sum, Fin.sum_univ_eq_sum_range]

/-- The running total of the ten block sums is the sum over all rows. -/
theorem accum_nine_rows (f : Fin 50000 → EReal) :
    accum (fun t => ∑ p : Fin 5000, if h : 5000 * t + p.val < 50000 then f ⟨5000 * t + p.val, h⟩ else 0) 9
      = ∑ r : Fin 50000, f r := by
  rw [accum_nine, sum_rows_blocks]
  refine Finset.sum_congr rfl fun t _ => Finset.sum_congr rfl fun p _ => ?_
  exact dif_pos (by omega)

end Cert.SumBlocks
-- ==== Proof.KV1.lean ====
import proofs.«169544_j1039382086070_1_alg».proof.Proof.KI.R1
import proofs.«169544_j1039382086070_1_alg».proof.Proof.KV1H
import proofs.«169544_j1039382086070_1_alg».proof.Proof.SumBlocks

/-!
  The values the perceptron region leaves in its two output arrays.

  With h the two-layer perceptron of the whole aggregate: the first output array, written back block
  by block at the ten points, ends holding h; the accumulator's first row gains at every point the
  stored block's column sums and its second row the column sums of squares, both starting from zero
  at the first point, so after the last point they are the column sums of h and of h·h over all the
  rows, and the second output array, written back once, at the last point, whole, holds them.
-/

open scoped BigOperators

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The accumulator's rows after one step -/

theorem rS1_0_emb (u : Fin 1) (q : Fin 128) : rS1_0.emb (ix2 u q) = ix2 (0 : Fin 2) q := by
  funext a
  apply Fin.ext
  match a with
  | ⟨0, _⟩ => show 0 + 1 * u.val = 0; omega
  | ⟨1, _⟩ => show 0 + 1 * q.val = q.val; omega

theorem rS1_1_emb (u : Fin 1) (q : Fin 128) : rS1_1.emb (ix2 u q) = ix2 (1 : Fin 2) q := by
  funext a
  apply Fin.ext
  match a with
  | ⟨0, _⟩ => show 1 + 1 * u.val = 1; omega
  | ⟨1, _⟩ => show 0 + 1 * q.val = q.val; omega

/-- The first row is not under the second row's store. -/
theorem row0_not_mem_rS1_1 (q : Fin 128) : ix2 (0 : Fin 2) q ∉ rS1_1.set := by
  rw [Rect.mem_set_unit]
  intro h
  have h0 : 1 ≤ 0 := (h 0).1
  omega

/-- Two row stores, the second row's last: the first row reads the first row's store. -/
theorem canon_rows_row0 (w1 w0 : Vec Ideal S1x128 .f32) (q : Fin 128) :
    View.canon [(⟨rS1_1, w1⟩ : View.Piece (Elt Ideal) S2x128 .f32), ⟨rS1_0, w0⟩] (ix2 (0 : Fin 2) q) = w0 (ix2 (0 : Fin 1) q) := by
  have h := View.canon_cons_of_not_mem (⟨rS1_1, w1⟩ : View.Piece (Elt Ideal) S2x128 .f32) [⟨rS1_0, w0⟩] (row0_not_mem_rS1_1 q)
  refine h.trans ?_
  have e := View.canon_cons_emb (Val := Elt Ideal) rS1_0 w0 [] (ix2 (0 : Fin 1) q)
  rw [rS1_0_emb] at e
  exact e

/-- The second row reads the second row's store. -/
theorem canon_rows_row1 (w1 w0 : Vec Ideal S1x128 .f32) (q : Fin 128) :
    View.canon [(⟨rS1_1, w1⟩ : View.Piece (Elt Ideal) S2x128 .f32), ⟨rS1_0, w0⟩] (ix2 (1 : Fin 2) q) = w1 (ix2 (0 : Fin 1) q) := by
  have e := View.canon_cons_emb (Val := Elt Ideal) rS1_1 w1 [⟨rS1_0, w0⟩] (ix2 (0 : Fin 1) q)
  rw [rS1_1_emb] at e
  exact e

/-- A load of the first row reads the first row, of the second row the second. -/
theorem ld_row0 (xs : Vec Ideal S2x128 .f32) (u : Fin 1) (q : Fin 128) :
    (View.ld xs rS1_0 : Vec Ideal S1x128 .f32) (ix2 u q) = xs (ix2 (0 : Fin 2) q) :=
  congrArg xs (rS1_0_emb u q)
theorem ld_row1 (xs : Vec Ideal S2x128 .f32) (u : Fin 1) (q : Fin 128) :
    (View.ld xs rS1_1 : Vec Ideal S1x128 .f32) (ix2 u q) = xs (ix2 (1 : Fin 2) q) :=
  congrArg xs (rS1_1_emb u q)

/-- After a step the first row is the old first row plus the stored block's column sums. -/
theorem step1_row0 (x0 : Vec Ideal S5000x128 .f32) (x1 : Vec Ideal S128x256 .f32) (x2 : Vec Ideal S256 .f32)
    (x3 : Vec Ideal S256x128 .f32) (x4 : Vec Ideal S128 .f32) (xs : Vec Ideal S2x128 .f32) (q : Fin 128) :
    step1 x0 x1 x2 x3 x4 xs (ix2 (0 : Fin 2) q)
      = xs (ix2 (0 : Fin 2) q) + ∑ p : Fin 5000, k1_pay3 (F := Ideal) x0 x1 x2 x3 x4 (ix2 p q) := by
  unfold step1
  rw [canon_rows_row0, k1_pay5_apply, ld_row0]

/-- After a step the second row is the old second row plus the stored block's column sums of squares. -/
theorem step1_row1 (x0 : Vec Ideal S5000x128 .f32) (x1 : Vec Ideal S128x256 .f32) (x2 : Vec Ideal S256 .f32)
    (x3 : Vec Ideal S256x128 .f32) (x4 : Vec Ideal S128 .f32) (xs : Vec Ideal S2x128 .f32) (q : Fin 128) :
    step1 x0 x1 x2 x3 x4 xs (ix2 (1 : Fin 2) q)
      = xs (ix2 (1 : Fin 2) q) + ∑ p : Fin 5000, k1_pay3 (F := Ideal) x0 x1 x2 x3 x4 (ix2 p q) * k1_pay3 (F := Ideal) x0 x1 x2 x3 x4 (ix2 p q) := by
  unfold step1
  rw [canon_rows_row1, k1_pay1_pay4_apply, ld_row1]

/-! ## The output array -/

/-- What point t writes back is its block of the perceptron of the whole aggregate. -/
theorem flushed1_5_eq (c : Dev nD) (t : Fin cfg1.N) :
    (dat1 (F := Ideal) V c).flushed 5 t = ((cfg1.win 5).blk t).view.read (Elt Ideal) (hOf V c) := by
  show (cfg1.win 5).cut (grid1.coords t) ((dat1 V c).after 5 t) = _
  rw [after1_5]
  unfold out1_5
  rw [View.canon_unit_zero hz2]
  funext j
  obtain ⟨p, q, rfl⟩ : ∃ (p : Fin 5000) (q : Fin 128), j = ix2 p q := ⟨j 0, j 1, eq_ix2 j⟩
  rw [read_blk1_5]
  exact pay3_blocks_apply V c t p q

/-- After the ten write-backs the output array is the perceptron of the whole aggregate. -/
theorem h_final (c : Dev nD) : (dat1 (F := Ideal) V c).arrAt 5 cfg1.N = hOf V c :=
  (dat1 V c).arrAt_eq_of_cover 5 (hOf V c) (fun t _ => flushed1_5_eq V c t) cover1_5

/-! ## The statistics array -/

/-- The accumulator after point n: its first row is the running total of the blocks' column sums, its
    second row the running total of the blocks' column sums of squares. -/
theorem acc1_rows (c : Dev nD) (q : Fin 128) : ∀ (n : ℕ) (hn : n < cfg1.N),
    acc1 V c n hn (ix2 (0 : Fin 2) q) = Cert.SumBlocks.accum (sums V c q) n
    ∧ acc1 V c n hn (ix2 (1 : Fin 2) q) = Cert.SumBlocks.accum (sumSqs V c q) n
  | 0, hn => by
    rw [acc1_zero, step1_row0, step1_row1, k1_pay2_apply, k1_pay2_apply]
    simp only [pay3_blocks_apply V c]
    exact ⟨congrArg (0 + ·) (blockSum_eq (fun r => hOf V c (ix2 r q)) ⟨0, hn⟩),
      congrArg (0 + ·) (blockSum_eq (fun r => hOf V c (ix2 r q) * hOf V c (ix2 r q)) ⟨0, hn⟩)⟩
  | n + 1, hn => by
    obtain ⟨ih0, ih1⟩ := acc1_rows c q n (Nat.lt_of_succ_lt hn)
    rw [acc1_succ, step1_row0, step1_row1, ih0, ih1]
    simp only [pay3_blocks_apply V c]
    exact ⟨congrArg (Cert.SumBlocks.accum (sums V c q) n + ·) (blockSum_eq (fun r => hOf V c (ix2 r q)) ⟨n + 1, hn⟩),
      congrArg (Cert.SumBlocks.accum (sumSqs V c q) n + ·) (blockSum_eq (fun r => hOf V c (ix2 r q) * hOf V c (ix2 r q)) ⟨n + 1, hn⟩)⟩

/-- After the one write-back, at the last point, the statistics array holds in its first row the
    perceptron's column sums over all the rows and in its second row the column sums of squares. -/
theorem stats_final (c : Dev nD) :
    (dat1 (F := Ideal) V c).arrAt 6 cfg1.N
      = (fun i : S2x128.Idx => if (i 0).val = 0 then Cert.Spec.colSum (hOf V c) (i 1) else Cert.Spec.colSumSq (hOf V c) (i 1)) := by
  refine (dat1 V c).arrAt_eq_of_cover 6 _ (fun t hf => ?_) cover1_6
  obtain rfl := eq_lastPt_of_flush t hf
  rw [read_blk1_6]
  show (cfg1.win 6).cut (grid1.coords lastPt) ((dat1 V c).after 6 lastPt) = _
  rw [after1_6]
  funext j
  obtain ⟨u, q, rfl⟩ : ∃ (u : Fin 2) (q : Fin 128), j = ix2 u q := ⟨j 0, j 1, eq_ix2 j⟩
  obtain ⟨h0, h1⟩ := acc1_rows V c q 9 lastPt.isLt
  show acc1 V c 9 _ (ix2 u q) = if u.val = 0 then Cert.Spec.colSum (hOf V c) q else Cert.Spec.colSumSq (hOf V c) q
  by_cases hu : u.val = 0
  · obtain rfl : u = 0 := Fin.ext hu
    rw [if_pos hu]
    exact h0.trans (Cert.SumBlocks.accum_nine_rows fun r => hOf V c (ix2 r q))
  · obtain rfl : u = 1 := Fin.ext (by have := u.isLt; show u.val = 1; omega)
    rw [if_neg hu]
    exact h1.trans (Cert.SumBlocks.accum_nine_rows fun r => hOf V c (ix2 r q) * hOf V c (ix2 r q))

end Cert.KernelIdeal.HandValue

end
-- ==== Proof.RefVal.lean ====
import proofs.«169544_j1039382086070_1_alg».proof.Proof.Gen.ReferenceIdeal.Run
import proofs.«169544_j1039382086070_1_alg».proof.Proof.Gen.ReferenceIdeal.Read
import proofs.«169544_j1039382086070_1_alg».proof.Proof.Spec
import Idealize.ShloMosaic.PureOps.Ideal
import Idealize.ShloMosaic.PureOps.Ideal.Laws
import Idealize.ShloMosaic.Lib.ValueIdx

/-!
  The reference program's result, read index by index on the extended reals, is the layer's function: the
  normalisation `outR` of the perceptron `mlp` of the aggregated messages.

  The gather of the source rows and the sum of the messages per destination node are carried as the program's own
  two terms (`gatheredR`, `aggR`), never opened.  Every other stage is read at an index: a contraction is the sum over
  the contracted axis of products, a broadcast reads its operand at the column, a column reduction is its zero
  initial value plus the sum over the 50000 rows.  The stages, in order: the edge's linear image plus bias; the
  message `gathered + (linear + bias)`; the aggregate; the rectified hidden row; the perceptron's output `h`; the
  column's mean; the deviation `h - mean` (the program forms it twice, from one mean); the variance as the mean of
  the products of deviations; and `((h - mean) · rsqrt (var + eps)) · γ + β`.
-/

open scoped BigOperators

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo Idealize.ShloMosaic.ValueIdx

/-- The source node's row for every edge: the gather of the node features at the source indices, a negative index
    first shifted by the number of nodes. -/
def gatheredR (nf : Vec Ideal S50000x128 .f32) (src : Vec Ideal S800000 .i32) : Vec Ideal S800000x128 .f32 :=
  Host.gather gather_S50000x128_S800000x1_S800000x128_1_0_n_n_0_1_1128 nf
    (broadcastInDim S800000x1 ![0] bcast_S800000_S800000x1_0
      (select (cmpi .slt src (broadcastInDim S800000 ![] bcast_S_S800000 (constantI S_ 32 0#32)))
        (addi src (broadcastInDim S800000 ![] bcast_S_S800000 (constantI S_ 32 50000#32))) src))

/-- The messages summed per destination node: the scatter-add of the edge rows into a zero array at the destination
    indices. -/
def aggR (dst : Vec Ideal S800000 .i32) (u : Vec Ideal S800000x128 .f32) : Vec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst) u

/-- The program's gather stage is `gatheredR` of the node features and the source indices. -/
theorem gathered_eq (x0 : Vec Ideal S50000x128 .f32) (x10 : Vec Ideal S800000 .i32) :
    val_main_v10 (F := Ideal) x0 x10 = gatheredR x0 x10 := rfl

/-- The program's scatter-add stage is `aggR` of the destination indices and the message stage. -/
theorem agg_eq (x0 : Vec Ideal S50000x128 .f32) (x1 : Vec Ideal S800000x16 .f32) (x2 : Vec Ideal S16x128 .f32)
    (x3 : Vec Ideal S128 .f32) (x10 x11 : Vec Ideal S800000 .i32) :
    val_main_v14 (F := Ideal) x0 x1 x2 x3 x10 x11 = aggR x11 (val_main_v11 (F := Ideal) x0 x1 x2 x3 x10) := rfl

variable (x0 : Vec Ideal S50000x128 .f32) (x1 : Vec Ideal S800000x16 .f32) (x2 : Vec Ideal S16x128 .f32)
  (x3 : Vec Ideal S128 .f32) (x4 : Vec Ideal S128x256 .f32) (x5 : Vec Ideal S256 .f32) (x6 : Vec Ideal S256x128 .f32)
  (x7 x8 x9 : Vec Ideal S128 .f32) (x10 x11 : Vec Ideal S800000 .i32)

/-- An edge's linear image plus the bias: the contraction over the 16 edge features, then the bias of the column. -/
theorem edge_eq (i : S800000x128.Idx) :
    val_main_v3 (F := Ideal) x1 x2 x3 i = Cert.Spec.edgeLin x1 x2 i + x3 (ix1 (i 1)) := by
  have el : ∀ k : Fin 16, lidx_main_v0 i k = ix2 (i 0) k := fun k =>
    funext fun a => Fin.ext (by match a with | ⟨0, _⟩ => rfl | ⟨1, _⟩ => rfl)
  have er : ∀ k : Fin 16, ridx_main_v0 i k = ix2 k (i 1) := fun k =>
    funext fun a => Fin.ext (by match a with | ⟨0, _⟩ => rfl | ⟨1, _⟩ => rfl)
  have eb : idx_main_v1 (idx_main_v2 i) = ix1 (i 1) :=
    funext fun a => Fin.ext (by match a with | ⟨0, _⟩ => rfl)
  rw [val_main_v3_apply, val_main_v0_apply, val_main_v2_apply, val_main_v1_apply]
  simp only [el, er, eb, Ideal.addf_def]
  rfl

/-- The message of an edge: the gathered row plus (linear image plus bias). -/
theorem msg_eq : val_main_v11 (F := Ideal) x0 x1 x2 x3 x10 = Cert.Spec.msgR (gatheredR x0 x10) x1 x2 x3 := by
  funext i
  rw [val_main_v11_apply, edge_eq, gathered_eq]
  rfl

/-- The aggregate: the messages summed per destination node. -/
theorem aggregate_eq :
    val_main_v14 (F := Ideal) x0 x1 x2 x3 x10 x11 = aggR x11 (Cert.Spec.msgR (gatheredR x0 x10) x1 x2 x3) := by
  rw [agg_eq, msg_eq]

/-- The hidden layer on a node row: the contraction with the first weight, plus bias, rectified against zero. -/
theorem hidden_eq :
    val_main_v19 (F := Ideal) x0 x1 x2 x3 x4 x5 x10 x11
      = Cert.Spec.hidden (val_main_v14 (F := Ideal) x0 x1 x2 x3 x10 x11) x4 x5 := by
  funext i
  have el : ∀ k : Fin 128, lidx_main_v15 i k = ix2 (i 0) k := fun k =>
    funext fun a => Fin.ext (by match a with | ⟨0, _⟩ => rfl | ⟨1, _⟩ => rfl)
  have er : ∀ k : Fin 128, ridx_main_v15 i k = ix2 k (i 1) := fun k =>
    funext fun a => Fin.ext (by match a with | ⟨0, _⟩ => rfl | ⟨1, _⟩ => rfl)
  have eb : idx_main_v16 (idx_main_v17 i) = ix1 (i 1) :=
    funext fun a => Fin.ext (by match a with | ⟨0, _⟩ => rfl)
  rw [val_main_v19_apply, val_main_v18_apply, val_main_v15_apply, val_main_v17_apply, val_main_v16_apply,
    val_main_call0_v0_apply, val_main_call0_cst_apply]
  simp only [el, er, eb, Ideal.addf_def, Ideal.maximumf_def, Ideal.ofBits_def, Ideal.ofBits_zero_f32]
  rfl

/-- The perceptron's output on a node row: the hidden row against the second weight, plus bias. -/
theorem mlp_eq :
    val_main_v23 (F := Ideal) x0 x1 x2 x3 x4 x5 x6 x7 x10 x11
      = Cert.Spec.mlp (val_main_v14 (F := Ideal) x0 x1 x2 x3 x10 x11) x4 x5 x6 x7 := by
  funext i
  have el : ∀ k : Fin 256, lidx_main_v20 i k = ix2 (i 0) k := fun k =>
    funext fun a => Fin.ext (by match a with | ⟨0, _⟩ => rfl | ⟨1, _⟩ => rfl)
  have er : ∀ k : Fin 256, ridx_main_v20 i k = ix2 k (i 1) := fun k =>
    funext fun a => Fin.ext (by match a with | ⟨0, _⟩ => rfl | ⟨1, _⟩ => rfl)
  have eb : idx_main_v21 (idx_main_v22 i) = ix1 (i 1) :=
    funext fun a => Fin.ext (by match a with | ⟨0, _⟩ => rfl)
  rw [val_main_v23_apply, val_main_v20_apply, val_main_v22_apply, val_main_v21_apply, hidden_eq]
  simp only [el, er, eb, Ideal.addf_def]
  rfl

/-- A column's mean over the nodes: the zero initial value plus the column sum, divided by the number of nodes. -/
theorem mean_eq (i : S128.Idx) :
    val_main_v26 (F := Ideal) x0 x1 x2 x3 x4 x5 x6 x7 x10 x11 i
      = Cert.Spec.mean (val_main_v23 (F := Ideal) x0 x1 x2 x3 x4 x5 x6 x7 x10 x11) (i 0) := by
  have e : ∀ k : Fin 50000, idx_main_v24 i k = ix2 k (i 0) := fun k =>
    funext fun a => Fin.ext (by match a with | ⟨0, _⟩ => rfl | ⟨1, _⟩ => rfl)
  rw [val_main_v26_apply, val_main_v24_apply, val_main_v25_apply, val_main_cst_1_apply, val_main_cst_2_apply]
  simp only [e, Ideal.hostDivf_def, Ideal.ofBits_def, Ideal.ofBits_zero_f32, zero_add]
  rfl

/-- An entry's deviation from its column's mean, as the variance reads it. -/
theorem dev_eq (j : S50000x128.Idx) :
    val_main_v29 (F := Ideal) x0 x1 x2 x3 x4 x5 x6 x7 x10 x11 j
      = val_main_v23 (F := Ideal) x0 x1 x2 x3 x4 x5 x6 x7 x10 x11 j
        - Cert.Spec.mean (val_main_v23 (F := Ideal) x0 x1 x2 x3 x4 x5 x6 x7 x10 x11) (j 1) := by
  rw [val_main_v29_apply, val_main_v28_apply, val_main_v27_apply, mean_eq]
  rfl

/-- The same deviation, as the result reads it (the mean is broadcast a second time). -/
theorem dev_eq' (j : S50000x128.Idx) :
    val_main_v36 (F := Ideal) x0 x1 x2 x3 x4 x5 x6 x7 x10 x11 j
      = val_main_v23 (F := Ideal) x0 x1 x2 x3 x4 x5 x6 x7 x10 x11 j
        - Cert.Spec.mean (val_main_v23 (F := Ideal) x0 x1 x2 x3 x4 x5 x6 x7 x10 x11) (j 1) := by
  rw [val_main_v36_apply, val_main_v35_apply, val_main_v34_apply, mean_eq]
  rfl

/-- A column's variance: the mean of the squared deviations from the column's mean, the square written as a product. -/
theorem var_eq (i : S128.Idx) :
    val_main_v33 (F := Ideal) x0 x1 x2 x3 x4 x5 x6 x7 x10 x11 i
      = Cert.Spec.varR (val_main_v23 (F := Ideal) x0 x1 x2 x3 x4 x5 x6 x7 x10 x11) (i 0) := by
  have hs : ∀ k : Fin 50000, val_main_v30 (F := Ideal) x0 x1 x2 x3 x4 x5 x6 x7 x10 x11 (idx_main_v31 i k)
      = (val_main_v23 (F := Ideal) x0 x1 x2 x3 x4 x5 x6 x7 x10 x11 (ix2 k (i 0))
          - Cert.Spec.mean (val_main_v23 (F := Ideal) x0 x1 x2 x3 x4 x5 x6 x7 x10 x11) (i 0))
        * (val_main_v23 (F := Ideal) x0 x1 x2 x3 x4 x5 x6 x7 x10 x11 (ix2 k (i 0))
          - Cert.Spec.mean (val_main_v23 (F := Ideal) x0 x1 x2 x3 x4 x5 x6 x7 x10 x11) (i 0)) := by
    intro k
    have e : idx_main_v31 i k = ix2 k (i 0) :=
      funext fun a => Fin.ext (by match a with | ⟨0, _⟩ => rfl | ⟨1, _⟩ => rfl)
    rw [val_main_v30_apply, dev_eq, e]
    rfl
  rw [val_main_v33_apply, val_main_v31_apply, val_main_v32_apply, val_main_cst_3_apply, val_main_cst_4_apply]
  simp only [hs, Ideal.hostDivf_def, Ideal.ofBits_def, Ideal.ofBits_zero_f32, zero_add]
  rfl

/-- The normalised result: the deviation from the column's mean, times the reciprocal root of the variance plus the
    offset, times the scale, plus the shift. -/
theorem out_eq :
    val_main_v48 (F := Ideal) x0 x1 x2 x3 x4 x5 x6 x7 x8 x9 x10 x11
      = Cert.Spec.outR (val_main_v23 (F := Ideal) x0 x1 x2 x3 x4 x5 x6 x7 x10 x11) x8 x9 := by
  funext i
  have eg : idx_main_v43 (idx_main_v44 i) = ix1 (i 1) :=
    funext fun a => Fin.ext (by match a with | ⟨0, _⟩ => rfl)
  have eb : idx_main_v46 (idx_main_v47 i) = ix1 (i 1) :=
    funext fun a => Fin.ext (by match a with | ⟨0, _⟩ => rfl)
  rw [val_main_v48_apply, val_main_v45_apply, val_main_v42_apply, dev_eq', val_main_v41_apply, val_main_v40_apply,
    val_main_v39_apply, val_main_v38_apply, var_eq, val_main_v37_apply, val_main_cst_5_apply, val_main_v44_apply,
    val_main_v43_apply, val_main_v47_apply, val_main_v46_apply, eg, eb]
  rfl

/-- The reference's result as one function of its arguments. -/
theorem refVal_eq :
    val_main_v48 (F := Ideal) x0 x1 x2 x3 x4 x5 x6 x7 x8 x9 x10 x11
      = Cert.Spec.outR (Cert.Spec.mlp (aggR x11 (Cert.Spec.msgR (gatheredR x0 x10) x1 x2 x3)) x4 x5 x6 x7) x8 x9 := by
  rw [out_eq, mlp_eq, aggregate_eq]

/-- The reference run's result buffer holds the specification's function of the argument arrays. -/
theorem result_eq (m : (ℓ : Loc nD τ sig) → Buf (Elt Ideal) ℓ) (c : Dev nD) :
    res_main_v48 (F := Ideal) m c
      = Cert.Spec.outR (Cert.Spec.mlp (aggR (m ((c.tc : Thread nD τ).loc main_arg11))
          (Cert.Spec.msgR (gatheredR (m ((c.tc : Thread nD τ).loc main_arg0)) (m ((c.tc : Thread nD τ).loc main_arg10)))
            (m ((c.tc : Thread nD τ).loc main_arg1)) (m ((c.tc : Thread nD τ).loc main_arg2))
            (m ((c.tc : Thread nD τ).loc main_arg3))))
          (m ((c.tc : Thread nD τ).loc main_arg4)) (m ((c.tc : Thread nD τ).loc main_arg5))
          (m ((c.tc : Thread nD τ).loc main_arg6)) (m ((c.tc : Thread nD τ).loc main_arg7)))
        (m ((c.tc : Thread nD τ).loc main_arg8)) (m ((c.tc : Thread nD τ).loc main_arg9)) :=
  (val_main_v48_eq m c).trans (refVal_eq _ _ _ _ _ _ _ _ _ _ _ _)

end Cert.ReferenceIdeal.RefValue
end
-- ==== Proof.Bridge.lean ====
import proofs.«169544_j1039382086070_1_alg».proof.Proof.RefVal
import proofs.«169544_j1039382086070_1_alg».proof.Proof.KHostVal
import proofs.«169544_j1039382086070_1_alg».proof.Proof.Spec

/-!
  The two programs' results are one function on real inputs.

  Both results are the layer's function of the same two carried maps: the rows gathered at the source indices and the
  rows summed per destination index.  Each program spells those two maps over its own shape records, which differ
  only in a proof field, so the two spellings are one term.  What remains is the specification's two laws: the
  message's three summands regroup by associativity, and the two spellings of the normalisation agree wherever the
  perceptron's output is real — which it is when the inputs are, since real entries stay real through the gather,
  the message, the sum per destination and the perceptron.
-/

noncomputable section

namespace Cert.Bridge

open Idealize.ShloMosaic Cert.LibReal
open Cert.ReferenceIdeal (S50000x128 S800000x16 S16x128 S128 S128x256 S256 S256x128 S800000 S800000x128)

/-- The gathered rows: the two programs' terms are one. -/
theorem gathered_cross (nf : Vec Ideal S50000x128 .f32) (src : Vec Ideal S800000 .i32) :
    Cert.ReferenceIdeal.RefValue.gatheredR nf src = Cert.KernelIdeal.HandValue.gathered (F := Ideal) nf src := rfl

/-- The rows summed per destination: the two programs' terms are one. -/
theorem agg_cross (dst : Vec Ideal S800000 .i32) (u : Vec Ideal S800000x128 .f32) :
    Cert.ReferenceIdeal.RefValue.aggR dst u = Cert.KernelIdeal.HandValue.aggregated (F := Ideal) dst u := rfl

/-- On real inputs the layer in the kernel's arrangement is the layer in the reference's. -/
theorem values_agree (x0 : Vec Ideal S50000x128 .f32) (x1 : Vec Ideal S800000x16 .f32) (x2 : Vec Ideal S16x128 .f32)
    (x3 : Vec Ideal S128 .f32) (x4 : Vec Ideal S128x256 .f32) (x5 : Vec Ideal S256 .f32) (x6 : Vec Ideal S256x128 .f32)
    (x7 x8 x9 : Vec Ideal S128 .f32) (x10 x11 : Vec Ideal S800000 .i32)
    (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) (h7 : ∀ i, IsReal (x7 i))
    (h8 : ∀ i, IsReal (x8 i)) (h9 : ∀ i, IsReal (x9 i)) :
    Cert.Spec.outK (Cert.Spec.mlp (Cert.KernelIdeal.HandValue.aggregated (F := Ideal) x11
        (Cert.Spec.msgK (Cert.KernelIdeal.HandValue.gathered (F := Ideal) x0 x10) x1 x2 x3)) x4 x5 x6 x7) x8 x9
      = Cert.Spec.outR (Cert.Spec.mlp (Cert.ReferenceIdeal.RefValue.aggR x11
        (Cert.Spec.msgR (Cert.ReferenceIdeal.RefValue.gatheredR x0 x10) x1 x2 x3)) x4 x5 x6 x7) x8 x9 := by
  rw [Cert.Spec.msgK_eq_msgR, gathered_cross, agg_cross]
  exact Cert.Spec.outK_eq_outR _ _ _
    (Cert.Spec.mlp_isReal _ _ _ _ _
      (Cert.KernelIdeal.HandValue.aggregated_isReal _ _
        (Cert.Spec.msgR_isReal _ _ _ _ (Cert.KernelIdeal.HandValue.gathered_isReal _ _ h0) h1 h2 h3))
      h4 h5 h6 h7)
    h8 h9

end Cert.Bridge

end
-- ==== Proof.Finite.lean ====
import Idealize.ShloMosaic.PureOps.Ideal
import Idealize.ShloMosaic.Lib.ValueIdx
import Idealize.ShloMosaic.Lib.ReduceAll
import proofs.«169544_j1039382086070_1_alg».proof.Pre_finite_inputs
import proofs.«169544_j1039382086070_1_alg».proof.Proof.LibReal

/-!
  From the precondition to the reality of every float entry.

  The precondition says of each of the ten float arrays that `|x| < +∞` holds at every index (a
  conjunction over all indices, and the ten conjunctions joined).  An extended real whose absolute
  value `max x (-x)` lies below `⊤` is neither `⊤` nor `⊥`, hence a real number.
-/

noncomputable section

namespace Cert.Finite

open Idealize.ShloMosaic Idealize.ShloMosaic.ValueIdx Cert.LibReal Cert.Pre_finite_inputs

variable [Cert.Pre_finite_inputs.Facts]

/-- The result shape has no axes, so it has one index. -/
instance : Subsingleton S_.Idx := ⟨fun a b => funext fun d => d.elim0⟩

/-- The pattern of `+∞` denotes `⊤`. -/
theorem ofBits_inf : Ideal.ofBits .f32 0x7F800000#32 = (⊤ : EReal) := by
  simp [Ideal.ofBits, Ideal.ieee]

/-- An extended real with `|x| < +∞` is a real: at `⊥` and at `⊤` the absolute value `max x (-x)` is `⊤`. -/
theorem isReal_of_abs_lt_inf (x : EReal)
    (h : FloatOps.cmpf (F := Ideal) (φ := .f32) .olt (FloatOps.hostAbsf (F := Ideal) (φ := .f32) x)
          (FloatOps.ofBits (F := Ideal) .f32 0x7F800000#32) = 1#1) : IsReal x := by
  change Ideal.cmp .olt (max x (-x)) (Ideal.ofBits .f32 0x7F800000#32) = 1#1 at h
  rw [ofBits_inf] at h
  unfold Ideal.cmp at h
  induction x using EReal.rec with
  | bot => simp at h
  | coe r => exact IsReal.coe r
  | top => simp at h

/-- A conjunction of two one-bit results that is 1 has both 1. -/
theorem andi_split {x y : IVec S_ 1} (h : andi x y ix0 = 1#1) : x ix0 = 1#1 ∧ y ix0 = 1#1 :=
  IntOp.andi_eq_one.1 h

/-- One array: if `|x| < +∞` conjoined over every index is 1, every entry is a real. -/
theorem all_real {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi
          (cmpf .olt (Host.absf x) (broadcastInDim s ![] hb (constant (F := Ideal) S_ .f32 0x7F800000#32)))
          (constantI S_ 1 1#1) hr hu ix0 = 1#1) :
    ∀ i, IsReal (x i) := fun i =>
  isReal_of_abs_lt_inf (x i) (Host.reduce_andi_all _ _ hr hu ix0 h i)

/-- The precondition at the extended reals: the ten conjunctions are split off one by one, and each says its
    array's entries are reals. -/
theorem inputs_real (a0 : FVec Ideal S50000x128 .f32) (a1 : FVec Ideal S800000x16 .f32)
    (a2 : FVec Ideal S16x128 .f32) (a3 : FVec Ideal S128 .f32) (a4 : FVec Ideal S128x256 .f32)
    (a5 : FVec Ideal S256 .f32) (a6 : FVec Ideal S256x128 .f32) (a7 a8 a9 : FVec Ideal S128 .f32)
    (a10 a11 : IVec S800000 32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) := by
  have h0 := congrFun h ix0
  dsimp only [fn, fn_part1, fn_part2] at h0
  obtain ⟨h0, h9⟩ := andi_split h0
  obtain ⟨h0, h8⟩ := andi_split h0
  obtain ⟨h0, h7⟩ := andi_split h0
  obtain ⟨h0, h6⟩ := andi_split h0
  obtain ⟨h0, h5⟩ := andi_split h0
  obtain ⟨h0, h4⟩ := andi_split h0
  obtain ⟨h0, h3⟩ := andi_split h0
  obtain ⟨h0, h2⟩ := andi_split h0
  obtain ⟨h0, h1⟩ := andi_split h0
  exact ⟨all_real a0 _ _ _ h0, all_real a1 _ _ _ h1, all_real a2 _ _ _ h2, all_real a3 _ _ _ h3,
    all_real a4 _ _ _ h4, all_real a5 _ _ _ h5, all_real a6 _ _ _ h6, all_real a7 _ _ _ h7,
    all_real a8 _ _ _ h8, all_real a9 _ _ _ h9⟩

end Cert.Finite

end
-- ==== Proof.RefSide.lean ====
import proofs.«169544_j1039382086070_1_alg».proof.Defs
import proofs.«169544_j1039382086070_1_alg».proof.Proof.Gen.KernelIdeal
import proofs.«169544_j1039382086070_1_alg».proof.Proof.Gen.ReferenceIdeal
import proofs.«169544_j1039382086070_1_alg».proof.Proof.Gen.ReferenceIdeal.Run
import proofs.«169544_j1039382086070_1_alg».proof.Proof.Gen.Pre_finite_inputs
import proofs.«169544_j1039382086070_1_alg».proof.Proof.RefVal
import proofs.«169544_j1039382086070_1_alg».proof.Proof.Bridge
import proofs.«169544_j1039382086070_1_alg».proof.Proof.Finite
import proofs.«169544_j1039382086070_1_alg».proof.Proof.KHostVal

/-!
  The reference's half of the equality of results.

  The common result is named as the layer's function, in the kernel's arrangement, of the kernel program's argument
  arrays.  The reference's run ends with its result buffer at the layer's function, in the reference's arrangement, of
  its own argument arrays; those agree with the kernel's one by one, the precondition makes every float entry a real
  number, and on real entries the two arrangements are one function.
-/

noncomputable section

namespace Cert.Proof

open Idealize.ShloMosaic Idealize.ShloMosaic.TcCoe Idealize.SL.Sem

/-- The layer's function, in the kernel's arrangement, of the kernel program's argument arrays on a device. -/
def kernelOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v28) :=
  Cert.Spec.outK (Cert.Spec.mlp (Cert.KernelIdeal.HandValue.aggregated (F := Ideal) (m ((c.tc : Thread Cert.KernelIdeal.nD Cert.KernelIdeal.τ).loc Cert.KernelIdeal.main_arg11))
      (Cert.Spec.msgK (Cert.KernelIdeal.HandValue.gathered (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg10)))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- From a memory agreeing with the kernel's on the arguments, the reference runs, ends with its result at the common
    value, and leaves its arguments unchanged. -/
theorem reference_side
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hpre : Cert.Pre_KernelIdeal (hPre_finite_inputs := Cert.Pre_finite_inputs.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v48) = kernelOut m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) := by
  refine (θ_run Cert.ReferenceIdeal.defs _ _).mono (fun _ h c => ⟨(h c).1.trans ?_, (h c).2⟩)
    (Cert.ReferenceIdeal.Value.run (F := Ideal) m' g')
  obtain ⟨a0, a1, a2, a3, a4, a5, a6, a7, a8, a9, a10, a11⟩ := hagree c
  obtain ⟨h0, h1, h2, h3, h4, h5, h6, h7, h8, h9⟩ :=
    Cert.Finite.inputs_real _ _ _ _ _ _ _ _ _ _ _ _ (hpre c)
  rw [Cert.ReferenceIdeal.RefValue.result_eq, a0, a1, a2, a3, a4, a5, a6, a7, a8, a9, a10, a11]
  exact (Cert.Bridge.values_agree _ _ _ _ _ _ _ _ _ _ _ _ h0 h1 h2 h3 h4 h5 h6 h7 h8 h9).symm

end Cert.Proof

end
-- ==== Proof.lean ====
/- The certificate's claims, assembled.
   The kernel's program is three kernel regions among host operations: a gather of source rows, a region that
   adds the edges' linear image and a bias to them, a summation per destination node, a region that applies a
   two-layer perceptron to every node row while accumulating each column's sum and sum of squares, a few
   vector operations that turn those into a scale and a shift row, and a region that applies them.
   Its frame (at the word-level and at the ideal instance alike) is the run of its six segments, each region
   entered from the buffers the segment before it left. At the ideal instance the run names every buffer at
   the end, and the result buffer holds `h · scale + shift` with the variance the mean of squares less the
   squared mean; the reference's run holds `((h − mean) · r) · γ + β` with the variance the mean of squared
   deviations. The precondition makes every float input a real number, the gather, the sums and the perceptron
   keep real entries real, and on real entries the two spellings are one function. -/
import proofs.«169544_j1039382086070_1_alg».proof.Defs
import proofs.«169544_j1039382086070_1_alg».proof.Proof.Gen.Kernel
import proofs.«169544_j1039382086070_1_alg».proof.Proof.Gen.KernelIdeal
import proofs.«169544_j1039382086070_1_alg».proof.Proof.Gen.ReferenceIdeal
import proofs.«169544_j1039382086070_1_alg».proof.Proof.Gen.ReferenceIdeal.Run
import proofs.«169544_j1039382086070_1_alg».proof.Proof.Gen.ReferenceIdeal.Read
import proofs.«169544_j1039382086070_1_alg».proof.Proof.Gen.Pre_finite_inputs
import proofs.«169544_j1039382086070_1_alg».proof.Proof.K.Run
import proofs.«169544_j1039382086070_1_alg».proof.Proof.KI.Run
import proofs.«169544_j1039382086070_1_alg».proof.Proof.KVal
import proofs.«169544_j1039382086070_1_alg».proof.Proof.KV1
import proofs.«169544_j1039382086070_1_alg».proof.Proof.RefSide
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel (hKernel := Cert.Kernel.Gen.facts) (hPre_finite_inputs := Cert.Pre_finite_inputs.Gen.facts) :=
  fun m g _ => Cert.Kernel.Hand.frame m g

/-- So does the idealized program. -/
theorem frame_ki : Cert.frame_KernelIdeal (hKernelIdeal := Cert.KernelIdeal.Gen.facts) (hPre_finite_inputs := Cert.Pre_finite_inputs.Gen.facts) :=
  fun m g _ => Cert.KernelIdeal.Hand.frame m g

/-- The reference is host operations only: its frame is its run with the result dropped. -/
theorem frame_ri : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.Value.run (F := Ideal) m g)

/-- At the ideal instance the kernel's program ends with its result buffer at the layer's function of the
    arguments in the kernel's arrangement (the last boundary's contents read at the result and at each argument). -/
theorem kernel_side (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v28) = kernelOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono (fun r h c => ⟨
      (h c _ (Cert.KernelIdeal.Hand.mem_uc Cert.KernelIdeal.main_v28 (by decide))).trans
        (Cert.KernelIdeal.HandValue.result_value m g c (fun V c => Cert.KernelIdeal.HandValue.h_final V c)
          (fun V c => Cert.KernelIdeal.HandValue.stats_final V c)),
      (h c _ (Cert.KernelIdeal.Hand.mem_uc Cert.KernelIdeal.main_arg0 (by decide))).trans (Cert.KernelIdeal.Hand.W6_main_arg0 m g c),
      (h c _ (Cert.KernelIdeal.Hand.mem_uc Cert.KernelIdeal.main_arg1 (by decide))).trans (Cert.KernelIdeal.Hand.W6_main_arg1 m g c),
      (h c _ (Cert.KernelIdeal.Hand.mem_uc Cert.KernelIdeal.main_arg2 (by decide))).trans (Cert.KernelIdeal.Hand.W6_main_arg2 m g c),
      (h c _ (Cert.KernelIdeal.Hand.mem_uc Cert.KernelIdeal.main_arg3 (by decide))).trans (Cert.KernelIdeal.Hand.W6_main_arg3 m g c),
      (h c _ (Cert.KernelIdeal.Hand.mem_uc Cert.KernelIdeal.main_arg4 (by decide))).trans (Cert.KernelIdeal.Hand.W6_main_arg4 m g c),
      (h c _ (Cert.KernelIdeal.Hand.mem_uc Cert.KernelIdeal.main_arg5 (by decide))).trans (Cert.KernelIdeal.Hand.W6_main_arg5 m g c),
      (h c _ (Cert.KernelIdeal.Hand.mem_uc Cert.KernelIdeal.main_arg6 (by decide))).trans (Cert.KernelIdeal.Hand.W6_main_arg6 m g c),
      (h c _ (Cert.KernelIdeal.Hand.mem_uc Cert.KernelIdeal.main_arg7 (by decide))).trans (Cert.KernelIdeal.Hand.W6_main_arg7 m g c),
      (h c _ (Cert.KernelIdeal.Hand.mem_uc Cert.KernelIdeal.main_arg8 (by decide))).trans (Cert.KernelIdeal.Hand.W6_main_arg8 m g c),
      (h c _ (Cert.KernelIdeal.Hand.mem_uc Cert.KernelIdeal.main_arg9 (by decide))).trans (Cert.KernelIdeal.Hand.W6_main_arg9 m g c),
      (h c _ (Cert.KernelIdeal.Hand.mem_uc Cert.KernelIdeal.main_arg10 (by decide))).trans (Cert.KernelIdeal.Hand.W6_main_arg10 m g c),
      (h c _ (Cert.KernelIdeal.Hand.mem_uc Cert.KernelIdeal.main_arg11 (by decide))).trans (Cert.KernelIdeal.Hand.W6_main_arg11 m g c)⟩)
    (Cert.KernelIdeal.Hand.run_all (F := Ideal) m g)

/-- The two idealized programs, from memories agreeing on the arguments, end with one result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  exact ⟨kernelOut m, kernel_side m g, reference_side m m' g' hpre hagree⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
